-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S50000x128 .f32) (main_arg1 : IVec S2x1600000 32) (main_arg2 : IVec S50000 32) (main_arg3 : FVec F S3x128x128 .f32) (main_arg4 : FVec F S3x128x128 .f32) (main_arg5 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩

abbrev nBuf : Space → Nat
  | .hbm => 101
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128x128, .f32⟩
  | .hbm, ⟨69, _⟩ => ⟨S128x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S50000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S50000x128, .f32⟩
  | .hbm, ⟨87, _⟩ => ⟨S1600000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x1, .i32⟩
  | .hbm, ⟨100, _⟩ => ⟨S128x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .i32⟩
  | .local _ .vmem, ⟨30, _⟩ => ⟨S5000x1, .i32⟩
  | .local _ .vmem, ⟨31, _⟩ => ⟨S128x128, .f32⟩
  | .local _ .vmem, ⟨32, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S128x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S50000x128, .f32⟩
  | .hbm, ⟨48, _⟩ => ⟨S1x128x128, .f32⟩
  | .hbm, ⟨49, _⟩ => ⟨S128x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S50000x128, .f32⟩
  | .hbm, ⟨71, _⟩ => ⟨S1600000x1, .i32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128x128, .f32⟩
  | .hbm, ⟨76, _⟩ => ⟨S128x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S1600000, .i32⟩
  | .hbm, ⟨92, _⟩ => ⟨S1600000, .i1⟩
  | .hbm, ⟨93, _⟩ => ⟨S_, .i32⟩
  | .hbm, ⟨94, _⟩ => ⟨S1600000, .i32⟩
  | .hbm, ⟨95, _⟩ => ⟨S1600000, .i32⟩
  | .hbm, ⟨96, _⟩ => ⟨S1600000, .i32⟩
  | .hbm, ⟨97, _⟩ => ⟨S1600000x1, .i32⟩
  | .hbm, ⟨98, _⟩ => ⟨S1600000x128, .f32⟩
  | .hbm, ⟨99, _⟩ => ⟨S_, .f32⟩
  | .hbm, ⟨100, _⟩ => ⟨S50000x128, .f32⟩
  | .hbm, ⟨101, _⟩ => ⟨S1600000x1, .i32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S1x128x128, .f32⟩
  | .hbm, ⟨106, _⟩ => ⟨S128x128, .f32⟩
  | .hbm, ⟨107, _⟩ => ⟨S50000x128, .f32⟩
  | .hbm, ⟨108, _⟩ => ⟨S1x128x128, .f32⟩
  | .hbm, ⟨109, _⟩ => ⟨S128x128, .f32⟩
  | .hbm, ⟨110, _⟩ => ⟨S50000x128, .f32⟩
  | .hbm, ⟨111, _⟩ => ⟨S50000x128, .f32⟩
  | .hbm, ⟨112, _⟩ => ⟨S1x128, .f32⟩
  | .hbm, ⟨113, _⟩ => ⟨S128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S128x128, .f32⟩
  | .hbm, ⟨119, _⟩ => ⟨S50000x1, .i32⟩
  | .hbm, ⟨120, _⟩ => ⟨S128x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call1_cst : Ref sig .tc := ⟨.hbm, 57, rfl⟩
abbrev main_call1_v0 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call2_cst : Ref sig .tc := ⟨.hbm, 87, rfl⟩
abbrev main_call2_v0 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.K.Comb0.lean ====
/-
  The first node-update kernel as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.Kernel.Launch
import proofs.«415025_j5626407158206_1_alg».proof.Proof.Gen.Kernel.Skeleton
import proofs.«415025_j5626407158206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's buffer holds its block at every row block, fetched there or not: a window that is not
    fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rN0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- What the body leaves in the result's buffer, from the five input blocks: its one store. -/
def out0_5 (x0 x1 : Vec F S5000x128 .f32) (x2 x3 : Vec F S128x128 .f32) (x4 : Vec F S1x128 .f32) : Vec F S5000x128 .f32 :=
  View.canon [⟨rN0, k0_pay1 (View.ld x0 rN0) (View.ld x1 rN0) (View.ld x2 rW0) (View.ld x3 rW0) (View.ld x4 rB0)⟩]

/-- The store covers the buffer. -/
theorem cover0_5 (p0 : Vec F S5000x128 .f32) (y : S5000x128.Idx) :
    ∃ pc ∈ ([⟨rN0, p0⟩] : List (View.Piece (Elt F) S5000x128 .f32)), y ∈ pc.1.set :=
  View.cover_of_tiled [⟨rN0, p0⟩] S5000x128.size (by rfl) y

set_option maxHeartbeats 1000000 in
/-- The body on whole buffers, the inputs' at known contents and the result's at anything, runs to the continuation
    holding the inputs' as they were and the result's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The stage's bookkeeping data on core c: the arrays as the stage finds them; after the body at row block t each
    input's buffer at its block and the result's at `out0_5` of the input blocks; the scratch buffers and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at row block t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any row block: the inputs' buffers hold their blocks, so the run applies; the untouched state and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Comb1.lean ====
/-
  The node-update kernel of layer 2 as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.Kernel.Launch
import proofs.«415025_j5626407158206_1_alg».proof.Proof.Gen.Kernel.Skeleton
import proofs.«415025_j5626407158206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds its block at every row block, fetched there or not: a window that is not
    fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rN1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- What the body leaves in the result's buffer, from the five input blocks: its one store. -/
def out1_5 (x0 x1 : Vec F S5000x128 .f32) (x2 x3 : Vec F S128x128 .f32) (x4 : Vec F S1x128 .f32) : Vec F S5000x128 .f32 :=
  View.canon [⟨rN1, k1_pay1 (View.ld x0 rN1) (View.ld x1 rN1) (View.ld x2 rW1) (View.ld x3 rW1) (View.ld x4 rB1)⟩]

/-- The store covers the buffer. -/
theorem cover1_5 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole buffers, the inputs' at known contents and the result's at anything, runs to the continuation
    holding the inputs' as they were and the result's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The stage's bookkeeping data on core c: the arrays as the stage finds them; after the body at row block t each
    input's buffer at its block and the result's at `out1_5` of the input blocks; the scratch buffers and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at row block t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any row block: the inputs' buffers hold their blocks, so the run applies; the untouched state and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Comb2.lean ====
/-
  The node-update kernel of layer 3 as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.Kernel.Launch
import proofs.«415025_j5626407158206_1_alg».proof.Proof.Gen.Kernel.Skeleton
import proofs.«415025_j5626407158206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's buffer holds its block at every row block, fetched there or not: a window that is not
    fetched again has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rN2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- What the body leaves in the result's buffer, from the five input blocks: its one store. -/
def out2_5 (x0 x1 : Vec F S5000x128 .f32) (x2 x3 : Vec F S128x128 .f32) (x4 : Vec F S1x128 .f32) : Vec F S5000x128 .f32 :=
  View.canon [⟨rN2, k2_pay1 (View.ld x0 rN2) (View.ld x1 rN2) (View.ld x2 rW2) (View.ld x3 rW2) (View.ld x4 rB2)⟩]

/-- The store covers the buffer. -/
theorem cover2_5 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The body on whole buffers, the inputs' at known contents and the result's at anything, runs to the continuation
    holding the inputs' as they were and the result's at `out2_5` of them. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The stage's bookkeeping data on core c: the arrays as the stage finds them; after the body at row block t each
    input's buffer at its block and the result's at `out2_5` of the input blocks; the scratch buffers and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at row block t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any row block: the inputs' buffers hold their blocks, so the run applies; the untouched state and the
    core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Pool.lean ====
/-
  The pooling kernel as one stage of the program: ten row blocks of 5000 nodes. A 128 × 128 accumulator kept in
  scratch memory is set to zero at the first row block; at every row block the block's contribution (the product of
  the transposed one-hot matrix of the block's graph ids with the block's features) is added to it; at the last row
  block the accumulator is copied into the result's buffer, which is written back only there.

  Stated at any contents V of the core's buffers when the stage is entered: the accumulator after each row block, by
  recursion on the row block; the stage's bookkeeping data over it (the scratch at the accumulator between row blocks,
  the result's buffer idle until the last); and the body's run in its three cases (first, middle, last row block).
-/
import proofs.«415025_j5626407158206_1_alg».proof.Proof.Gen.Kernel.Launch
import proofs.«415025_j5626407158206_1_alg».proof.Proof.Gen.Kernel.Skeleton
import proofs.«415025_j5626407158206_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole buffer. -/
abbrev scM3 : Memref sig .tc .vmem S128x128 .f32 := Memref.whole cc3_scratch0

/-- One row block's update of the accumulator: the body's second store, from the block of features, the block of
    graph ids and the accumulator as the body finds it. -/
def step3 (x : Vec F S5000x128 .f32) (b : Vec F S5000x1 .i32) (s : Vec F S128x128 .f32) : Vec F S128x128 .f32 :=
  k3_pay2 x b s

/-- The accumulator after row block n: from zero at the first row block, then one update per row block. -/
def accAt3 (c : Dev nD) : (n : ℕ) → n < cfg3.N → Vec F S128x128 .f32
  | 0, hn => step3 (iblk3 V c 0 ⟨0, hn⟩) (iblk3 V c 1 ⟨0, hn⟩) (k3_pay1 (F := F))
  | n + 1, hn => step3 (iblk3 V c 0 ⟨n + 1, hn⟩) (iblk3 V c 1 ⟨n + 1, hn⟩) (accAt3 c n (Nat.lt_of_succ_lt hn))

theorem accAt3_zero (c : Dev nD) (hn : 0 < cfg3.N) :
    accAt3 V c 0 hn = step3 (iblk3 V c 0 ⟨0, hn⟩) (iblk3 V c 1 ⟨0, hn⟩) (k3_pay1 (F := F)) := rfl
theorem accAt3_succ (c : Dev nD) (n : ℕ) (hn : n + 1 < cfg3.N) :
    accAt3 V c (n + 1) hn = step3 (iblk3 V c 0 ⟨n + 1, hn⟩) (iblk3 V c 1 ⟨n + 1, hn⟩) (accAt3 V c n (Nat.lt_of_succ_lt hn)) := rfl

/-- What the stage keeps between row blocks: before the first, every scratch buffer at anything; afterwards the
    accumulator's buffer at the accumulator, the other scratch buffers at anything; the generator register at some state. -/
def PhiS3 (c : Dev nD) : (n : ℕ) → n ≤ cfg3.N → sProp 𝕄
  | 0, _ => Pipeline.ΦA spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0]
      ∗ (∃ r, prngReg c r))

/-- The stage's bookkeeping data on core c. The result window's entry at a row block is the accumulator there: it is
    read only at the last row block, the only one that writes the window back. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-! ## The body's two conditions, over the grid -/

/-- The first conditional's condition (the row block is the first), from the grid coordinates. -/
abbrev cond3_1 (i : grid3.Coords) : Prop :=
  (Scalar.cmpi .ne (Scalar.extui (Scalar.cmpi .eq (BitVec.ofNat 32 (i 0).val) 0#32)) 0#32) = 1#1
theorem hcond3_1 : ∀ t : Fin cfg3.N, cond3_1 (grid3.coords t) ↔ t.val % 10 = 0 :=
  (by decide +kernel : ∀ t : Fin grid3.N, cond3_1 (grid3.coords t) ↔ t.val % 10 = 0)

/-- The second conditional's condition (the row block is the last). -/
abbrev cond3_2 (i : grid3.Coords) : Prop := k3_cond2 i = 1#1
theorem hcond3_2 : ∀ t : Fin cfg3.N, cond3_2 (grid3.coords t) ↔ t.val % 10 = 9 :=
  (by decide +kernel : ∀ t : Fin grid3.N, cond3_2 (grid3.coords t) ↔ t.val % 10 = 9)

/-- The result's window is idle, and not written back, at every row block but the last; live at the last. -/
theorem idleAt3_2 : ∀ t : Fin cfg3.N, ¬cond3_2 (grid3.coords t) → cfg3.idle 2 (grid3.coords t) = true := by decide +kernel
theorem noFlush3_2 : ∀ t : Fin cfg3.N, ¬cond3_2 (grid3.coords t) → (cfg3.win 2).flush t = false := by decide +kernel
theorem liveAt3_2 : ∀ t : Fin cfg3.N, cond3_2 (grid3.coords t) → cfg3.idle 2 (grid3.coords t) = false := by decide +kernel

/-- What the stage is entered with, the accumulator's buffer singled out as a whole buffer at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-- The zero offsets, however spelt. -/
theorem hz3 : (![0, 0] : Fin 2 → Nat) = fun _ => 0 := funext fun a => by fin_cases a <;> rfl

/-- The accumulator's whole-buffer rectangle. -/
abbrev rA3 : Rect S128x128 := Rect.unit (s := S128x128) ![0, 0] S128x128.size inb_S128x128_S128x128_0_0

/-- A list of stores whose last is through the whole-buffer rectangle covers the buffer. -/
theorem cover3 (p : Vec F S128x128 .f32) (L : List (View.Piece (Elt F) S128x128 .f32)) (y : S128x128.Idx) :
    ∃ pc ∈ ((⟨rA3, p⟩ : View.Piece (Elt F) S128x128 .f32) :: L), y ∈ pc.1.set :=
  ⟨_, List.mem_cons_self, View.mem_set_unit_zero hz3 inb_S128x128_S128x128_0_0 y⟩

/-! ## The body's run, case by case -/

set_option maxHeartbeats 1000000 in
/-- The first row block: the accumulator is set to zero, then updated (the update reads the zero back); the result's buffer is untouched. -/
theorem sound_kernel3_A (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : cond3_1 i) (hc2 : ¬cond3_2 i)
    (x : Vec F S5000x128 .f32) (b : Vec F S5000x1 .i32) (d0 : Vec F S128x128 .f32) (K : PUnit → sProp 𝕄) :
    iprop(owns (c : Thread nD τ) arg1 fullShare x ∗ owns (c : Thread nD τ) arg2 fullShare b ∗ owns (c : Thread nD τ) arg3 fullShare d0
        ∗ (∃ s, owns (c : Thread nD τ) arg4 fullShare s)
        ∗ (iprop(owns (c : Thread nD τ) arg1 fullShare x ∗ owns (c : Thread nD τ) arg2 fullShare b ∗ owns (c : Thread nD τ) arg3 fullShare d0
            ∗ owns (c : Thread nD τ) arg4 fullShare (step3 x b (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%s3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_cons_unit_zero (S := S128x128) hz3,
    View.readCov_unit_zero (S := S128x128) _ hz3]
  unfold step3
  simp only [View.readAt_eq_ld, View.ld_unit_zero (S := S5000x128) hz3, View.ld_unit_zero (S := S5000x1) hz3]

set_option maxHeartbeats 1000000 in
/-- A middle row block: the accumulator is updated; the result's buffer is untouched. -/
theorem sound_kernel3_B (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : ¬cond3_1 i) (hc2 : ¬cond3_2 i)
    (x : Vec F S5000x128 .f32) (b : Vec F S5000x1 .i32) (d0 s : Vec F S128x128 .f32) (K : PUnit → sProp 𝕄) :
    iprop(owns (c : Thread nD τ) arg1 fullShare x ∗ owns (c : Thread nD τ) arg2 fullShare b ∗ owns (c : Thread nD τ) arg3 fullShare d0
        ∗ owns (c : Thread nD τ) arg4 fullShare s
        ∗ (iprop(owns (c : Thread nD τ) arg1 fullShare x ∗ owns (c : Thread nD τ) arg2 fullShare b ∗ owns (c : Thread nD τ) arg3 fullShare d0
            ∗ owns (c : Thread nD τ) arg4 fullShare (step3 x b s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_unit_zero (S := S128x128) hz3]
  unfold step3
  simp only [View.readAt_eq_ld, View.ld_unit_zero (S := S5000x128) hz3, View.ld_unit_zero (S := S5000x1) hz3, View.ld_unit_zero (S := S128x128) hz3]

set_option maxHeartbeats 1000000 in
/-- The last row block: the accumulator is updated and copied into the result's buffer. -/
theorem sound_kernel3_C (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : ¬cond3_1 i) (hc2 : cond3_2 i)
    (x : Vec F S5000x128 .f32) (b : Vec F S5000x1 .i32) (s : Vec F S128x128 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s
        ∗ (iprop(owns (c : Thread nD τ) arg1 fullShare x ∗ owns (c : Thread nD τ) arg2 fullShare b ∗ owns (c : Thread nD τ) arg3 fullShare (step3 x b s)
            ∗ owns (c : Thread nD τ) arg4 fullShare (step3 x b s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _ _), View.canon_unit_zero (S := S128x128) hz3,
      View.readCov_unit_zero (S := S128x128) _ hz3]
    unfold step3
    simp only [View.readAt_eq_ld, View.ld_unit_zero (S := S5000x128) hz3, View.ld_unit_zero (S := S5000x1) hz3, View.ld_unit_zero (S := S128x128) hz3]
  iexists _; isplitr
  swap; · iexact H3
  ipureintro
  sl_unfold_words
  rw [View.read_writes_eq_canon _ _ _ (cover3 _ _), View.canon_unit_zero (S := S128x128) hz3]
  unfold step3
  simp only [View.readAt_eq_ld, View.ld_unit_zero (S := S5000x128) hz3, View.ld_unit_zero (S := S5000x1) hz3, View.ld_unit_zero (S := S128x128) hz3]

/-! ## The input windows' buffers -/

/-- Each input window's buffer holds its block at every row block: both are fetched at every row block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## What the stage keeps, row block by row block -/

theorem PhiS3_zero (c : Dev nD) (n : ℕ) (h : n ≤ cfg3.N) (hz : n = 0) : PhiS3 V c n h = Pipeline.ΦA spec3 c := by
  subst hz; rfl

/-- After row block n the accumulator's buffer holds the accumulator there. -/
theorem PhiS3_succ (c : Dev nD) (n : ℕ) (hn : n < cfg3.N) :
    PhiS3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0]
      ∗ (∃ r, prngReg c r)) := rfl

/-- Before a row block that is not the first it holds what the row block before left. -/
theorem PhiS3_pos (c : Dev nD) (n : ℕ) (h : n ≤ cfg3.N) (hz : n ≠ 0) :
    PhiS3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- The accumulator at the first row block, and at a later one over the row block before. -/
theorem accAt3_first (c : Dev nD) (t : Fin cfg3.N) (hz : t.val = 0) :
    accAt3 V c t.val t.isLt = step3 (iblk3 V c 0 t) (iblk3 V c 1 t) (k3_pay1 (F := F)) := by
  obtain ⟨n, hn⟩ := t
  cases n with
  | zero => rfl
  | succ n => exact absurd hz (Nat.succ_ne_zero n)
theorem accAt3_later (c : Dev nD) (t : Fin cfg3.N) (hz : t.val ≠ 0) :
    accAt3 V c t.val t.isLt
      = step3 (iblk3 V c 0 t) (iblk3 V c 1 t) (accAt3 V c (t.val - 1) (Nat.lt_of_le_of_lt (Nat.sub_le _ _) t.isLt)) := by
  obtain ⟨n, hn⟩ := t
  cases n with
  | zero => exact absurd rfl hz
  | succ n => rfl

/-! ## The body's obligation -/

/-- What the body is called with at row block t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the result's buffer as found where the window is idle, at the accumulator at the last row block. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any row block, by the three cases: the inputs' buffers hold their blocks; the stage hands over the
    accumulator's buffer (at anything at the first row block, at the accumulator of the row block before afterwards)
    and takes it back at this row block's accumulator; the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from rfl, after3_0]
  rw [show (dat3 V c).leavesExact 1 t = owns (c : Thread nD τ) (st3_1 t) fullShare ((dat3 V c).after 1 t) from rfl, after3_1]
  have hN : t.val < 10 := lt_of_lt_of_eq t.isLt (show cfg3.N = 10 from N_3)
  by_cases h0 : t.val % 10 = 0
  · by_cases h9 : t.val % 10 = 9
    · exfalso; omega
    · have hz : t.val = 0 := by omega
      have hc1 : cond3_1 (grid3.coords t) := (hcond3_1 t).mpr h0
      have hc2 : ¬cond3_2 (grid3.coords t) := fun h => h9 ((hcond3_2 t).mp h)
      rw [Dat.leavesExact_idle (dat3 V c) 2 t (idleAt3_2 t hc2) (noFlush3_2 t hc2)]
      rw [accAt3_first V c t hz]
      rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply (sound_kernel3_A c Set.univ _ _ _ _ _ _ _ _ _ hc1 hc2 (iblk3 V c 0 t) (iblk3 V c 1 t) ((dat3 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc1 : ¬cond3_1 (grid3.coords t) := fun h => h0 ((hcond3_1 t).mp h)
    by_cases h9 : t.val % 10 = 9
    · have hc2 : cond3_2 (grid3.coords t) := (hcond3_2 t).mpr h9
      rw [show (dat3 V c).leavesExact 2 t = owns (c : Thread nD τ) (st3_2 t) fullShare ((dat3 V c).after 2 t) from by
        unfold Dat.leavesExact; rw [liveAt3_2 t hc2], after3_2]
      rw [accAt3_later V c t hz]
      rw [PhiS3_castSucc V c t, PhiS3_pos V c _ _ hz]
      iintro ⟨⟨HS, HR, Hg⟩, Ho, ⟨%d0, H0⟩, ⟨%d1, H1⟩, ⟨%d2, H2⟩⟩
      iapply (sound_kernel3_C c Set.univ _ _ _ _ _ _ _ _ _ hc1 hc2 (iblk3 V c 0 t) (iblk3 V c 1 t)
        (accAt3 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬cond3_2 (grid3.coords t) := fun h => h9 ((hcond3_2 t).mp h)
      rw [Dat.leavesExact_idle (dat3 V c) 2 t (idleAt3_2 t hc2) (noFlush3_2 t hc2)]
      rw [accAt3_later V c t hz]
      rw [PhiS3_castSucc V c t, PhiS3_pos V c _ _ hz]
      iintro ⟨⟨HS, HR, Hg⟩, Ho, ⟨%d0, H0⟩, ⟨%d1, H1⟩, ⟨%d2, H2⟩⟩
      iapply (sound_kernel3_B c Set.univ _ _ _ _ _ _ _ _ _ hc1 hc2 (iblk3 V c 0 t) (iblk3 V c 1 t) ((dat3 V c).before 2 t d2)
        (accAt3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The body's obligation to the stage, at every row block. -/
theorem body_obligation3 (c : Dev nD) : BodyObligation (dat3 (F := F) V c) (defs₀ (F := F)) Variants.none () Set.univ := by
  exact fun t => by
    rw [bigSep_W3, bigSep_W3]
    exact sound_body3 V c t

/-- What the stage is entered with is what it keeps before the first row block. -/
theorem hin3 (c : Dev nD) : Pipeline.ΦA (U := UR sig nD τ) (Val := Elt F) spec3 c ⊢ (dat3 V c).Φ 0 := by
  rw [show (dat3 V c).Φ 0 = PhiS3 V c 0 (Nat.zero_le _) from rfl, PhiS3_zero V c 0 _ rfl]
  try exact Idealize.SL.BI.Entails.refl _

/-- After the last row block the accumulator's contents are forgotten. -/
theorem hout3 (c : Dev nD) : (dat3 V c).Φ (Fin.last cfg3.N) ⊢ Pipeline.ΦA (U := UR sig nD τ) (Val := Elt F) spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨HS, HR, Hg⟩
  isplitl [HS HR]
  · isplitl [HS]
    · iexists _; iexact HS
    iexact HR
  iexact Hg

end Cert.Kernel.Hand

end
-- ==== Proof.K.Run.lean ====
/-
  The whole program as a chain of items: stretches of host operations and the four kernel stages (three node updates,
  the pooling), each item entered with the buffers at what the one before it left. Named are the buffers' contents at
  every boundary; each stage's record of what it needs on entry and gives back on exit; and the run of the program from
  the launch to its return, with the result array's final contents and the arguments unchanged.
-/
import proofs.«415025_j5626407158206_1_alg».proof.Proof.K.Comb0
import proofs.«415025_j5626407158206_1_alg».proof.Proof.K.Comb1
import proofs.«415025_j5626407158206_1_alg».proof.Proof.K.Comb2
import proofs.«415025_j5626407158206_1_alg».proof.Proof.K.Pool
import proofs.«415025_j5626407158206_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

Before the first stage the buffers hold what the host operations computed from the launch contents (the generated
valuation). Each stage then changes its result array alone, to what its write-backs leave, and each stretch of host
operations acts on what it finds. -/

/-- After the first node-update stage. -/
def U4 (c : Dev nD) : Valuation τ sig (Elt F) :=
  Function.update (V3 m c) main_v35 ((dat0 (F := F) (fun c b => V3 m c b) c).arrAt 5 cfg0.N)
/-- After the host operations between the first and the second. -/
def U5 (c : Dev nD) : Valuation τ sig (Elt F) := StableHlo.after hostOps1 (U4 m c)
/-- After the second node-update stage. -/
def U6 (c : Dev nD) : Valuation τ sig (Elt F) :=
  Function.update (U5 m c) main_v55 ((dat1 (F := F) (fun c b => U5 m c b) c).arrAt 5 cfg1.N)
/-- After the host operations between the second and the third. -/
def U7 (c : Dev nD) : Valuation τ sig (Elt F) := StableHlo.after hostOps2 (U6 m c)
/-- After the third node-update stage. -/
def U8 (c : Dev nD) : Valuation τ sig (Elt F) :=
  Function.update (U7 m c) main_v75 ((dat2 (F := F) (fun c b => U7 m c b) c).arrAt 5 cfg2.N)
/-- After the reshaping of the graph ids. -/
def U9 (c : Dev nD) : Valuation τ sig (Elt F) := StableHlo.after hostOps3 (U8 m c)
/-- After the pooling stage. -/
def U10 (c : Dev nD) : Valuation τ sig (Elt F) :=
  Function.update (U9 m c) main_v77 ((dat3 (F := F) (fun c b => U9 m c b) c).arrAt 2 cfg3.N)

/-- What the stages leave, as the family the generated valuations are written over. -/
def outs : Outs (F := F) := fun j r c =>
  if j = 4 then U4 m c r else if j = 6 then U6 m c r else if j = 8 then U8 m c r else U10 m c r

theorem V4_eq (c : Dev nD) : V4 m (outs m) c = U4 m c := by
  show Function.update (V3 m c) main_v35 (outs m 4 main_v35 c) = U4 m c
  have h : outs m 4 main_v35 c = (dat0 (F := F) (fun c b => V3 m c b) c).arrAt 5 cfg0.N := by
    unfold outs; rw [if_pos rfl]; unfold U4; exact Function.update_self ..
  rw [h]; rfl
theorem V5_eq (c : Dev nD) : V5 m (outs m) c = U5 m c := by
  show StableHlo.after hostOps1 (V4 m (outs m) c) = U5 m c
  rw [V4_eq]; rfl
theorem V6_eq (c : Dev nD) : V6 m (outs m) c = U6 m c := by
  show Function.update (V5 m (outs m) c) main_v55 (outs m 6 main_v55 c) = U6 m c
  have h : outs m 6 main_v55 c = (dat1 (F := F) (fun c b => U5 m c b) c).arrAt 5 cfg1.N := by
    unfold outs; rw [if_neg (by decide), if_pos rfl]; unfold U6; exact Function.update_self ..
  rw [h, V5_eq]; rfl
theorem V7_eq (c : Dev nD) : V7 m (outs m) c = U7 m c := by
  show StableHlo.after hostOps2 (V6 m (outs m) c) = U7 m c
  rw [V6_eq]; rfl
theorem V8_eq (c : Dev nD) : V8 m (outs m) c = U8 m c := by
  show Function.update (V7 m (outs m) c) main_v75 (outs m 8 main_v75 c) = U8 m c
  have h : outs m 8 main_v75 c = (dat2 (F := F) (fun c b => U7 m c b) c).arrAt 5 cfg2.N := by
    unfold outs; rw [if_neg (by decide), if_neg (by decide), if_pos rfl]; unfold U8; exact Function.update_self ..
  rw [h, V7_eq]; rfl
theorem V9_eq (c : Dev nD) : V9 m (outs m) c = U9 m c := by
  show StableHlo.after hostOps3 (V8 m (outs m) c) = U9 m c
  rw [V8_eq]; rfl
theorem V10_eq (c : Dev nD) : V10 m (outs m) c = U10 m c := by
  show Function.update (V9 m (outs m) c) main_v77 (outs m 10 main_v77 c) = U10 m c
  have h : outs m 10 main_v77 c = (dat3 (F := F) (fun c b => U9 m c b) c).arrAt 2 cfg3.N := by
    unfold outs; rw [if_neg (by decide), if_neg (by decide), if_neg (by decide)]; unfold U10; exact Function.update_self ..
  rw [h, V9_eq]; rfl

/-! ## The stages' bookkeeping data, each at the contents its stage is entered with -/

def pdats : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => U5 m c b) c
  | ⟨2, _⟩ => fun c => dat2 (fun c b => U7 m c b) c
  | ⟨3, _⟩ => fun c => dat3 (fun c b => U9 m c b) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem hF0_in (c : Dev nD) (w : Fin cfg0.W) (hin : (cfg0.win w).isOut = false)
    (hne : (Proc.devRef .tc (Pipeline.arrRef spec0 w) : DevRef τ sig) ≠ Proc.devRef .tc main_v35) :
    (pdats m 0 c).arrAt w cfg0.N = U4 m c (Pipeline.arrRef spec0 w) :=
  ((pdats m 0 c).arrAt_in w hin _).trans (by
    unfold U4
    rw [Function.update_of_ne hne]
    rfl)

/-- At the stage's exit each of its arrays holds what the stage leaves, -/
theorem hF0 (c : Dev nD) : ∀ w : Fin cfg0.W, (pdats m 0 c).arrAt w cfg0.N = U4 m c (Pipeline.arrRef spec0 w)
  | ⟨0, _⟩ => hF0_in m c 0 rfl (StableHlo.devRef_ne_of_ne (by decide))
  | ⟨1, _⟩ => hF0_in m c 1 rfl (StableHlo.devRef_ne_of_ne (by decide))
  | ⟨2, _⟩ => hF0_in m c 2 rfl (StableHlo.devRef_ne_of_ne (by decide))
  | ⟨3, _⟩ => hF0_in m c 3 rfl (StableHlo.devRef_ne_of_ne (by decide))
  | ⟨4, _⟩ => hF0_in m c 4 rfl (StableHlo.devRef_ne_of_ne (by decide))
  | ⟨5, _⟩ => by
    unfold U4
    exact (Function.update_self (Proc.devRef .tc main_v35 : DevRef τ sig) _ (V3 m c)).symm
  | ⟨_ + 6, h⟩ => absurd h (Nat.not_lt.2 (Nat.le_add_left _ _))

/-- and every other buffer what it held at entry. -/
theorem hrest0 (c : Dev nD) (b : Ref sig .tc) (hb : b ∉ Finset.univ.image (Pipeline.arrRef spec0)) : U4 m c b = V3 m c b := by
  have hne : b ≠ main_v35 := by
    intro e
    apply hb
    rw [e]
    exact Finset.mem_image_of_mem (Pipeline.arrRef spec0) (Finset.mem_univ (5 : Fin cfg0.W))
  unfold U4
  exact Function.update_of_ne (StableHlo.devRef_ne_of_ne hne) _ _

theorem hF1_in (c : Dev nD) (w : Fin cfg1.W) (hin : (cfg1.win w).isOut = false)
    (hne : (Proc.devRef .tc (Pipeline.arrRef spec1 w) : DevRef τ sig) ≠ Proc.devRef .tc main_v55) :
    (pdats m 1 c).arrAt w cfg1.N = U6 m c (Pipeline.arrRef spec1 w) :=
  ((pdats m 1 c).arrAt_in w hin _).trans (by
    unfold U6
    rw [Function.update_of_ne hne]
    rfl)

/-- At the stage's exit each of its arrays holds what the stage leaves, -/
theorem hF1 (c : Dev nD) : ∀ w : Fin cfg1.W, (pdats m 1 c).arrAt w cfg1.N = U6 m c (Pipeline.arrRef spec1 w)
  | ⟨0, _⟩ => hF1_in m c 0 rfl (StableHlo.devRef_ne_of_ne (by decide))
  | ⟨1, _⟩ => hF1_in m c 1 rfl (StableHlo.devRef_ne_of_ne (by decide))
  | ⟨2, _⟩ => hF1_in m c 2 rfl (StableHlo.devRef_ne_of_ne (by decide))
  | ⟨3, _⟩ => hF1_in m c 3 rfl (StableHlo.devRef_ne_of_ne (by decide))
  | ⟨4, _⟩ => hF1_in m c 4 rfl (StableHlo.devRef_ne_of_ne (by decide))
  | ⟨5, _⟩ => by
    unfold U6
    exact (Function.update_self (Proc.devRef .tc main_v55 : DevRef τ sig) _ (U5 m c)).symm
  | ⟨_ + 6, h⟩ => absurd h (Nat.not_lt.2 (Nat.le_add_left _ _))

/-- and every other buffer what it held at entry. -/
theorem hrest1 (c : Dev nD) (b : Ref sig .tc) (hb : b ∉ Finset.univ.image (Pipeline.arrRef spec1)) : U6 m c b = U5 m c b := by
  have hne : b ≠ main_v55 := by
    intro e
    apply hb
    rw [e]
    exact Finset.mem_image_of_mem (Pipeline.arrRef spec1) (Finset.mem_univ (5 : Fin cfg1.W))
  unfold U6
  exact Function.update_of_ne (StableHlo.devRef_ne_of_ne hne) _ _

theorem hF2_in (c : Dev nD) (w : Fin cfg2.W) (hin : (cfg2.win w).isOut = false)
    (hne : (Proc.devRef .tc (Pipeline.arrRef spec2 w) : DevRef τ sig) ≠ Proc.devRef .tc main_v75) :
    (pdats m 2 c).arrAt w cfg2.N = U8 m c (Pipeline.arrRef spec2 w) :=
  ((pdats m 2 c).arrAt_in w hin _).trans (by
    unfold U8
    rw [Function.update_of_ne hne]
    rfl)

/-- At the stage's exit each of its arrays holds what the stage leaves, -/
theorem hF2 (c : Dev nD) : ∀ w : Fin cfg2.W, (pdats m 2 c).arrAt w cfg2.N = U8 m c (Pipeline.arrRef spec2 w)
  | ⟨0, _⟩ => hF2_in m c 0 rfl (StableHlo.devRef_ne_of_ne (by decide))
  | ⟨1, _⟩ => hF2_in m c 1 rfl (StableHlo.devRef_ne_of_ne (by decide))
  | ⟨2, _⟩ => hF2_in m c 2 rfl (StableHlo.devRef_ne_of_ne (by decide))
  | ⟨3, _⟩ => hF2_in m c 3 rfl (StableHlo.devRef_ne_of_ne (by decide))
  | ⟨4, _⟩ => hF2_in m c 4 rfl (StableHlo.devRef_ne_of_ne (by decide))
  | ⟨5, _⟩ => by
    unfold U8
    exact (Function.update_self (Proc.devRef .tc main_v75 : DevRef τ sig) _ (U7 m c)).symm
  | ⟨_ + 6, h⟩ => absurd h (Nat.not_lt.2 (Nat.le_add_left _ _))

/-- and every other buffer what it held at entry. -/
theorem hrest2 (c : Dev nD) (b : Ref sig .tc) (hb : b ∉ Finset.univ.image (Pipeline.arrRef spec2)) : U8 m c b = U7 m c b := by
  have hne : b ≠ main_v75 := by
    intro e
    apply hb
    rw [e]
    exact Finset.mem_image_of_mem (Pipeline.arrRef spec2) (Finset.mem_univ (5 : Fin cfg2.W))
  unfold U8
  exact Function.update_of_ne (StableHlo.devRef_ne_of_ne hne) _ _

theorem hF3_in (c : Dev nD) (w : Fin cfg3.W) (hin : (cfg3.win w).isOut = false)
    (hne : (Proc.devRef .tc (Pipeline.arrRef spec3 w) : DevRef τ sig) ≠ Proc.devRef .tc main_v77) :
    (pdats m 3 c).arrAt w cfg3.N = U10 m c (Pipeline.arrRef spec3 w) :=
  ((pdats m 3 c).arrAt_in w hin _).trans (by
    unfold U10
    rw [Function.update_of_ne hne]
    rfl)

/-- At the stage's exit each of its arrays holds what the stage leaves, -/
theorem hF3 (c : Dev nD) : ∀ w : Fin cfg3.W, (pdats m 3 c).arrAt w cfg3.N = U10 m c (Pipeline.arrRef spec3 w)
  | ⟨0, _⟩ => hF3_in m c 0 rfl (StableHlo.devRef_ne_of_ne (by decide))
  | ⟨1, _⟩ => hF3_in m c 1 rfl (StableHlo.devRef_ne_of_ne (by decide))
  | ⟨2, _⟩ => by
    unfold U10
    exact (Function.update_self (Proc.devRef .tc main_v77 : DevRef τ sig) _ (U9 m c)).symm
  | ⟨_ + 3, h⟩ => absurd h (Nat.not_lt.2 (Nat.le_add_left _ _))

/-- and every other buffer what it held at entry. -/
theorem hrest3 (c : Dev nD) (b : Ref sig .tc) (hb : b ∉ Finset.univ.image (Pipeline.arrRef spec3)) : U10 m c b = U9 m c b := by
  have hne : b ≠ main_v77 := by
    intro e
    apply hb
    rw [e]
    exact Finset.mem_image_of_mem (Pipeline.arrRef spec3) (Finset.mem_univ (2 : Fin cfg3.W))
  unfold U10
  exact Function.update_of_ne (StableHlo.devRef_ne_of_ne hne) _ _

-- a library lemma stated over the pinned configuration unifies with the printed one only when unification may unfold
-- plain definitions in a metavariable's type
set_option backward.isDefEq.respectTransparency.types false in
/-- Node-update stage 0 as an item of the program: entered with every buffer outside the kernels' own at V3 m, left
    with them at U4 m (the stage's result array at what its write-backs leave, everything else untouched); the generator
    register into the stage and out; nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Node-update stage 1 as an item of the program: entered with every buffer outside the kernels' own at U5 m, left
    with them at U6 m (the stage's result array at what its write-backs leave, everything else untouched); the generator
    register into the stage and out; nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => U5 m c b) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (fun b => U5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => U5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U5 m c b) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Node-update stage 2 as an item of the program: entered with every buffer outside the kernels' own at U7 m, left
    with them at U8 m (the stage's result array at what its write-backs leave, everything else untouched); the generator
    register into the stage and out; nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => U7 m c b) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (fun b => U7 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => U7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => U7 m c b) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The pooling stage as an item of the program: entered with every buffer outside the kernels' own at U9, left with them
    at U10 (the result array at what the last row block's write-back leaves); the scratch buffers and the generator
    register into the stage and out; nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => U9 m c b) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (fun b => U9 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => U9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun c b => U9 m c b) c)
    unfold Pipeline.ΦA
    iintro ⟨Hp, -, Hr⟩
    isplitl [Hr]; · iexact Hr
    iexact Hp
  hout c := by
    rw [Pipeline.ownSems0_none]
    refine BIBase.Entails.trans (hout3 (fun c b => U9 m c b) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => U9 m c b) (fun b => U10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program's run -/

variable (ρ : Dev nD → PrngReg)

/-- What rides along at each boundary between items: the same at all five. -/
abbrev E : Fin 5 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the program terminates, nothing faulting, with
    the result array at what the pooling stage's last write-back leaves (U10) and every argument as launched: the
    host stretches and the four stages in the program's order, each entered from what the one before it left. -/
theorem run_main : θ_run defs (onTc (τ := τ) (main (F := F))) ⟨m, fun _ => 0, ρ⟩ (fun r => ∀ c : Dev nD,
      r.2.mem ((c.tc : Thread nD τ).loc main_v77) = U10 m c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hpost0 : ∀ c : Dev nD, (reg0 m).post c ⊢ iprop(StableHlo.held (c : Thread nD τ) (Pipeline.ucRefs τ sig) (V4 m (outs m) c) ∗ E (F := F) 1 c) :=
    fun c => by rw [V4_eq]; exact .rfl
  have hpre1 : ∀ c : Dev nD, iprop(StableHlo.held (c : Thread nD τ) (Pipeline.ucRefs τ sig) (V5 m (outs m) c) ∗ E (F := F) 1 c) ⊢ (reg1 m).pre c :=
    fun c => by rw [V5_eq]; exact .rfl
  have hpost1 : ∀ c : Dev nD, (reg1 m).post c ⊢ iprop(StableHlo.held (c : Thread nD τ) (Pipeline.ucRefs τ sig) (V6 m (outs m) c) ∗ E (F := F) 2 c) :=
    fun c => by rw [V6_eq]; exact .rfl
  have hpre2 : ∀ c : Dev nD, iprop(StableHlo.held (c : Thread nD τ) (Pipeline.ucRefs τ sig) (V7 m (outs m) c) ∗ E (F := F) 2 c) ⊢ (reg2 m).pre c :=
    fun c => by rw [V7_eq]; exact .rfl
  have hpost2 : ∀ c : Dev nD, (reg2 m).post c ⊢ iprop(StableHlo.held (c : Thread nD τ) (Pipeline.ucRefs τ sig) (V8 m (outs m) c) ∗ E (F := F) 3 c) :=
    fun c => by rw [V8_eq]; exact .rfl
  have hpre3 : ∀ c : Dev nD, iprop(StableHlo.held (c : Thread nD τ) (Pipeline.ucRefs τ sig) (V9 m (outs m) c) ∗ E (F := F) 3 c) ⊢ (reg3 m).pre c :=
    fun c => by rw [V9_eq]; exact .rfl
  have hpost3 : ∀ c : Dev nD, (reg3 m).post c ⊢ iprop(iprop(StableHlo.held (c : Thread nD τ) (Pipeline.ucRefs τ sig) (U10 m c) ∗ ∃ r, prngReg c r)
      ∗ ∃ W, owes (c : Thread nD τ) (0 : CellTallies nD τ sig Unit) W) := fun c => by
    show iprop(StableHlo.held (c : Thread nD τ) (Pipeline.ucRefs τ sig) (U10 m c) ∗ R c) ⊢ _
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m) (reg3 m))
    (fun c Q => by
      rewrite [main_chain c, Seg.run_eq_chain,
        show (segs m (outs m) 𝒱₀ L lv (E (F := F)) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U10 m c) ∗ ∃ r, prngReg c r))
    (hch := fun c => ⟨.rfl, .rfl, .rfl, .rfl, hpost0 c, hpre1 c, hpost1 c, hpre2 c, hpost2 c, hpre3 c, hpost3 c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => ?_)
  have hu : ∀ r : Ref sig .tc, ¬ (Proc.devRef .tc r : DevRef τ sig).isScoped → s.mem ((c.tc : Thread nD τ).loc r) = U10 m c r :=
    fun r hr => h c _ (Finset.mem_filter.mpr ⟨StableHlo.devRef_mem_tcRefs r, hr⟩)
  have hV := V10_eq m c
  refine ⟨hu main_v77 (by decide), ?_, ?_, ?_, ?_, ?_, ?_⟩
  · exact (hu main_arg0 (by decide)).trans ((congrFun hV.symm _).trans (V10_main_arg0 m (outs m) c))
  · exact (hu main_arg1 (by decide)).trans ((congrFun hV.symm _).trans (V10_main_arg1 m (outs m) c))
  · exact (hu main_arg2 (by decide)).trans ((congrFun hV.symm _).trans (V10_main_arg2 m (outs m) c))
  · exact (hu main_arg3 (by decide)).trans ((congrFun hV.symm _).trans (V10_main_arg3 m (outs m) c))
  · exact (hu main_arg4 (by decide)).trans ((congrFun hV.symm _).trans (V10_main_arg4 m (outs m) c))
  · exact (hu main_arg5 (by decide)).trans ((congrFun hV.symm _).trans (V10_main_arg5 m (outs m) c))

/-- The frame: the run with the result's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Hand

end
-- ==== Proof.KI.Comb0.lean ====
/-
  The first node-update kernel as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.KernelIdeal.Launch
import proofs.«415025_j5626407158206_1_alg».proof.Proof.Gen.KernelIdeal.Skeleton
import proofs.«415025_j5626407158206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's buffer holds its block at every row block, fetched there or not: a window that is not
    fetched again has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rN0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- What the body leaves in the result's buffer, from the five input blocks: its one store. -/
def out0_5 (x0 x1 : Vec F S5000x128 .f32) (x2 x3 : Vec F S128x128 .f32) (x4 : Vec F S1x128 .f32) : Vec F S5000x128 .f32 :=
  View.canon [⟨rN0, k0_pay1 (View.ld x0 rN0) (View.ld x1 rN0) (View.ld x2 rW0) (View.ld x3 rW0) (View.ld x4 rB0)⟩]

/-- The store covers the buffer. -/
theorem cover0_5 (p0 : Vec F S5000x128 .f32) (y : S5000x128.Idx) :
    ∃ pc ∈ ([⟨rN0, p0⟩] : List (View.Piece (Elt F) S5000x128 .f32)), y ∈ pc.1.set :=
  View.cover_of_tiled [⟨rN0, p0⟩] S5000x128.size (by rfl) y

set_option maxHeartbeats 1000000 in
/-- The body on whole buffers, the inputs' at known contents and the result's at anything, runs to the continuation
    holding the inputs' as they were and the result's at `out0_5` of them. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The stage's bookkeeping data on core c: the arrays as the stage finds them; after the body at row block t each
    input's buffer at its block and the result's at `out0_5` of the input blocks; the scratch buffers and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at row block t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any row block: the inputs' buffers hold their blocks, so the run applies; the untouched state and the
    core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Comb1.lean ====
/-
  The node-update kernel of layer 2 as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.KernelIdeal.Launch
import proofs.«415025_j5626407158206_1_alg».proof.Proof.Gen.KernelIdeal.Skeleton
import proofs.«415025_j5626407158206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds its block at every row block, fetched there or not: a window that is not
    fetched again has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rN1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- What the body leaves in the result's buffer, from the five input blocks: its one store. -/
def out1_5 (x0 x1 : Vec F S5000x128 .f32) (x2 x3 : Vec F S128x128 .f32) (x4 : Vec F S1x128 .f32) : Vec F S5000x128 .f32 :=
  View.canon [⟨rN1, k1_pay1 (View.ld x0 rN1) (View.ld x1 rN1) (View.ld x2 rW1) (View.ld x3 rW1) (View.ld x4 rB1)⟩]

/-- The store covers the buffer. -/
theorem cover1_5 (p0 : Vec F S5000x128 .f32) (y : S5000x128.Idx) :
    ∃ pc ∈ ([⟨rN1, p0⟩] : List (View.Piece (Elt F) S5000x128 .f32)), y ∈ pc.1.set :=
  View.cover_of_tiled [⟨rN1, p0⟩] S5000x128.size (by rfl) y

set_option maxHeartbeats 1000000 in
/-- The body on whole buffers, the inputs' at known contents and the result's at anything, runs to the continuation
    holding the inputs' as they were and the result's at `out1_5` of them. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The stage's bookkeeping data on core c: the arrays as the stage finds them; after the body at row block t each
    input's buffer at its block and the result's at `out1_5` of the input blocks; the scratch buffers and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at row block t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any row block: the inputs' buffers hold their blocks, so the run applies; the untouched state and the
    core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Comb2.lean ====
/-
  The node-update kernel of layer 3 as one stage of the program: ten row blocks of 5000 nodes, each block's new features
  computed from the block's aggregated neighbour features, the block's own features, the two 128 × 128 weight
  matrices and the bias row, and written whole into the block of the result.

  Stated at any contents V of the core's buffers when the stage is entered: what each input window's buffer holds at
  a row block (the block of its array: the two feature arrays move with the row block, the weights and the bias are the
  same block at every row block), what the body leaves in the result's buffer (its one store, covering the buffer), the
  body's run on any whole buffers, and the stage's bookkeeping data over them.
-/
import proofs.«415025_j5626407158206_1_alg».proof.Proof.Gen.KernelIdeal.Launch
import proofs.«415025_j5626407158206_1_alg».proof.Proof.Gen.KernelIdeal.Skeleton
import proofs.«415025_j5626407158206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's buffer holds its block at every row block, fetched there or not: a window that is not
    fetched again has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rN2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- What the body leaves in the result's buffer, from the five input blocks: its one store. -/
def out2_5 (x0 x1 : Vec F S5000x128 .f32) (x2 x3 : Vec F S128x128 .f32) (x4 : Vec F S1x128 .f32) : Vec F S5000x128 .f32 :=
  View.canon [⟨rN2, k2_pay1 (View.ld x0 rN2) (View.ld x1 rN2) (View.ld x2 rW2) (View.ld x3 rW2) (View.ld x4 rB2)⟩]

/-- The store covers the buffer. -/
theorem cover2_5 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

set_option maxHeartbeats 1000000 in
/-- The body on whole buffers, the inputs' at known contents and the result's at anything, runs to the continuation
    holding the inputs' as they were and the result's at `out2_5` of them. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (x0 x1 : Vec F S5000x128 .f32) (x2 x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The stage's bookkeeping data on core c: the arrays as the stage finds them; after the body at row block t each
    input's buffer at its block and the result's at `out2_5` of the input blocks; the scratch buffers and the
    generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at row block t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any row block: the inputs' buffers hold their blocks, so the run applies; the untouched state and the
    core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation to the stage, at every row block. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Pool.lean ====
/-
  The pooling kernel as one stage of the program: ten row blocks of 5000 nodes. A 128 × 128 accumulator kept in
  scratch memory is set to zero at the first row block; at every row block the block's contribution (the product of
  the transposed one-hot matrix of the block's graph ids with the block's features) is added to it; at the last row
  block the accumulator is copied into the result's buffer, which is written back only there.

  Stated at any contents V of the core's buffers when the stage is entered: the accumulator after each row block, by
  recursion on the row block; the stage's bookkeeping data over it (the scratch at the accumulator between row blocks,
  the result's buffer idle until the last); and the body's run in its three cases (first, middle, last row block).
-/
import proofs.«415025_j5626407158206_1_alg».proof.Proof.Gen.KernelIdeal.Launch
import proofs.«415025_j5626407158206_1_alg».proof.Proof.Gen.KernelIdeal.Skeleton
import proofs.«415025_j5626407158206_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at row block t, read off its array as the stage finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator as a whole buffer. -/
abbrev scM3 : Memref sig .tc .vmem S128x128 .f32 := Memref.whole cc3_scratch0

/-- One row block's update of the accumulator: the body's second store, from the block of features, the block of
    graph ids and the accumulator as the body finds it. -/
def step3 (x : Vec F S5000x128 .f32) (b : Vec F S5000x1 .i32) (s : Vec F S128x128 .f32) : Vec F S128x128 .f32 :=
  k3_pay2 x b s

/-- The accumulator after row block n: from zero at the first row block, then one update per row block. -/
def accAt3 (c : Dev nD) : (n : ℕ) → n < cfg3.N → Vec F S128x128 .f32
  | 0, hn => step3 (iblk3 V c 0 ⟨0, hn⟩) (iblk3 V c 1 ⟨0, hn⟩) (k3_pay1 (F := F))
  | n + 1, hn => step3 (iblk3 V c 0 ⟨n + 1, hn⟩) (iblk3 V c 1 ⟨n + 1, hn⟩) (accAt3 c n (Nat.lt_of_succ_lt hn))

theorem accAt3_zero (c : Dev nD) (hn : 0 < cfg3.N) :
    accAt3 V c 0 hn = step3 (iblk3 V c 0 ⟨0, hn⟩) (iblk3 V c 1 ⟨0, hn⟩) (k3_pay1 (F := F)) := rfl
theorem accAt3_succ (c : Dev nD) (n : ℕ) (hn : n + 1 < cfg3.N) :
    accAt3 V c (n + 1) hn = step3 (iblk3 V c 0 ⟨n + 1, hn⟩) (iblk3 V c 1 ⟨n + 1, hn⟩) (accAt3 V c n (Nat.lt_of_succ_lt hn)) := rfl

/-- What the stage keeps between row blocks: before the first, every scratch buffer at anything; afterwards the
    accumulator's buffer at the accumulator, the other scratch buffers at anything; the generator register at some state. -/
def PhiS3 (c : Dev nD) : (n : ℕ) → n ≤ cfg3.N → sProp 𝕄
  | 0, _ => Pipeline.ΦA spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0]
      ∗ (∃ r, prngReg c r))

/-- The stage's bookkeeping data on core c. The result window's entry at a row block is the accumulator there: it is
    read only at the last row block, the only one that writes the window back. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = accAt3 V c t.val t.isLt := by dsimp only [dat3]

/-! ## The body's two conditions, over the grid -/

/-- The first conditional's condition (the row block is the first), from the grid coordinates. -/
abbrev cond3_1 (i : grid3.Coords) : Prop :=
  (Scalar.cmpi .ne (Scalar.extui (Scalar.cmpi .eq (BitVec.ofNat 32 (i 0).val) 0#32)) 0#32) = 1#1
theorem hcond3_1 : ∀ t : Fin cfg3.N, cond3_1 (grid3.coords t) ↔ t.val % 10 = 0 :=
  (by decide +kernel : ∀ t : Fin grid3.N, cond3_1 (grid3.coords t) ↔ t.val % 10 = 0)

/-- The second conditional's condition (the row block is the last). -/
abbrev cond3_2 (i : grid3.Coords) : Prop := k3_cond2 i = 1#1
theorem hcond3_2 : ∀ t : Fin cfg3.N, cond3_2 (grid3.coords t) ↔ t.val % 10 = 9 :=
  (by decide +kernel : ∀ t : Fin grid3.N, cond3_2 (grid3.coords t) ↔ t.val % 10 = 9)

/-- The result's window is idle, and not written back, at every row block but the last; live at the last. -/
theorem idleAt3_2 : ∀ t : Fin cfg3.N, ¬cond3_2 (grid3.coords t) → cfg3.idle 2 (grid3.coords t) = true := by decide +kernel
theorem noFlush3_2 : ∀ t : Fin cfg3.N, ¬cond3_2 (grid3.coords t) → (cfg3.win 2).flush t = false := by decide +kernel
theorem liveAt3_2 : ∀ t : Fin cfg3.N, cond3_2 (grid3.coords t) → cfg3.idle 2 (grid3.coords t) = false := by decide +kernel

/-- What the stage is entered with, the accumulator's buffer singled out as a whole buffer at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; try rfl

/-- The zero offsets, however spelt. -/
theorem hz3 : (![0, 0] : Fin 2 → Nat) = fun _ => 0 := funext fun a => by fin_cases a <;> rfl

/-- The accumulator's whole-buffer rectangle. -/
abbrev rA3 : Rect S128x128 := Rect.unit (s := S128x128) ![0, 0] S128x128.size inb_S128x128_S128x128_0_0

/-- A list of stores whose last is through the whole-buffer rectangle covers the buffer. -/
theorem cover3 (p : Vec F S128x128 .f32) (L : List (View.Piece (Elt F) S128x128 .f32)) (y : S128x128.Idx) :
    ∃ pc ∈ ((⟨rA3, p⟩ : View.Piece (Elt F) S128x128 .f32) :: L), y ∈ pc.1.set :=
  ⟨_, List.mem_cons_self, View.mem_set_unit_zero hz3 inb_S128x128_S128x128_0_0 y⟩

/-! ## The body's run, case by case -/

set_option maxHeartbeats 1000000 in
/-- The first row block: the accumulator is set to zero, then updated (the update reads the zero back); the result's buffer is untouched. -/
theorem sound_kernel3_A (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : cond3_1 i) (hc2 : ¬cond3_2 i)
    (x : Vec F S5000x128 .f32) (b : Vec F S5000x1 .i32) (d0 : Vec F S128x128 .f32) (K : PUnit → sProp 𝕄) :
    iprop(owns (c : Thread nD τ) arg1 fullShare x ∗ owns (c : Thread nD τ) arg2 fullShare b ∗ owns (c : Thread nD τ) arg3 fullShare d0
        ∗ (∃ s, owns (c : Thread nD τ) arg4 fullShare s)
        ∗ (iprop(owns (c : Thread nD τ) arg1 fullShare x ∗ owns (c : Thread nD τ) arg2 fullShare b ∗ owns (c : Thread nD τ) arg3 fullShare d0
            ∗ owns (c : Thread nD τ) arg4 fullShare (step3 x b (k3_pay1 (F := F)))) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%s3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_cons_unit_zero (S := S128x128) hz3,
    View.readCov_unit_zero (S := S128x128) _ hz3]
  unfold step3
  simp only [View.readAt_eq_ld, View.ld_unit_zero (S := S5000x128) hz3, View.ld_unit_zero (S := S5000x1) hz3]

set_option maxHeartbeats 1000000 in
/-- A middle row block: the accumulator is updated; the result's buffer is untouched. -/
theorem sound_kernel3_B (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : ¬cond3_1 i) (hc2 : ¬cond3_2 i)
    (x : Vec F S5000x128 .f32) (b : Vec F S5000x1 .i32) (d0 s : Vec F S128x128 .f32) (K : PUnit → sProp 𝕄) :
    iprop(owns (c : Thread nD τ) arg1 fullShare x ∗ owns (c : Thread nD τ) arg2 fullShare b ∗ owns (c : Thread nD τ) arg3 fullShare d0
        ∗ owns (c : Thread nD τ) arg4 fullShare s
        ∗ (iprop(owns (c : Thread nD τ) arg1 fullShare x ∗ owns (c : Thread nD τ) arg2 fullShare b ∗ owns (c : Thread nD τ) arg3 fullShare d0
            ∗ owns (c : Thread nD τ) arg4 fullShare (step3 x b s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover3 _ _), View.canon_unit_zero (S := S128x128) hz3]
  unfold step3
  simp only [View.readAt_eq_ld, View.ld_unit_zero (S := S5000x128) hz3, View.ld_unit_zero (S := S5000x1) hz3, View.ld_unit_zero (S := S128x128) hz3]

set_option maxHeartbeats 1000000 in
/-- The last row block: the accumulator is updated and copied into the result's buffer. -/
theorem sound_kernel3_C (c : Dev nD) (E : Set ℕ) (i : grid3.Coords)
    (arg1 : Memref sig .tc .vmem S5000x128 .f32) (harg1 : arg1.IsWhole) (arg2 : Memref sig .tc .vmem S5000x1 .i32) (harg2 : arg2.IsWhole)
    (arg3 : Memref sig .tc .vmem S128x128 .f32) (harg3 : arg3.IsWhole) (arg4 : Memref sig .tc .vmem S128x128 .f32) (harg4 : arg4.IsWhole)
    (hc1 : ¬cond3_1 i) (hc2 : cond3_2 i)
    (x : Vec F S5000x128 .f32) (b : Vec F S5000x1 .i32) (s : Vec F S128x128 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s
        ∗ (iprop(owns (c : Thread nD τ) arg1 fullShare x ∗ owns (c : Thread nD τ) arg2 fullShare b ∗ owns (c : Thread nD τ) arg3 fullShare (step3 x b s)
            ∗ owns (c : Thread nD τ) arg4 fullShare (step3 x b s)) -∗ K ⟨⟩))
      ⊢ wp frame (wpE (defs₀ (F := F)) Variants.none c none) E (cc3__pool_kernel i arg1 harg1 arg2 harg2 arg3 harg3 arg4 harg4) K := by
  simp only [cc3__pool_kernel_eq_skeleton]; unfold cc3__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _ _), View.canon_unit_zero (S := S128x128) hz3,
      View.readCov_unit_zero (S := S128x128) _ hz3]
    unfold step3
    simp only [View.readAt_eq_ld, View.ld_unit_zero (S := S5000x128) hz3, View.ld_unit_zero (S := S5000x1) hz3, View.ld_unit_zero (S := S128x128) hz3]
  iexists _; isplitr
  swap; · iexact H3
  ipureintro
  sl_unfold_words
  rw [View.read_writes_eq_canon _ _ _ (cover3 _ _), View.canon_unit_zero (S := S128x128) hz3]
  unfold step3
  simp only [View.readAt_eq_ld, View.ld_unit_zero (S := S5000x128) hz3, View.ld_unit_zero (S := S5000x1) hz3, View.ld_unit_zero (S := S128x128) hz3]

/-! ## The input windows' buffers -/

/-- Each input window's buffer holds its block at every row block: both are fetched at every row block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## What the stage keeps, row block by row block -/

theorem PhiS3_zero (c : Dev nD) (n : ℕ) (h : n ≤ cfg3.N) (hz : n = 0) : PhiS3 V c n h = Pipeline.ΦA spec3 c := by
  subst hz; rfl

/-- After row block n the accumulator's buffer holds the accumulator there. -/
theorem PhiS3_succ (c : Dev nD) (n : ℕ) (hn : n < cfg3.N) :
    PhiS3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0]
      ∗ (∃ r, prngReg c r)) := rfl

/-- Before a row block that is not the first it holds what the row block before left. -/
theorem PhiS3_pos (c : Dev nD) (n : ℕ) (h : n ≤ cfg3.N) (hz : n ≠ 0) :
    PhiS3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-- The accumulator at the first row block, and at a later one over the row block before. -/
theorem accAt3_first (c : Dev nD) (t : Fin cfg3.N) (hz : t.val = 0) :
    accAt3 V c t.val t.isLt = step3 (iblk3 V c 0 t) (iblk3 V c 1 t) (k3_pay1 (F := F)) := by
  obtain ⟨n, hn⟩ := t
  cases n with
  | zero => rfl
  | succ n => exact absurd hz (Nat.succ_ne_zero n)
theorem accAt3_later (c : Dev nD) (t : Fin cfg3.N) (hz : t.val ≠ 0) :
    accAt3 V c t.val t.isLt
      = step3 (iblk3 V c 0 t) (iblk3 V c 1 t) (accAt3 V c (t.val - 1) (Nat.lt_of_le_of_lt (Nat.sub_le _ _) t.isLt)) := by
  obtain ⟨n, hn⟩ := t
  cases n with
  | zero => exact absurd rfl hz
  | succ n => rfl

/-! ## The body's obligation -/

/-- What the body is called with at row block t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: the result's buffer as found where the window is idle, at the accumulator at the last row block. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any row block, by the three cases: the inputs' buffers hold their blocks; the stage hands over the
    accumulator's buffer (at anything at the first row block, at the accumulator of the row block before afterwards)
    and takes it back at this row block's accumulator; the core's dues pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from rfl, after3_0]
  rw [show (dat3 V c).leavesExact 1 t = owns (c : Thread nD τ) (st3_1 t) fullShare ((dat3 V c).after 1 t) from rfl, after3_1]
  have hN : t.val < 10 := lt_of_lt_of_eq t.isLt (show cfg3.N = 10 from N_3)
  by_cases h0 : t.val % 10 = 0
  · by_cases h9 : t.val % 10 = 9
    · exfalso; omega
    · have hz : t.val = 0 := by omega
      have hc1 : cond3_1 (grid3.coords t) := (hcond3_1 t).mpr h0
      have hc2 : ¬cond3_2 (grid3.coords t) := fun h => h9 ((hcond3_2 t).mp h)
      rw [Dat.leavesExact_idle (dat3 V c) 2 t (idleAt3_2 t hc2) (noFlush3_2 t hc2)]
      rw [accAt3_first V c t hz]
      rw [PhiS3_castSucc V c t, PhiS3_zero V c _ _ hz, PhiA3_eq]
      iintro ⟨⟨⟨HS, HR⟩, Hg⟩, Ho, ⟨%d0, H0⟩, ⟨%d1, H1⟩, ⟨%d2, H2⟩⟩
      iapply (sound_kernel3_A c Set.univ _ _ _ _ _ _ _ _ _ hc1 hc2 (iblk3 V c 0 t) (iblk3 V c 1 t) ((dat3 V c).before 2 t d2) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2
  · have hz : t.val ≠ 0 := fun h => h0 (by rw [h])
    have hc1 : ¬cond3_1 (grid3.coords t) := fun h => h0 ((hcond3_1 t).mp h)
    by_cases h9 : t.val % 10 = 9
    · have hc2 : cond3_2 (grid3.coords t) := (hcond3_2 t).mpr h9
      rw [show (dat3 V c).leavesExact 2 t = owns (c : Thread nD τ) (st3_2 t) fullShare ((dat3 V c).after 2 t) from by
        unfold Dat.leavesExact; rw [liveAt3_2 t hc2], after3_2]
      rw [accAt3_later V c t hz]
      rw [PhiS3_castSucc V c t, PhiS3_pos V c _ _ hz]
      iintro ⟨⟨HS, HR, Hg⟩, Ho, ⟨%d0, H0⟩, ⟨%d1, H1⟩, ⟨%d2, H2⟩⟩
      iapply (sound_kernel3_C c Set.univ _ _ _ _ _ _ _ _ _ hc1 hc2 (iblk3 V c 0 t) (iblk3 V c 1 t)
        (accAt3 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬cond3_2 (grid3.coords t) := fun h => h9 ((hcond3_2 t).mp h)
      rw [Dat.leavesExact_idle (dat3 V c) 2 t (idleAt3_2 t hc2) (noFlush3_2 t hc2)]
      rw [accAt3_later V c t hz]
      rw [PhiS3_castSucc V c t, PhiS3_pos V c _ _ hz]
      iintro ⟨⟨HS, HR, Hg⟩, Ho, ⟨%d0, H0⟩, ⟨%d1, H1⟩, ⟨%d2, H2⟩⟩
      iapply (sound_kernel3_B c Set.univ _ _ _ _ _ _ _ _ _ hc1 hc2 (iblk3 V c 0 t) (iblk3 V c 1 t) ((dat3 V c).before 2 t d2)
        (accAt3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The body's obligation to the stage, at every row block. -/
theorem body_obligation3 (c : Dev nD) : BodyObligation (dat3 (F := F) V c) (defs₀ (F := F)) Variants.none () Set.univ := by
  exact fun t => by
    rw [bigSep_W3, bigSep_W3]
    exact sound_body3 V c t

/-- What the stage is entered with is what it keeps before the first row block. -/
theorem hin3 (c : Dev nD) : Pipeline.ΦA (U := UR sig nD τ) (Val := Elt F) spec3 c ⊢ (dat3 V c).Φ 0 := by
  rw [show (dat3 V c).Φ 0 = PhiS3 V c 0 (Nat.zero_le _) from rfl, PhiS3_zero V c 0 _ rfl]
  try exact Idealize.SL.BI.Entails.refl _

/-- After the last row block the accumulator's contents are forgotten. -/
theorem hout3 (c : Dev nD) : (dat3 V c).Φ (Fin.last cfg3.N) ⊢ Pipeline.ΦA (U := UR sig nD τ) (Val := Elt F) spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 10 := N_3; omega), PhiA3_eq]
  iintro ⟨HS, HR, Hg⟩
  isplitl [HS HR]
  · isplitl [HS]
    · iexists _; iexact HS
    iexact HR
  iexact Hg

end Cert.KernelIdeal.Hand

end
-- ==== Proof.KI.Run.lean ====
/-
  The whole program as a chain of items: stretches of host operations and the four kernel stages (three node updates,
  the pooling), each item entered with the buffers at what the one before it left. Named are the buffers' contents at
  every boundary; each stage's record of what it needs on entry and gives back on exit; and the run of the program from
  the launch to its return, with the result array's final contents and the arguments unchanged.
-/
import proofs.«415025_j5626407158206_1_alg».proof.Proof.KI.Comb0
import proofs.«415025_j5626407158206_1_alg».proof.Proof.KI.Comb1
import proofs.«415025_j5626407158206_1_alg».proof.Proof.KI.Comb2
import proofs.«415025_j5626407158206_1_alg».proof.Proof.KI.Pool
import proofs.«415025_j5626407158206_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items of the program

Before the first stage the buffers hold what the host operations computed from the launch contents (the generated
valuation). Each stage then changes its result array alone, to what its write-backs leave, and each stretch of host
operations acts on what it finds. -/

/-- After the first node-update stage. -/
def U4 (c : Dev nD) : Valuation τ sig (Elt F) :=
  Function.update (V3 m c) main_v35 ((dat0 (F := F) (fun c b => V3 m c b) c).arrAt 5 cfg0.N)
/-- After the host operations between the first and the second. -/
def U5 (c : Dev nD) : Valuation τ sig (Elt F) := StableHlo.after hostOps1 (U4 m c)
/-- After the second node-update stage. -/
def U6 (c : Dev nD) : Valuation τ sig (Elt F) :=
  Function.update (U5 m c) main_v55 ((dat1 (F := F) (fun c b => U5 m c b) c).arrAt 5 cfg1.N)
/-- After the host operations between the second and the third. -/
def U7 (c : Dev nD) : Valuation τ sig (Elt F) := StableHlo.after hostOps2 (U6 m c)
/-- After the third node-update stage. -/
def U8 (c : Dev nD) : Valuation τ sig (Elt F) :=
  Function.update (U7 m c) main_v75 ((dat2 (F := F) (fun c b => U7 m c b) c).arrAt 5 cfg2.N)
/-- After the reshaping of the graph ids. -/
def U9 (c : Dev nD) : Valuation τ sig (Elt F) := StableHlo.after hostOps3 (U8 m c)
/-- After the pooling stage. -/
def U10 (c : Dev nD) : Valuation τ sig (Elt F) :=
  Function.update (U9 m c) main_v77 ((dat3 (F := F) (fun c b => U9 m c b) c).arrAt 2 cfg3.N)

/-- What the stages leave, as the family the generated valuations are written over. -/
def outs : Outs (F := F) := fun j r c =>
  if j = 4 then U4 m c r else if j = 6 then U6 m c r else if j = 8 then U8 m c r else U10 m c r

theorem V4_eq (c : Dev nD) : V4 m (outs m) c = U4 m c := by
  show Function.update (V3 m c) main_v35 (outs m 4 main_v35 c) = U4 m c
  have h : outs m 4 main_v35 c = (dat0 (F := F) (fun c b => V3 m c b) c).arrAt 5 cfg0.N := by
    unfold outs; rw [if_pos rfl]; unfold U4; exact Function.update_self ..
  rw [h]; rfl
theorem V5_eq (c : Dev nD) : V5 m (outs m) c = U5 m c := by
  show StableHlo.after hostOps1 (V4 m (outs m) c) = U5 m c
  rw [V4_eq]; rfl
theorem V6_eq (c : Dev nD) : V6 m (outs m) c = U6 m c := by
  show Function.update (V5 m (outs m) c) main_v55 (outs m 6 main_v55 c) = U6 m c
  have h : outs m 6 main_v55 c = (dat1 (F := F) (fun c b => U5 m c b) c).arrAt 5 cfg1.N := by
    unfold outs; rw [if_neg (by decide), if_pos rfl]; unfold U6; exact Function.update_self ..
  rw [h, V5_eq]; rfl
theorem V7_eq (c : Dev nD) : V7 m (outs m) c = U7 m c := by
  show StableHlo.after hostOps2 (V6 m (outs m) c) = U7 m c
  rw [V6_eq]; rfl
theorem V8_eq (c : Dev nD) : V8 m (outs m) c = U8 m c := by
  show Function.update (V7 m (outs m) c) main_v75 (outs m 8 main_v75 c) = U8 m c
  have h : outs m 8 main_v75 c = (dat2 (F := F) (fun c b => U7 m c b) c).arrAt 5 cfg2.N := by
    unfold outs; rw [if_neg (by decide), if_neg (by decide), if_pos rfl]; unfold U8; exact Function.update_self ..
  rw [h, V7_eq]; rfl
theorem V9_eq (c : Dev nD) : V9 m (outs m) c = U9 m c := by
  show StableHlo.after hostOps3 (V8 m (outs m) c) = U9 m c
  rw [V8_eq]; rfl
theorem V10_eq (c : Dev nD) : V10 m (outs m) c = U10 m c := by
  show Function.update (V9 m (outs m) c) main_v77 (outs m 10 main_v77 c) = U10 m c
  have h : outs m 10 main_v77 c = (dat3 (F := F) (fun c b => U9 m c b) c).arrAt 2 cfg3.N := by
    unfold outs; rw [if_neg (by decide), if_neg (by decide), if_neg (by decide)]; unfold U10; exact Function.update_self ..
  rw [h, V9_eq]; rfl

/-! ## The stages' bookkeeping data, each at the contents its stage is entered with -/

def pdats : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => U5 m c b) c
  | ⟨2, _⟩ => fun c => dat2 (fun c b => U7 m c b) c
  | ⟨3, _⟩ => fun c => dat3 (fun c b => U9 m c b) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

theorem hF0_in (c : Dev nD) (w : Fin cfg0.W) (hin : (cfg0.win w).isOut = false)
    (hne : (Proc.devRef .tc (Pipeline.arrRef spec0 w) : DevRef τ sig) ≠ Proc.devRef .tc main_v35) :
    (pdats m 0 c).arrAt w cfg0.N = U4 m c (Pipeline.arrRef spec0 w) :=
  ((pdats m 0 c).arrAt_in w hin _).trans (by
    unfold U4
    rw [Function.update_of_ne hne]
    rfl)

/-- At the stage's exit each of its arrays holds what the stage leaves, -/
theorem hF0 (c : Dev nD) : ∀ w : Fin cfg0.W, (pdats m 0 c).arrAt w cfg0.N = U4 m c (Pipeline.arrRef spec0 w)
  | ⟨0, _⟩ => hF0_in m c 0 rfl (StableHlo.devRef_ne_of_ne (by decide))
  | ⟨1, _⟩ => hF0_in m c 1 rfl (StableHlo.devRef_ne_of_ne (by decide))
  | ⟨2, _⟩ => hF0_in m c 2 rfl (StableHlo.devRef_ne_of_ne (by decide))
  | ⟨3, _⟩ => hF0_in m c 3 rfl (StableHlo.devRef_ne_of_ne (by decide))
  | ⟨4, _⟩ => hF0_in m c 4 rfl (StableHlo.devRef_ne_of_ne (by decide))
  | ⟨5, _⟩ => by
    unfold U4
    exact (Function.update_self (Proc.devRef .tc main_v35 : DevRef τ sig) _ (V3 m c)).symm
  | ⟨_ + 6, h⟩ => absurd h (Nat.not_lt.2 (Nat.le_add_left _ _))

/-- and every other buffer what it held at entry. -/
theorem hrest0 (c : Dev nD) (b : Ref sig .tc) (hb : b ∉ Finset.univ.image (Pipeline.arrRef spec0)) : U4 m c b = V3 m c b := by
  have hne : b ≠ main_v35 := by
    intro e
    apply hb
    rw [e]
    exact Finset.mem_image_of_mem (Pipeline.arrRef spec0) (Finset.mem_univ (5 : Fin cfg0.W))
  unfold U4
  exact Function.update_of_ne (StableHlo.devRef_ne_of_ne hne) _ _

theorem hF1_in (c : Dev nD) (w : Fin cfg1.W) (hin : (cfg1.win w).isOut = false)
    (hne : (Proc.devRef .tc (Pipeline.arrRef spec1 w) : DevRef τ sig) ≠ Proc.devRef .tc main_v55) :
    (pdats m 1 c).arrAt w cfg1.N = U6 m c (Pipeline.arrRef spec1 w) :=
  ((pdats m 1 c).arrAt_in w hin _).trans (by
    unfold U6
    rw [Function.update_of_ne hne]
    rfl)

/-- At the stage's exit each of its arrays holds what the stage leaves, -/
theorem hF1 (c : Dev nD) : ∀ w : Fin cfg1.W, (pdats m 1 c).arrAt w cfg1.N = U6 m c (Pipeline.arrRef spec1 w)
  | ⟨0, _⟩ => hF1_in m c 0 rfl (StableHlo.devRef_ne_of_ne (by decide))
  | ⟨1, _⟩ => hF1_in m c 1 rfl (StableHlo.devRef_ne_of_ne (by decide))
  | ⟨2, _⟩ => hF1_in m c 2 rfl (StableHlo.devRef_ne_of_ne (by decide))
  | ⟨3, _⟩ => hF1_in m c 3 rfl (StableHlo.devRef_ne_of_ne (by decide))
  | ⟨4, _⟩ => hF1_in m c 4 rfl (StableHlo.devRef_ne_of_ne (by decide))
  | ⟨5, _⟩ => by
    unfold U6
    exact (Function.update_self (Proc.devRef .tc main_v55 : DevRef τ sig) _ (U5 m c)).symm
  | ⟨_ + 6, h⟩ => absurd h (Nat.not_lt.2 (Nat.le_add_left _ _))

/-- and every other buffer what it held at entry. -/
theorem hrest1 (c : Dev nD) (b : Ref sig .tc) (hb : b ∉ Finset.univ.image (Pipeline.arrRef spec1)) : U6 m c b = U5 m c b := by
  have hne : b ≠ main_v55 := by
    intro e
    apply hb
    rw [e]
    exact Finset.mem_image_of_mem (Pipeline.arrRef spec1) (Finset.mem_univ (5 : Fin cfg1.W))
  unfold U6
  exact Function.update_of_ne (StableHlo.devRef_ne_of_ne hne) _ _

theorem hF2_in (c : Dev nD) (w : Fin cfg2.W) (hin : (cfg2.win w).isOut = false)
    (hne : (Proc.devRef .tc (Pipeline.arrRef spec2 w) : DevRef τ sig) ≠ Proc.devRef .tc main_v75) :
    (pdats m 2 c).arrAt w cfg2.N = U8 m c (Pipeline.arrRef spec2 w) :=
  ((pdats m 2 c).arrAt_in w hin _).trans (by
    unfold U8
    rw [Function.update_of_ne hne]
    rfl)

/-- At the stage's exit each of its arrays holds what the stage leaves, -/
theorem hF2 (c : Dev nD) : ∀ w : Fin cfg2.W, (pdats m 2 c).arrAt w cfg2.N = U8 m c (Pipeline.arrRef spec2 w)
  | ⟨0, _⟩ => hF2_in m c 0 rfl (StableHlo.devRef_ne_of_ne (by decide))
  | ⟨1, _⟩ => hF2_in m c 1 rfl (StableHlo.devRef_ne_of_ne (by decide))
  | ⟨2, _⟩ => hF2_in m c 2 rfl (StableHlo.devRef_ne_of_ne (by decide))
  | ⟨3, _⟩ => hF2_in m c 3 rfl (StableHlo.devRef_ne_of_ne (by decide))
  | ⟨4, _⟩ => hF2_in m c 4 rfl (StableHlo.devRef_ne_of_ne (by decide))
  | ⟨5, _⟩ => by
    unfold U8
    exact (Function.update_self (Proc.devRef .tc main_v75 : DevRef τ sig) _ (U7 m c)).symm
  | ⟨_ + 6, h⟩ => absurd h (Nat.not_lt.2 (Nat.le_add_left _ _))

/-- and every other buffer what it held at entry. -/
theorem hrest2 (c : Dev nD) (b : Ref sig .tc) (hb : b ∉ Finset.univ.image (Pipeline.arrRef spec2)) : U8 m c b = U7 m c b := by
  have hne : b ≠ main_v75 := by
    intro e
    apply hb
    rw [e]
    exact Finset.mem_image_of_mem (Pipeline.arrRef spec2) (Finset.mem_univ (5 : Fin cfg2.W))
  unfold U8
  exact Function.update_of_ne (StableHlo.devRef_ne_of_ne hne) _ _

theorem hF3_in (c : Dev nD) (w : Fin cfg3.W) (hin : (cfg3.win w).isOut = false)
    (hne : (Proc.devRef .tc (Pipeline.arrRef spec3 w) : DevRef τ sig) ≠ Proc.devRef .tc main_v77) :
    (pdats m 3 c).arrAt w cfg3.N = U10 m c (Pipeline.arrRef spec3 w) :=
  ((pdats m 3 c).arrAt_in w hin _).trans (by
    unfold U10
    rw [Function.update_of_ne hne]
    rfl)

/-- At the stage's exit each of its arrays holds what the stage leaves, -/
theorem hF3 (c : Dev nD) : ∀ w : Fin cfg3.W, (pdats m 3 c).arrAt w cfg3.N = U10 m c (Pipeline.arrRef spec3 w)
  | ⟨0, _⟩ => hF3_in m c 0 rfl (StableHlo.devRef_ne_of_ne (by decide))
  | ⟨1, _⟩ => hF3_in m c 1 rfl (StableHlo.devRef_ne_of_ne (by decide))
  | ⟨2, _⟩ => by
    unfold U10
    exact (Function.update_self (Proc.devRef .tc main_v77 : DevRef τ sig) _ (U9 m c)).symm
  | ⟨_ + 3, h⟩ => absurd h (Nat.not_lt.2 (Nat.le_add_left _ _))

/-- and every other buffer what it held at entry. -/
theorem hrest3 (c : Dev nD) (b : Ref sig .tc) (hb : b ∉ Finset.univ.image (Pipeline.arrRef spec3)) : U10 m c b = U9 m c b := by
  have hne : b ≠ main_v77 := by
    intro e
    apply hb
    rw [e]
    exact Finset.mem_image_of_mem (Pipeline.arrRef spec3) (Finset.mem_univ (2 : Fin cfg3.W))
  unfold U10
  exact Function.update_of_ne (StableHlo.devRef_ne_of_ne hne) _ _

-- a library lemma stated over the pinned configuration unifies with the printed one only when unification may unfold
-- plain definitions in a metavariable's type
set_option backward.isDefEq.respectTransparency.types false in
/-- Node-update stage 0 as an item of the program: entered with every buffer outside the kernels' own at V3 m, left
    with them at U4 m (the stage's result array at what its write-backs leave, everything else untouched); the generator
    register into the stage and out; nothing owed; no semaphore of the kernel's own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V3 m c b) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Node-update stage 1 as an item of the program: entered with every buffer outside the kernels' own at U5 m, left
    with them at U6 m (the stage's result array at what its write-backs leave, everything else untouched); the generator
    register into the stage and out; nothing owed; no semaphore of the kernel's own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => U5 m c b) c).loose
  hwaits := Pipeline.hwaits_of_owed_zero _ _ _ _ L lv 1 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec1 c (fun b => U5 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => U5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => U5 m c b) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Node-update stage 2 as an item of the program: entered with every buffer outside the kernels' own at U7 m, left
    with them at U8 m (the stage's result array at what its write-backs leave, everything else untouched); the generator
    register into the stage and out; nothing owed; no semaphore of the kernel's own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => U7 m c b) c).loose
  hwaits := Pipeline.hwaits_of_owed_zero _ _ _ _ L lv 2 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec2 c (fun b => U7 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => U7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => U7 m c b) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The pooling stage as an item of the program: entered with every buffer outside the kernels' own at U9, left with them
    at U10 (the result array at what the last row block's write-back leaves); the scratch buffers and the generator
    register into the stage and out; nothing owed; no semaphore of the kernel's own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => U9 m c b) c).loose
  hwaits := Pipeline.hwaits_of_owed_zero _ _ _ _ L lv 3 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec3 c (fun b => U9 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => U9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (fun c b => U9 m c b) c)
    unfold Pipeline.ΦA
    iintro ⟨Hp, -, Hr⟩
    isplitl [Hr]; · iexact Hr
    iexact Hp
  hout c := by
    rw [Pipeline.ownSems0_none]
    refine BIBase.Entails.trans (hout3 (fun c b => U9 m c b) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => U9 m c b) (fun b => U10 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program's run -/

variable (ρ : Dev nD → PrngReg)

/-- What rides along at each boundary between items: the same at all five. -/
abbrev E : Fin 5 → Dev nD → sProp 𝕄 := fun _ c => R c

-- the launch theorem's implicit arguments are found by unifying its conclusion with this one, which takes unfolding
-- plain definitions in a metavariable's type
set_option backward.isDefEq.respectTransparency.types false in
/-- From any memory with zero counters every weakly fair execution of the program terminates, nothing faulting, with
    the result array at what the pooling stage's last write-back leaves (U10) and every argument as launched: the
    host stretches and the four stages in the program's order, each entered from what the one before it left. -/
theorem run_main : θ_run defs (onTc (τ := τ) (main (F := F))) ⟨m, fun _ => 0, ρ⟩ (fun r => ∀ c : Dev nD,
      r.2.mem ((c.tc : Thread nD τ).loc main_v77) = U10 m c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hpost0 : ∀ c : Dev nD, (reg0 m).post c ⊢ iprop(StableHlo.held (c : Thread nD τ) (Pipeline.ucRefs τ sig) (V4 m (outs m) c) ∗ E (F := F) 1 c) :=
    fun c => by rw [V4_eq]; exact .rfl
  have hpre1 : ∀ c : Dev nD, iprop(StableHlo.held (c : Thread nD τ) (Pipeline.ucRefs τ sig) (V5 m (outs m) c) ∗ E (F := F) 1 c) ⊢ (reg1 m).pre c :=
    fun c => by rw [V5_eq]; exact .rfl
  have hpost1 : ∀ c : Dev nD, (reg1 m).post c ⊢ iprop(StableHlo.held (c : Thread nD τ) (Pipeline.ucRefs τ sig) (V6 m (outs m) c) ∗ E (F := F) 2 c) :=
    fun c => by rw [V6_eq]; exact .rfl
  have hpre2 : ∀ c : Dev nD, iprop(StableHlo.held (c : Thread nD τ) (Pipeline.ucRefs τ sig) (V7 m (outs m) c) ∗ E (F := F) 2 c) ⊢ (reg2 m).pre c :=
    fun c => by rw [V7_eq]; exact .rfl
  have hpost2 : ∀ c : Dev nD, (reg2 m).post c ⊢ iprop(StableHlo.held (c : Thread nD τ) (Pipeline.ucRefs τ sig) (V8 m (outs m) c) ∗ E (F := F) 3 c) :=
    fun c => by rw [V8_eq]; exact .rfl
  have hpre3 : ∀ c : Dev nD, iprop(StableHlo.held (c : Thread nD τ) (Pipeline.ucRefs τ sig) (V9 m (outs m) c) ∗ E (F := F) 3 c) ⊢ (reg3 m).pre c :=
    fun c => by rw [V9_eq]; exact .rfl
  have hpost3 : ∀ c : Dev nD, (reg3 m).post c ⊢ iprop(iprop(StableHlo.held (c : Thread nD τ) (Pipeline.ucRefs τ sig) (U10 m c) ∗ ∃ r, prngReg c r)
      ∗ ∃ W, owes (c : Thread nD τ) (0 : CellTallies nD τ sig Unit) W) := fun c => by
    show iprop(StableHlo.held (c : Thread nD τ) (Pipeline.ucRefs τ sig) (U10 m c) ∗ R c) ⊢ _
    iintro ⟨Hh, Hp, HO⟩
    isplitl [Hh Hp]
    · isplitl [Hh]; · iexact Hh
      iexact Hp
    iexact HO
  refine Pipeline.θ_run_regions_kit_dev (pcfgs (F := F)) adm (pdats m) () cellOf_inj emb₁ defs₀ 𝒱₀ L lv m ρ main
    (segs m (outs m) 𝒱₀ L lv (E (F := F)) () (pdats m) (reg0 m) (reg1 m) (reg2 m) (reg3 m))
    (fun c Q => by
      rewrite [main_chain c, Seg.run_eq_chain,
        show (segs m (outs m) 𝒱₀ L lv (E (F := F)) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U10 m c) ∗ ∃ r, prngReg c r))
    (hch := fun c => ⟨.rfl, .rfl, .rfl, .rfl, hpost0 c, hpre1 c, hpost1 c, hpre2 c, hpost2 c, hpre3 c, hpost3 c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => ?_)
  have hu : ∀ r : Ref sig .tc, ¬ (Proc.devRef .tc r : DevRef τ sig).isScoped → s.mem ((c.tc : Thread nD τ).loc r) = U10 m c r :=
    fun r hr => h c _ (Finset.mem_filter.mpr ⟨StableHlo.devRef_mem_tcRefs r, hr⟩)
  have hV := V10_eq m c
  refine ⟨hu main_v77 (by decide), ?_, ?_, ?_, ?_, ?_, ?_⟩
  · exact (hu main_arg0 (by decide)).trans ((congrFun hV.symm _).trans (V10_main_arg0 m (outs m) c))
  · exact (hu main_arg1 (by decide)).trans ((congrFun hV.symm _).trans (V10_main_arg1 m (outs m) c))
  · exact (hu main_arg2 (by decide)).trans ((congrFun hV.symm _).trans (V10_main_arg2 m (outs m) c))
  · exact (hu main_arg3 (by decide)).trans ((congrFun hV.symm _).trans (V10_main_arg3 m (outs m) c))
  · exact (hu main_arg4 (by decide)).trans ((congrFun hV.symm _).trans (V10_main_arg4 m (outs m) c))
  · exact (hu main_arg5 (by decide)).trans ((congrFun hV.symm _).trans (V10_main_arg5 m (outs m) c))

/-- The frame: the run with the result's contents dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Hand

end
-- ==== Proof.Spec.lean ====
/-
  The network the two programs compute, as mathematics over the extended reals.

  A layer takes node features x (50000 nodes, 128 features each) and an aggregate a of neighbour features of the same
  shape, and gives  a · Wl + x · Wr + b , followed on the first two layers by max(·, 0). Three layers are stacked, each
  aggregate computed from the features that enter the layer by one fixed map (the mean over incoming edges), and the
  result is pooled: entry (g, d) of the output is the sum of feature d over the nodes whose graph id is g; a node
  whose id is no row of the output adds nothing.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Spec

open Idealize.ShloMosaic Idealize.ShloMosaic.ValueIdx Idealize.ShloMosaic.StableHlo.Predicate

/-- Node features; a weight matrix; a bias row; a column of graph ids. -/
abbrev SN : Shape := ⟨2, ![50000, 128]⟩
abbrev SW : Shape := ⟨2, ![128, 128]⟩
abbrev SB : Shape := ⟨2, ![1, 128]⟩
abbrev SC : Shape := ⟨2, ![50000, 1]⟩

/-- Entry (p, q) of  a · Wl + x · Wr + b . -/
def combZ (A X : FVec Ideal SN .f32) (Wl Wr : FVec Ideal SW .f32) (B : FVec Ideal SB .f32) (p : Fin 50000) (q : Fin 128) : EReal :=
  (∑ k : Fin 128, A (ix2 p k) * Wl (ix2 k q) + ∑ k : Fin 128, X (ix2 p k) * Wr (ix2 k q)) + B (ix2 0 q)

/-- One layer: the affine update, clipped below at zero when `relu` is set. -/
def comb (relu : Bool) (A X : FVec Ideal SN .f32) (Wl Wr : FVec Ideal SW .f32) (B : FVec Ideal SB .f32) : FVec Ideal SN .f32 := fun i =>
  if relu then max (combZ A X Wl Wr B (i 0) (i 1)) 0 else combZ A X Wl Wr B (i 0) (i 1)

/-- Pooling by graph id: entry (g, d) sums feature d over the nodes whose id, read signed, is g. -/
def pool (X : FVec Ideal SN .f32) (b : IVec SC 32) : FVec Ideal SW .f32 := fun i =>
  ∑ n ∈ Finset.univ.filter (fun n : Fin 50000 => (b (ixP n)).toInt = (((i 0).val : ℕ) : ℤ)), X (ix2 n (i 1))

/-- Three layers over one aggregation map, then the pooling. -/
def net (agg : FVec Ideal SN .f32 → FVec Ideal SN .f32) (x : FVec Ideal SN .f32) (Wl Wr : Fin 3 → FVec Ideal SW .f32)
    (B : Fin 3 → FVec Ideal SB .f32) (b : IVec SC 32) : FVec Ideal SW .f32 :=
  pool (comb false (agg (comb true (agg (comb true (agg x) x (Wl 0) (Wr 0) (B 0))) (comb true (agg x) x (Wl 0) (Wr 0) (B 0)) (Wl 1) (Wr 1) (B 1)))
    (comb true (agg (comb true (agg x) x (Wl 0) (Wr 0) (B 0))) (comb true (agg x) x (Wl 0) (Wr 0) (B 0)) (Wl 1) (Wr 1) (B 1)) (Wl 2) (Wr 2) (B 2)) b

theorem comb_apply (relu : Bool) (A X : FVec Ideal SN .f32) (Wl Wr : FVec Ideal SW .f32) (B : FVec Ideal SB .f32) (p : Fin 50000) (q : Fin 128) :
    comb relu A X Wl Wr B (ix2 p q) = if relu then max (combZ A X Wl Wr B p q) 0 else combZ A X Wl Wr B p q := rfl

theorem pool_apply (X : FVec Ideal SN .f32) (b : IVec SC 32) (g : Fin 128) (d : Fin 128) :
    pool X b (ix2 g d) = ∑ n ∈ Finset.univ.filter (fun n : Fin 50000 => (b (ixP n)).toInt = ((g.val : ℕ) : ℤ)), X (ix2 n d) := rfl

end Cert.Spec

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KI.ValComb.lean ====
/-
  What the three node-update stages leave in their result arrays, at the extended reals.

  Each stage runs over ten row blocks of 5000 nodes. At row block t the body multiplies the block's aggregated
  neighbour features and the block's own features by the two 128 × 128 weight matrices, adds the two products and the
  bias row, clips at zero on the first two stages, and the block is written back to rows 5000 t … 5000 t + 4999 of the
  result. Entry (p, q) of a block's product is the sum over k of left (p, k) times right (k, q), and row p of block t is
  row 5000 t + p of the array, so what block t writes back is block t of ONE function of the stage's five input arrays:
  the layer's update `Cert.Spec.comb`. The ten blocks tile the 50000 rows (row r lies in block r / 5000), so after the
  stage the result array is that function, whole.
-/
import proofs.«415025_j5626407158206_1_alg».proof.Proof.KI.Comb0
import proofs.«415025_j5626407158206_1_alg».proof.Proof.KI.Comb1
import proofs.«415025_j5626407158206_1_alg».proof.Proof.KI.Comb2
import proofs.«415025_j5626407158206_1_alg».proof.Proof.Spec
import proofs.«415025_j5626407158206_1_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- A zero offset pair is the zero offset. -/
theorem hz : (![0, 0] : Fin 2 → Nat) = fun _ => 0 := funext fun a => by fin_cases a <;> rfl

/-! ## Stage 0 -/

/-- The first stage's arithmetic at an entry: the two products summed, the bias row added, the clip at zero. -/
theorem pay0_apply (x0 x1 : Vec Ideal S5000x128 .f32) (x2 x3 : Vec Ideal S128x128 .f32) (x4 : Vec Ideal S1x128 .f32)
    (r : Fin 5000) (q : Fin 128) :
    k0_pay1 x0 x1 x2 x3 x4 (ix2 r q)
      = max ((∑ k : Fin 128, x0 (ix2 r k) * x2 (ix2 k q) + ∑ k : Fin 128, x1 (ix2 r k) * x3 (ix2 k q)) + x4 (ix2 0 q)) 0 := by
  unfold k0_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · exact Cert.LibDense.matmul_zero_apply dot_S5000x128_S128x128_S5000x128_1_0_0_1_n_n none rfl rfl rfl rfl rfl rfl
        (truncf .bf16 x0 bitsLt_bf16_f32) (truncf .bf16 x2 bitsLt_bf16_f32) r q
    · exact Cert.LibDense.matmul_zero_apply dot_S5000x128_S128x128_S5000x128_1_0_0_1_n_n none rfl rfl rfl rfl rfl rfl
        (truncf .bf16 x1 bitsLt_bf16_f32) (truncf .bf16 x3 bitsLt_bf16_f32) r q
  · refine broadcastTo_apply x4 broadcasts_S1x128_S5000x128 (ix2 r q) (ix2 0 q) fun a => ?_
    match a with
    | ⟨0, _⟩ => rfl
    | ⟨1, _⟩ => rfl

/-- The printed index maps, decided over the ten row blocks: the two feature windows and the result window sit at
    row block t, column block 0; the weights and the bias at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are ten row blocks. -/
theorem lt0 (t : Fin cfg0.N) : t.val < 10 := lt_of_lt_of_eq t.isLt N_0

/-- The aggregate's block at row block t is rows 5000 t … 5000 t + 4999 of its array. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v27 : S50000x128.Idx → EReal) k := by
  obtain ⟨e00, e01, e10, e11, -⟩ := idx_facts0 t
  unfold iblk0
  rw [View.read_apply]
  show V c main_v27 _ = V c main_v27 _
  congr 1
  funext a
  apply Fin.ext
  match a with
  | ⟨0, _⟩ => show win0_0.index t 0 * 5000 + 1 * (x 0).val = (k 0).val; rw [e00, hk0]; omega
  | ⟨1, _⟩ => show win0_0.index t 1 * 128 + 1 * (x 1).val = (k 1).val; rw [e01, hk1]; omega

/-- The features' block at row block t is rows 5000 t … 5000 t + 4999 of its array. -/
theorem iblk0_1_apply (c : Dev nD) (t : Fin cfg0.N) (x : S5000x128.Idx) (k : S50000x128.Idx)
    (hk0 : (k 0).val = 5000 * t.val + (x 0).val) (hk1 : (k 1).val = (x 1).val) :
    (iblk0 V c 1 t : Vec Ideal S5000x128 .f32) x = (V c main_arg0 : S50000x128.Idx → EReal) k := by
  obtain ⟨e00, e01, e10, e11, -⟩ := idx_facts0 t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e10, hk0]; omega
  | ⟨1, _⟩ => show win0_1.index t 1 * 128 + 1 * (x 1).val = (k 1).val; rw [e11, hk1]; omega

/-- The first weight matrix's block is its whole array at every row block. -/
theorem iblk0_2_apply (c : Dev nD) (t : Fin cfg0.N) (x : S128x128.Idx) :
    (iblk0 V c 2 t : Vec Ideal S128x128 .f32) x = (V c main_v29 : S128x128.Idx → EReal) x := by
  obtain ⟨-, -, -, -, e0, e1, -⟩ := idx_facts0 t
  unfold iblk0
  rw [View.read_apply]
  show V c main_v29 _ = V c main_v29 _
  congr 1
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second weight matrix's block is its whole array at every row block. -/
theorem iblk0_3_apply (c : Dev nD) (t : Fin cfg0.N) (x : S128x128.Idx) :
    (iblk0 V c 3 t : Vec Ideal S128x128 .f32) x = (V c main_v31 : S128x128.Idx → EReal) x := by
  obtain ⟨-, -, -, -, -, -, e0, e1, -⟩ := idx_facts0 t
  unfold iblk0
  rw [View.read_apply]
  show V c main_v31 _ = V c main_v31 _
  congr 1
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias row's block is its whole array at every row block. -/
theorem iblk0_4_apply (c : Dev nD) (t : Fin cfg0.N) (x : S1x128.Idx) :
    (iblk0 V c 4 t : Vec Ideal S1x128 .f32) x = (V c main_v34 : S1x128.Idx → EReal) x := by
  obtain ⟨-, -, -, -, -, -, -, -, e0, e1, -⟩ := idx_facts0 t
  unfold iblk0
  rw [View.read_apply]
  show V c main_v34 _ = V c main_v34 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The result window's block at row block t sends (p, q) to row 5000 t + p, column q of the result array. -/
theorem emb0_5 (t : Fin cfg0.N) (p : Fin 5000) (q : Fin 128) (hP : 5000 * t.val + p.val < 50000) :
    ((cfg0.win 5).blk t).view.emb (ix2 p q) = (ix2 ⟨5000 * t.val + p.val, hP⟩ q : S50000x128.Idx) := by
  obtain ⟨-, -, -, -, -, -, -, -, -, -, e0, e1⟩ := idx_facts0 t
  funext a
  apply Fin.ext
  match a with
  | ⟨0, _⟩ => show win0_5.index t 0 * 5000 + 1 * p.val = 5000 * t.val + p.val; rw [e0]; omega
  | ⟨1, _⟩ => show win0_5.index t 1 * 128 + 1 * q.val = q.val; rw [e1]; omega

/-- What row block t writes back is block t of the layer's update of the arrays as the stage finds them. -/
theorem flushed0_eq (c : Dev nD) (t : Fin cfg0.N) :
    (cfg0.win 5).cut (grid0.coords t) ((dat0 (F := Ideal) V c).after 5 t)
      = ((cfg0.win 5).blk t).view.read (Elt Ideal) (Cert.Spec.comb true (V c main_v27) (V c main_arg0) (V c main_v29) (V c main_v31) (V c main_v34)) := by
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := lt0 t
  have hP : 5000 * t.val + p.val < 50000 := by have := p.isLt; omega
  show k0_pay1 (iblk0 V c 0 t) (iblk0 V c 1 t) (iblk0 V c 2 t) (iblk0 V c 3 t) (iblk0 V c 4 t) (ix2 p q) = _
  refine (pay0_apply (iblk0 V c 0 t) (iblk0 V c 1 t) (iblk0 V c 2 t) (iblk0 V c 3 t) (iblk0 V c 4 t) p q).trans ?_
  rw [View.read_apply, emb0_5 t p q hP, Cert.Spec.comb_apply]
  refine congrArg₂ max ?_ rfl
  unfold Cert.Spec.combZ
  refine congrArg₂ (· + ·) (congrArg₂ (· + ·) (Finset.sum_congr rfl fun k _ => ?_) (Finset.sum_congr rfl fun k _ => ?_)) ?_
  · exact congrArg₂ (· * ·) (iblk0_0_apply V c t (ix2 p k) (ix2 ⟨5000 * t.val + p.val, hP⟩ k) rfl rfl) (iblk0_2_apply V c t (ix2 k q))
  · exact congrArg₂ (· * ·) (iblk0_1_apply V c t (ix2 p k) (ix2 ⟨5000 * t.val + p.val, hP⟩ k) rfl rfl) (iblk0_3_apply V c t (ix2 k q))
  · exact iblk0_4_apply V c t (ix2 0 q)

/-- An index of the result array is in row block t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v35).slice (win0_5.rect t)).set ↔ _
  rw [View.set_slice_whole, Rect.mem_set_unit]
  exact Iff.rfl

/-- Row r of the result array lies in row block r / 5000, which is written back. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_5 _, ?_⟩
  obtain ⟨-, -, -, -, -, -, -, -, -, -, e0, e1⟩ := idx_facts0 ⟨(i 0).val / 5000, hN⟩
  rw [mem_blk0]
  intro a
  match a with
  | ⟨0, _⟩ => show win0_5.index ⟨(i 0).val / 5000, hN⟩ (0 : Fin 2) * 5000 ≤ (i 0).val ∧ (i 0).val < win0_5.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win0_5.index ⟨(i 0).val / 5000, hN⟩ (1 : Fin 2) * 128 ≤ (i 1).val ∧ (i 1).val < win0_5.index ⟨(i 0).val / 5000, hN⟩ (1 : Fin 2) * 128 + 128; rw [e1]; omega

/-- The result array after the stage: the layer's update of the arrays as the stage finds them. -/
theorem final0 (c : Dev nD) : (dat0 (F := Ideal) V c).arrAt 5 cfg0.N = Cert.Spec.comb true (V c main_v27) (V c main_arg0) (V c main_v29) (V c main_v31) (V c main_v34) :=
  (dat0 (F := Ideal) V c).arrAt_eq_of_cover 5 (Cert.Spec.comb true (V c main_v27) (V c main_arg0) (V c main_v29) (V c main_v31) (V c main_v34)) (fun t _ => flushed0_eq V c t) cover0

/-! ## Stage 1 -/

/-- The second stage's arithmetic at an entry: the two products summed, the bias row added, the clip at zero. -/
theorem pay1_apply (x0 x1 : Vec Ideal S5000x128 .f32) (x2 x3 : Vec Ideal S128x128 .f32) (x4 : Vec Ideal S1x128 .f32)
    (r : Fin 5000) (q : Fin 128) :
    k1_pay1 x0 x1 x2 x3 x4 (ix2 r q)
      = max ((∑ k : Fin 128, x0 (ix2 r k) * x2 (ix2 k q) + ∑ k : Fin 128, x1 (ix2 r k) * x3 (ix2 k q)) + x4 (ix2 0 q)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ ?_
  · refine (addf_apply _ _ _).trans ?_
    refine congrArg₂ (· + ·) ?_ ?_
    · exact Cert.LibDense.matmul_zero_apply dot_S5000x128_S128x128_S5000x128_1_0_0_1_n_n none rfl rfl rfl rfl rfl rfl
        (truncf .bf16 x0 bitsLt_bf16_f32) (truncf .bf16 x2 bitsLt_bf16_f32) r q
    · exact Cert.LibDense.matmul_zero_apply dot_S5000x128_S128x128_S5000x128_1_0_0_1_n_n none rfl rfl rfl rfl rfl rfl
        (truncf .bf16 x1 bitsLt_bf16_f32) (truncf .bf16 x3 bitsLt_bf16_f32) r q
  · refine broadcastTo_apply x4 broadcasts_S1x128_S5000x128 (ix2 r q) (ix2 0 q) fun a => ?_
    match a with
    | ⟨0, _⟩ => rfl
    | ⟨1, _⟩ => rfl

/-- The printed index maps, decided over the ten row blocks: the two feature windows and the result window sit at
    row block t, column block 0; the weights and the bias at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- There are ten row blocks. -/
theorem lt1 (t : Fin cfg1.N) : t.val < 10 := lt_of_lt_of_eq t.isLt N_1

/-- The aggregate's block at row block t is rows 5000 t … 5000 t + 4999 of its array. -/
theorem iblk1_0_apply (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_v47 : S50000x128.Idx → EReal) k := by
  obtain ⟨e00, e01, e10, e11, -⟩ := idx_facts1 t
  unfold iblk1
  rw [View.read_apply]
  show V c main_v47 _ = V c main_v47 _
  congr 1
  funext a
  apply Fin.ext
  match a with
  | ⟨0, _⟩ => show win1_0.index t 0 * 5000 + 1 * (x 0).val = (k 0).val; rw [e00, hk0]; omega
  | ⟨1, _⟩ => show win1_0.index t 1 * 128 + 1 * (x 1).val = (k 1).val; rw [e01, hk1]; omega

/-- The features' block at row block t is rows 5000 t … 5000 t + 4999 of its array. -/
theorem iblk1_1_apply (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v35 : S50000x128.Idx → EReal) k := by
  obtain ⟨e00, e01, e10, e11, -⟩ := idx_facts1 t
  unfold iblk1
  rw [View.read_apply]
  show V c main_v35 _ = V c main_v35 _
  congr 1
  funext a
  apply Fin.ext
  match a with
  | ⟨0, _⟩ => show win1_1.index t 0 * 5000 + 1 * (x 0).val = (k 0).val; rw [e10, hk0]; omega
  | ⟨1, _⟩ => show win1_1.index t 1 * 128 + 1 * (x 1).val = (k 1).val; rw [e11, hk1]; omega

/-- The first weight matrix's block is its whole array at every row block. -/
theorem iblk1_2_apply (c : Dev nD) (t : Fin cfg1.N) (x : S128x128.Idx) :
    (iblk1 V c 2 t : Vec Ideal S128x128 .f32) x = (V c main_v49 : S128x128.Idx → EReal) x := by
  obtain ⟨-, -, -, -, e0, e1, -⟩ := idx_facts1 t
  unfold iblk1
  rw [View.read_apply]
  show V c main_v49 _ = V c main_v49 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The second weight matrix's block is its whole array at every row block. -/
theorem iblk1_3_apply (c : Dev nD) (t : Fin cfg1.N) (x : S128x128.Idx) :
    (iblk1 V c 3 t : Vec Ideal S128x128 .f32) x = (V c main_v51 : S128x128.Idx → EReal) x := by
  obtain ⟨-, -, -, -, -, -, e0, e1, -⟩ := idx_facts1 t
  unfold iblk1
  rw [View.read_apply]
  show V c main_v51 _ = V c main_v51 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias row's block is its whole array at every row block. -/
theorem iblk1_4_apply (c : Dev nD) (t : Fin cfg1.N) (x : S1x128.Idx) :
    (iblk1 V c 4 t : Vec Ideal S1x128 .f32) x = (V c main_v54 : S1x128.Idx → EReal) x := by
  obtain ⟨-, -, -, -, -, -, -, -, e0, e1, -⟩ := idx_facts1 t
  unfold iblk1
  rw [View.read_apply]
  show V c main_v54 _ = V c main_v54 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The result window's block at row block t sends (p, q) to row 5000 t + p, column q of the result array. -/
theorem emb1_5 (t : Fin cfg1.N) (p : Fin 5000) (q : Fin 128) (hP : 5000 * t.val + p.val < 50000) :
    ((cfg1.win 5).blk t).view.emb (ix2 p q) = (ix2 ⟨5000 * t.val + p.val, hP⟩ q : S50000x128.Idx) := by
  obtain ⟨-, -, -, -, -, -, -, -, -, -, e0, e1⟩ := idx_facts1 t
  funext a
  apply Fin.ext
  match a with
  | ⟨0, _⟩ => show win1_5.index t 0 * 5000 + 1 * p.val = 5000 * t.val + p.val; rw [e0]; omega
  | ⟨1, _⟩ => show win1_5.index t 1 * 128 + 1 * q.val = q.val; rw [e1]; omega

/-- What row block t writes back is block t of the layer's update of the arrays as the stage finds them. -/
theorem flushed1_eq (c : Dev nD) (t : Fin cfg1.N) :
    (cfg1.win 5).cut (grid1.coords t) ((dat1 (F := Ideal) V c).after 5 t)
      = ((cfg1.win 5).blk t).view.read (Elt Ideal) (Cert.Spec.comb true (V c main_v47) (V c main_v35) (V c main_v49) (V c main_v51) (V c main_v54)) := by
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := lt1 t
  have hP : 5000 * t.val + p.val < 50000 := by have := p.isLt; omega
  show k1_pay1 (iblk1 V c 0 t) (iblk1 V c 1 t) (iblk1 V c 2 t) (iblk1 V c 3 t) (iblk1 V c 4 t) (ix2 p q) = _
  refine (pay1_apply (iblk1 V c 0 t) (iblk1 V c 1 t) (iblk1 V c 2 t) (iblk1 V c 3 t) (iblk1 V c 4 t) p q).trans ?_
  rw [View.read_apply, emb1_5 t p q hP, Cert.Spec.comb_apply]
  refine congrArg₂ max ?_ rfl
  unfold Cert.Spec.combZ
  refine congrArg₂ (· + ·) (congrArg₂ (· + ·) (Finset.sum_congr rfl fun k _ => ?_) (Finset.sum_congr rfl fun k _ => ?_)) ?_
  · exact congrArg₂ (· * ·) (iblk1_0_apply V c t (ix2 p k) (ix2 ⟨5000 * t.val + p.val, hP⟩ k) rfl rfl) (iblk1_2_apply V c t (ix2 k q))
  · exact congrArg₂ (· * ·) (iblk1_1_apply V c t (ix2 p k) (ix2 ⟨5000 * t.val + p.val, hP⟩ k) rfl rfl) (iblk1_3_apply V c t (ix2 k q))
  · exact iblk1_4_apply V c t (ix2 0 q)

/-- An index of the result array is in row block t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v55).slice (win1_5.rect t)).set ↔ _
  rw [View.set_slice_whole, Rect.mem_set_unit]
  exact Iff.rfl

/-- Row r of the result array lies in row block r / 5000, which is written back. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := lt_of_lt_of_eq (by omega : (i 0).val / 5000 < 10) N_1.symm
  refine ⟨⟨(i 0).val / 5000, hN⟩, flush1_5 _, ?_⟩
  obtain ⟨-, -, -, -, -, -, -, -, -, -, e0, e1⟩ := idx_facts1 ⟨(i 0).val / 5000, hN⟩
  rw [mem_blk1]
  intro a
  match a with
  | ⟨0, _⟩ => show win1_5.index ⟨(i 0).val / 5000, hN⟩ (0 : Fin 2) * 5000 ≤ (i 0).val ∧ (i 0).val < win1_5.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win1_5.index ⟨(i 0).val / 5000, hN⟩ (1 : Fin 2) * 128 ≤ (i 1).val ∧ (i 1).val < win1_5.index ⟨(i 0).val / 5000, hN⟩ (1 : Fin 2) * 128 + 128; rw [e1]; omega

/-- The result array after the stage: the layer's update of the arrays as the stage finds them. -/
theorem final1 (c : Dev nD) : (dat1 (F := Ideal) V c).arrAt 5 cfg1.N = Cert.Spec.comb true (V c main_v47) (V c main_v35) (V c main_v49) (V c main_v51) (V c main_v54) :=
  (dat1 (F := Ideal) V c).arrAt_eq_of_cover 5 (Cert.Spec.comb true (V c main_v47) (V c main_v35) (V c main_v49) (V c main_v51) (V c main_v54)) (fun t _ => flushed1_eq V c t) cover1

/-! ## Stage 2 -/

/-- The third stage's arithmetic at an entry: the two products summed and the bias row added; no clip. -/
theorem pay2_apply (x0 x1 : Vec Ideal S5000x128 .f32) (x2 x3 : Vec Ideal S128x128 .f32) (x4 : Vec Ideal S1x128 .f32)
    (r : Fin 5000) (q : Fin 128) :
    k2_pay1 x0 x1 x2 x3 x4 (ix2 r q)
      = (∑ k : Fin 128, x0 (ix2 r k) * x2 (ix2 k q) + ∑ k : Fin 128, x1 (ix2 r k) * x3 (ix2 k q)) + x4 (ix2 0 q) := by
  unfold k2_pay1
  simp only [shapeCast_self]
  refine (addf_apply _ _ _).trans ?_
  refine congrArg₂ (· + ·) ?_ ?_
  · refine (addf_apply _ _ _).trans ?_
    refine congrArg₂ (· + ·) ?_ ?_
    · exact Cert.LibDense.matmul_zero_apply dot_S5000x128_S128x128_S5000x128_1_0_0_1_n_n none rfl rfl rfl rfl rfl rfl
        (truncf .bf16 x0 bitsLt_bf16_f32) (truncf .bf16 x2 bitsLt_bf16_f32) r q
    · exact Cert.LibDense.matmul_zero_apply dot_S5000x128_S128x128_S5000x128_1_0_0_1_n_n none rfl rfl rfl rfl rfl rfl
        (truncf .bf16 x1 bitsLt_bf16_f32) (truncf .bf16 x3 bitsLt_bf16_f32) r q
  · refine broadcastTo_apply x4 broadcasts_S1x128_S5000x128 (ix2 r q) (ix2 0 q) fun a => ?_
    match a with
    | ⟨0, _⟩ => rfl
    | ⟨1, _⟩ => rfl

/-- The printed index maps, decided over the ten row blocks: the two feature windows and the result window sit at
    row block t, column block 0; the weights and the bias at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- There are ten row blocks. -/
theorem lt2 (t : Fin cfg2.N) : t.val < 10 := lt_of_lt_of_eq t.isLt N_2

/-- The aggregate's block at row block t is rows 5000 t … 5000 t + 4999 of its array. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : Vec Ideal S5000x128 .f32) x = (V c main_v67 : S50000x128.Idx → EReal) k := by
  obtain ⟨e00, e01, e10, e11, -⟩ := idx_facts2 t
  unfold iblk2
  rw [View.read_apply]
  show V c main_v67 _ = V c main_v67 _
  congr 1
  funext a
  apply Fin.ext
  match a with
  | ⟨0, _⟩ => show win2_0.index t 0 * 5000 + 1 * (x 0).val = (k 0).val; rw [e00, hk0]; omega
  | ⟨1, _⟩ => show win2_0.index t 1 * 128 + 1 * (x 1).val = (k 1).val; rw [e01, hk1]; omega

/-- The features' block at row block t is rows 5000 t … 5000 t + 4999 of its array. -/
theorem iblk2_1_apply (c : Dev nD) (t : Fin cfg2.N) (x : S5000x128.Idx) (k : S50000x128.Idx)
    (hk0 : (k 0).val = 5000 * t.val + (x 0).val) (hk1 : (k 1).val = (x 1).val) :
    (iblk2 V c 1 t : Vec Ideal S5000x128 .f32) x = (V c main_v55 : S50000x128.Idx → EReal) k := by
  obtain ⟨e00, e01, e10, e11, -⟩ := idx_facts2 t
  unfold iblk2
  rw [View.read_apply]
  show V c main_v55 _ = V c main_v55 _
  congr 1
  funext a
  apply Fin.ext
  match a with
  | ⟨0, _⟩ => show win2_1.index t 0 * 5000 + 1 * (x 0).val = (k 0).val; rw [e10, hk0]; omega
  | ⟨1, _⟩ => show win2_1.index t 1 * 128 + 1 * (x 1).val = (k 1).val; rw [e11, hk1]; omega

/-- The first weight matrix's block is its whole array at every row block. -/
theorem iblk2_2_apply (c : Dev nD) (t : Fin cfg2.N) (x : S128x128.Idx) :
    (iblk2 V c 2 t : Vec Ideal S128x128 .f32) x = (V c main_v69 : S128x128.Idx → EReal) x := by
  obtain ⟨-, -, -, -, e0, e1, -⟩ := idx_facts2 t
  unfold iblk2
  rw [View.read_apply]
  show V c main_v69 _ = V c main_v69 _
  congr 1
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The second weight matrix's block is its whole array at every row block. -/
theorem iblk2_3_apply (c : Dev nD) (t : Fin cfg2.N) (x : S128x128.Idx) :
    (iblk2 V c 3 t : Vec Ideal S128x128 .f32) x = (V c main_v71 : S128x128.Idx → EReal) x := by
  obtain ⟨-, -, -, -, -, -, e0, e1, -⟩ := idx_facts2 t
  unfold iblk2
  rw [View.read_apply]
  show V c main_v71 _ = V c main_v71 _
  congr 1
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The bias row's block is its whole array at every row block. -/
theorem iblk2_4_apply (c : Dev nD) (t : Fin cfg2.N) (x : S1x128.Idx) :
    (iblk2 V c 4 t : Vec Ideal S1x128 .f32) x = (V c main_v74 : S1x128.Idx → EReal) x := by
  obtain ⟨-, -, -, -, -, -, -, -, e0, e1, -⟩ := idx_facts2 t
  unfold iblk2
  rw [View.read_apply]
  show V c main_v74 _ = V c main_v74 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The result window's block at row block t sends (p, q) to row 5000 t + p, column q of the result array. -/
theorem emb2_5 (t : Fin cfg2.N) (p : Fin 5000) (q : Fin 128) (hP : 5000 * t.val + p.val < 50000) :
    ((cfg2.win 5).blk t).view.emb (ix2 p q) = (ix2 ⟨5000 * t.val + p.val, hP⟩ q : S50000x128.Idx) := by
  obtain ⟨-, -, -, -, -, -, -, -, -, -, e0, e1⟩ := idx_facts2 t
  funext a
  apply Fin.ext
  match a with
  | ⟨0, _⟩ => show win2_5.index t 0 * 5000 + 1 * p.val = 5000 * t.val + p.val; rw [e0]; omega
  | ⟨1, _⟩ => show win2_5.index t 1 * 128 + 1 * q.val = q.val; rw [e1]; omega

/-- What row block t writes back is block t of the layer's update of the arrays as the stage finds them. -/
theorem flushed2_eq (c : Dev nD) (t : Fin cfg2.N) :
    (cfg2.win 5).cut (grid2.coords t) ((dat2 (F := Ideal) V c).after 5 t)
      = ((cfg2.win 5).blk t).view.read (Elt Ideal) (Cert.Spec.comb false (V c main_v67) (V c main_v55) (V c main_v69) (V c main_v71) (V c main_v74)) := by
  rw [after2_5]
  unfold out2_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht := lt2 t
  have hP : 5000 * t.val + p.val < 50000 := by have := p.isLt; omega
  show k2_pay1 (iblk2 V c 0 t) (iblk2 V c 1 t) (iblk2 V c 2 t) (iblk2 V c 3 t) (iblk2 V c 4 t) (ix2 p q) = _
  refine (pay2_apply (iblk2 V c 0 t) (iblk2 V c 1 t) (iblk2 V c 2 t) (iblk2 V c 3 t) (iblk2 V c 4 t) p q).trans ?_
  rw [View.read_apply, emb2_5 t p q hP, Cert.Spec.comb_apply]
  show _ = Cert.Spec.combZ _ _ _ _ _ _ _
  unfold Cert.Spec.combZ
  refine congrArg₂ (· + ·) (congrArg₂ (· + ·) (Finset.sum_congr rfl fun k _ => ?_) (Finset.sum_congr rfl fun k _ => ?_)) ?_
  · exact congrArg₂ (· * ·) (iblk2_0_apply V c t (ix2 p k) (ix2 ⟨5000 * t.val + p.val, hP⟩ k) rfl rfl) (iblk2_2_apply V c t (ix2 k q))
  · exact congrArg₂ (· * ·) (iblk2_1_apply V c t (ix2 p k) (ix2 ⟨5000 * t.val + p.val, hP⟩ k) rfl rfl) (iblk2_3_apply V c t (ix2 k q))
  · exact iblk2_4_apply V c t (ix2 0 q)

/-- An index of the result array is in row block t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v75).slice (win2_5.rect t)).set ↔ _
  rw [View.set_slice_whole, Rect.mem_set_unit]
  exact Iff.rfl

/-- Row r of the result array lies in row block r / 5000, which is written back. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := lt_of_lt_of_eq (by omega : (i 0).val / 5000 < 10) N_2.symm
  refine ⟨⟨(i 0).val / 5000, hN⟩, flush2_5 _, ?_⟩
  obtain ⟨-, -, -, -, -, -, -, -, -, -, e0, e1⟩ := idx_facts2 ⟨(i 0).val / 5000, hN⟩
  rw [mem_blk2]
  intro a
  match a with
  | ⟨0, _⟩ => show win2_5.index ⟨(i 0).val / 5000, hN⟩ (0 : Fin 2) * 5000 ≤ (i 0).val ∧ (i 0).val < win2_5.index ⟨(i 0).val / 5000, hN⟩ (0 : Fin 2) * 5000 + 5000; rw [e0]; show (i 0).val / 5000 * 5000 ≤ (i 0).val ∧ (i 0).val < (i 0).val / 5000 * 5000 + 5000; omega
  | ⟨1, _⟩ => show win2_5.index ⟨(i 0).val / 5000, hN⟩ (1 : Fin 2) * 128 ≤ (i 1).val ∧ (i 1).val < win2_5.index ⟨(i 0).val / 5000, hN⟩ (1 : Fin 2) * 128 + 128; rw [e1]; omega

/-- The result array after the stage: the layer's update of the arrays as the stage finds them. -/
theorem final2 (c : Dev nD) : (dat2 (F := Ideal) V c).arrAt 5 cfg2.N = Cert.Spec.comb false (V c main_v67) (V c main_v55) (V c main_v69) (V c main_v71) (V c main_v74) :=
  (dat2 (F := Ideal) V c).arrAt_eq_of_cover 5 (Cert.Spec.comb false (V c main_v67) (V c main_v55) (V c main_v69) (V c main_v71) (V c main_v74)) (fun t _ => flushed2_eq V c t) cover2

end Cert.KernelIdeal.Val

end
-- ==== Proof.LibDenseT.lean ====
/-
  Three facts the pooling needs, free of any program.

  A matrix product that contracts the ROW axis of both operands, [K × M] and [K × N] into [M × N], read at an entry:
  entry (p, q) is the sum over k of left (k, p) times right (k, q) — the product of the transposed left operand with
  the right one. A sum over 50000 rows taken as ten blocks of 5000 consecutive rows. A sum of terms that vanish off a
  set as the sum over the set.
-/
import Idealize.ShloMosaic.PureOps.Ideal
import Idealize.ShloMosaic.PureOps.Ideal.Laws
import Idealize.ShloMosaic.Lib.ValueIdx
import Mathlib.Logic.Equiv.Fin.Basic
import Mathlib.Data.Fintype.BigOperators
import Mathlib.Algebra.BigOperators.Group.Finset.Basic

noncomputable section

namespace Cert.LibDenseT

open Idealize.ShloMosaic Idealize.ShloMosaic.ValueIdx

section Contraction

variable {M K N : ℕ} (d : DotDims ⟨2, ![K, M]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the contraction index. -/
theorem lhs_row (hlc : d.lhsContracting = [0]) (j : (⟨2, ![M, N]⟩ : Shape).Idx) (k : d.contr.Idx) :
    (d.lhsIdx j k 0).val = (k ⟨0, by rw [d.rank_contr, hlc]; exact Nat.one_pos⟩).val :=
  d.lhsIdx_val_of_single hlc j k

/-- The left operand's column is the result's row. -/
theorem lhs_col (hln : d.lhsNonContracting = [1]) (hlb : d.lhsBatch = [])
    (j : (⟨2, ![M, N]⟩ : Shape).Idx) (k : d.contr.Idx) : (d.lhsIdx j k 1).val = (j 0).val := by
  have hb : (1 : Fin 2) ∉ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [1]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [0]) : d.contr.rank = 1 := by rw [d.rank_contr, hlc]; rfl

theorem contr_size (hlc : d.lhsContracting = [0]) :
    d.contr.size ⟨0, by rw [contr_rank d hlc]; exact Nat.one_pos⟩ = K := by
  have h := d.size_contr 0 (by rw [hlc]; exact Nat.one_pos)
  rw [h]
  simp [hlc]

/-- The sum over the contraction index is the sum over k of left (k, p) · right (k, q). -/
theorem sum_contr (hlc : d.lhsContracting = [0]) (hrc : d.rhsContracting = [0]) (hln : d.lhsNonContracting = [1])
    (hrn : d.rhsNonContracting = [1]) (hlb : d.lhsBatch = []) (hrb : d.rhsBatch = [])
    (x : (⟨2, ![K, M]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 kk p) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 kk p := by
    funext a; apply Fin.ext
    match a with
    | ⟨0, _⟩ => exact (lhs_row d hlc _ _).trans hk
    | ⟨1, _⟩ => exact lhs_col d hln hlb _ _
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

end Contraction

/-- The vector unit's product into a zero accumulator, both operands contracted along their rows, read at (p, q). -/
theorem matmulT_zero_apply {M K N : ℕ} (d : DotDims ⟨2, ![K, M]⟩ ⟨2, ![K, N]⟩ ⟨2, ![M, N]⟩) {φ₁ φ₂ : FTy} (prec : Option ContractPrecision)
    (hlc : d.lhsContracting = [0]) (hrc : d.rhsContracting = [0]) (hln : d.lhsNonContracting = [1])
    (hrn : d.rhsNonContracting = [1]) (hlb : d.lhsBatch = []) (hrb : d.rhsBatch = [])
    (x : FVec Ideal ⟨2, ![K, M]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 kk p) * w (ix2 kk q) := by
  rw [Ideal.matmul_constant_zero_apply]
  exact sum_contr d hlc hrc hln hrn hlb hrb x w p q

/-- A block number and a row within the block, as the row number 5000 · block + row. -/
private def blockEquiv : Fin 10 × Fin 5000 ≃ Fin 50000 := finProdFinEquiv.trans (finCongr (by norm_num))

private theorem blockEquiv_val (t : Fin 10) (r : Fin 5000) : (blockEquiv (t, r)).val = 5000 * t.val + r.val := by
  simp only [blockEquiv, Equiv.trans_apply, finCongr_apply_coe, finProdFinEquiv_apply_val]
  omega

/-- Fifty thousand rows as ten blocks of five thousand. -/
theorem sum_rowblocks (f : Fin 50000 → EReal) :
    ∑ t : Fin 10, ∑ r : Fin 5000, f ⟨5000 * t.val + r.val, by have := t.isLt; have := r.isLt; omega⟩ = ∑ n : Fin 50000, f n := by
  rw [← Equiv.sum_comp blockEquiv f, Fintype.sum_prod_type]
  refine Finset.sum_congr rfl fun t _ => Finset.sum_congr rfl fun r _ => ?_
  exact congrArg f (Fin.ext (blockEquiv_val t r).symm)

/-- The first blocks only: the rows below 5000 · (m + 1). -/
theorem sum_rowblocks_upto (f : Fin 50000 → EReal) (m : ℕ) (hm : m < 10) :
    ∑ t ∈ Finset.univ.filter (fun t : Fin 10 => t.val ≤ m), ∑ r : Fin 5000, f ⟨5000 * t.val + r.val, by have := t.isLt; have := r.isLt; omega⟩
      = ∑ n ∈ Finset.univ.filter (fun n : Fin 50000 => n.val < 5000 * (m + 1)), f n := by
  have h := sum_rowblocks (fun n => if n.val < 5000 * (m + 1) then f n else 0)
  rw [Finset.sum_filter, Finset.sum_filter, ← h]
  refine Finset.sum_congr rfl fun t _ => ?_
  by_cases ht : t.val ≤ m
  · rw [if_pos ht]
    refine Finset.sum_congr rfl fun r _ => ?_
    have hr := r.isLt
    exact (if_pos (show 5000 * t.val + r.val < 5000 * (m + 1) by omega)).symm
  · rw [if_neg ht]
    refine (Finset.sum_eq_zero fun r _ => ?_).symm
    exact if_neg (show ¬ 5000 * t.val + r.val < 5000 * (m + 1) by omega)

end Cert.LibDenseT

end
-- ==== Proof.KI.ValPool.lean ====
/-
  What the pooling stage leaves in its result array, at the extended reals: entry (g, d) is the sum of feature d over
  the nodes whose graph id, read signed, is g.

  One row block's update adds to the accumulator the product of the transposed one-hot matrix of the block's graph ids
  with the block's features. The one-hot entry at (r, g) compares the id word of row r with the word of g; for g below
  128 the two words are equal exactly when the id's signed reading is g, so the entry is 1 there and 0 elsewhere, and
  since 1 · v = v and 0 · v = 0 for every extended real v (the infinite ones too), the product's entry (g, d) is the
  sum of feature d over the block's rows whose id is g. The changes of float format and the reshapes to the same shape
  are the identity here, and the accumulator starts at zero.

  By induction on the row block, the accumulator after row block n holds at (g, d) the sum over the rows of the row
  blocks 0 … n; row r of row block t is row 5000 t + r of the arrays, and the ten row blocks together are all 50000
  rows. The result's buffer is written back at the last row block only, and its one block, placed at the origin, is
  the whole 128 × 128 array: so the array ends holding the accumulator after the last row block, which is the pooling.
-/
import proofs.«415025_j5626407158206_1_alg».proof.Proof.KI.Pool
import proofs.«415025_j5626407158206_1_alg».proof.Proof.Spec
import proofs.«415025_j5626407158206_1_alg».proof.Proof.LibDenseT
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe
open Idealize.ShloMosaic.ValueIdx Idealize.ShloMosaic.StableHlo.Predicate
open Idealize.ShloMosaic.Pipeline (Dat)

/-- A 32-bit word equals the word of a number below 128 exactly when its signed reading is that number. -/
theorem word_eq_iff (w : BitVec 32) (g : Fin 128) : w = BitVec.ofNat 32 g.val ↔ w.toInt = ((g.val : ℕ) : ℤ) := by
  have hg := g.isLt
  have e := BitVec.toInt_eq_toNat_cond w
  have hw := w.isLt
  constructor
  · intro h
    have hn : w.toNat = g.val := by rw [h, BitVec.toNat_ofNat]; omega
    omega
  · intro h
    apply BitVec.eq_of_toNat_eq
    rw [BitVec.toNat_ofNat]
    omega

/-- The one-hot entry: the comparison bit of a word against the word of g, widened and converted, is 1 when the
    word's signed reading is g and 0 otherwise. -/
theorem hot_scalar (w : BitVec 32) (g : Fin 128) :
    (FloatOps.sitofp (F := Ideal) .f32 ((IntOp.cmpi .eq w (BitVec.ofNat 32 g.val)).setWidth 32) : EReal)
      = if w.toInt = ((g.val : ℕ) : ℤ) then 1 else 0 := by
  show (((((IntOp.cmpi .eq w (BitVec.ofNat 32 g.val)).setWidth 32).toInt : ℤ) : ℝ) : EReal) = _
  by_cases h : w = BitVec.ofNat 32 g.val
  · rw [if_pos ((word_eq_iff w g).mp h)]
    have hb : (w == BitVec.ofNat 32 g.val) = true := beq_iff_eq.mpr h
    have : (IntOp.cmpi .eq w (BitVec.ofNat 32 g.val)).setWidth 32 = 1#32 := by
      simp only [IntOp.cmpi, hb]; decide
    rw [this]
    simp
  · rw [if_neg (fun h' => h ((word_eq_iff w g).mpr h'))]
    have hb : (w == BitVec.ofNat 32 g.val) = false := beq_eq_false_iff_ne.mpr h
    have : (IntOp.cmpi .eq w (BitVec.ofNat 32 g.val)).setWidth 32 = 0#32 := by
      simp only [IntOp.cmpi, hb]; decide
    rw [this]
    simp

/-! ## One row block's update, entry by entry -/

/-- The one-hot matrix of a block of graph ids: row r, column g. -/
def hot (b : Vec Ideal S5000x1 .i32) : FVec Ideal S5000x128 .bf16 :=
  truncf .bf16 (sitofp .f32 (extui 32 (cmpi .eq (broadcastTo S5000x128 b broadcasts_S5000x1_S5000x128)
    (iota .tc S5000x128 32 [1] iota_S5000x128_d1_w32)) natLt_1_32)) bitsLt_bf16_f32

theorem hot_apply (b : Vec Ideal S5000x1 .i32) (r : Fin 5000) (g : Fin 128) :
    hot b (ix2 r g) = if (b (ixP r)).toInt = ((g.val : ℕ) : ℤ) then 1 else 0 := by
  unfold hot
  rw [truncf_apply, sitofp_apply, extui_apply]
  show FloatOps.sitofp (F := Ideal) .f32 ((IntOp.cmpi .eq (broadcastTo S5000x128 b broadcasts_S5000x1_S5000x128 (ix2 r g))
    (iota .tc S5000x128 32 [1] iota_S5000x128_d1_w32 (ix2 r g))).setWidth 32) = _
  rw [iota_single_apply, broadcastTo_apply b broadcasts_S5000x1_S5000x128 (ix2 r g) (ixP r) (by
    intro a
    match a with
    | ⟨0, _⟩ => rfl
    | ⟨1, _⟩ => rfl)]
  exact hot_scalar (b (ixP r)) g

/-- The update is the accumulator plus the product of the transposed one-hot matrix with the features. -/
theorem step3_eq (x : Vec Ideal S5000x128 .f32) (b : Vec Ideal S5000x1 .i32) (s : Vec Ideal S128x128 .f32) :
    step3 (F := Ideal) x b s = addf s (FloatOps.matmul dot_S5000x128_S5000x128_S128x128_0_0_1_1_n_n none (hot b)
      (truncf .bf16 x bitsLt_bf16_f32 : FVec Ideal S5000x128 .bf16) (constant S128x128 .f32 0x00000000#32)) := by
  unfold step3 k3_pay2 hot
  simp only [shapeCast_self]

/-- Entry (g, d) after one row block: what was there, plus the features d of the block's rows whose graph id is g. -/
theorem step3_apply (x : Vec Ideal S5000x128 .f32) (b : Vec Ideal S5000x1 .i32) (s : Vec Ideal S128x128 .f32) (g d : Fin 128) :
    step3 (F := Ideal) x b s (ix2 g d)
      = s (ix2 g d) + ∑ r : Fin 5000, (if (b (ixP r)).toInt = ((g.val : ℕ) : ℤ) then x (ix2 r d) else 0) := by
  rw [step3_eq, addf_apply]
  refine congrArg (s (ix2 g d) + ·) ?_
  refine (Cert.LibDenseT.matmulT_zero_apply dot_S5000x128_S5000x128_S128x128_0_0_1_1_n_n none rfl rfl rfl rfl rfl rfl
    (hot b) (truncf .bf16 x bitsLt_bf16_f32 : FVec Ideal S5000x128 .bf16) g d).trans ?_
  refine Finset.sum_congr rfl fun r _ => ?_
  rw [hot_apply, truncf_apply]
  by_cases h : (b (ixP r)).toInt = ((g.val : ℕ) : ℤ)
  · rw [if_pos h, if_pos h, one_mul]
  · rw [if_neg h, if_neg h, zero_mul]

/-! ## The arrays and their row blocks -/

variable (V : (c : Dev nD) → (b : Ref sig .tc) → Buf (Elt Ideal) ((c : Thread nD τ).loc b))

/-- The node features as the stage finds them. -/
abbrev featArr (c : Dev nD) : FVec Ideal Cert.Spec.SN .f32 := V c main_v75
/-- The graph ids as the stage finds them. -/
abbrev idArr (c : Dev nD) : IVec Cert.Spec.SC 32 := V c main_v76
/-- Row block t of the features. -/
abbrev featBlk (c : Dev nD) (t : Fin cfg3.N) : Vec Ideal S5000x128 .f32 := iblk3 V c 0 t
/-- Row block t of the graph ids. -/
abbrev idBlk (c : Dev nD) (t : Fin cfg3.N) : Vec Ideal S5000x1 .i32 := iblk3 V c 1 t

/-- Where the three windows' blocks sit: the features' and the ids' at row block t, the result's always at the origin. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem row_lt (t : Fin cfg3.N) (r : Fin 5000) : 5000 * t.val + r.val < 50000 := by
  have hN : cfg3.N = 10 := N_3
  have := t.isLt; have := r.isLt; omega

/-- Row r of row block t of the features is row 5000 t + r of the array. -/
theorem featBlk_apply (c : Dev nD) (t : Fin cfg3.N) (r : Fin 5000) (d : Fin 128) :
    featBlk V c t (ix2 r d) = featArr V c (ix2 ⟨5000 * t.val + r.val, row_lt t r⟩ d) := by
  obtain ⟨e0, e1, -, -, -, -⟩ := idx_facts3 t
  show V c main_v75 (((cfg3.win 0).blk t).view.emb (ix2 r d)) = V c main_v75 _
  refine congrArg (V c main_v75) (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * d.val = d.val; omega

/-- Row r of row block t of the graph ids is row 5000 t + r of the array. -/
theorem idBlk_apply (c : Dev nD) (t : Fin cfg3.N) (r : Fin 5000) :
    idBlk V c t (ixP r) = idArr V c (ixP ⟨5000 * t.val + r.val, row_lt t r⟩) := by
  obtain ⟨-, -, e0, e1, -, -⟩ := idx_facts3 t
  show V c main_v76 (((cfg3.win 1).blk t).view.emb (ixP r)) = V c main_v76 _
  refine congrArg (V c main_v76) (funext fun a => Fin.ext ?_)
  match a with
  | ⟨0, _⟩ => show win3_1.index t (0 : Fin 2) * 5000 + 1 * r.val = 5000 * t.val + r.val; omega
  | ⟨1, _⟩ => show win3_1.index t (1 : Fin 2) * 1 + 1 * 0 = 0; omega

/-! ## The accumulator after each row block -/

/-- What node m adds to entry (g, d): its feature d when its graph id is g, nothing otherwise. -/
def term (c : Dev nD) (g d : Fin 128) : Fin 50000 → EReal := fun m =>
  if (idArr V c (ixP m)).toInt = ((g.val : ℕ) : ℤ) then featArr V c (ix2 m d) else 0

/-- The sum of f over the rows of row block k; nothing for a k that is no row block. -/
def blockSum (f : Fin 50000 → EReal) (k : ℕ) : EReal :=
  if h : k < 10 then ∑ r : Fin 5000, f ⟨5000 * k + r.val, by have := r.isLt; omega⟩ else 0

/-- The ten row blocks together are all the rows. -/
theorem sum_blockSum (f : Fin 50000 → EReal) : ∑ k ∈ Finset.range 10, blockSum f k = ∑ n : Fin 50000, f n := by
  rw [← Fin.sum_univ_eq_sum_range (fun k => blockSum f k) 10, ← Cert.LibDenseT.sum_rowblocks f]
  refine Finset.sum_congr rfl fun t _ => ?_
  unfold blockSum
  rw [dif_pos t.isLt]

/-- The zero start. -/
theorem zero3_apply (g d : Fin 128) : k3_pay1 (F := Ideal) (ix2 g d) = 0 := by
  unfold k3_pay1
  simp only [shapeCast_self]
  exact Ideal.ofBits_zero_f32

/-- One row block's update at row block t adds that block's rows. -/
theorem step3_blk (c : Dev nD) (t : Fin cfg3.N) (s : Vec Ideal S128x128 .f32) (g d : Fin 128) :
    step3 (F := Ideal) (featBlk V c t) (idBlk V c t) s (ix2 g d) = s (ix2 g d) + blockSum (term V c g d) t.val := by
  have hN : cfg3.N = 10 := N_3
  have ht : t.val < 10 := by have := t.isLt; omega
  refine (step3_apply (featBlk V c t) (idBlk V c t) s g d).trans ?_
  refine congrArg (s (ix2 g d) + ·) ?_
  unfold blockSum
  rw [dif_pos ht]
  refine Finset.sum_congr rfl fun r _ => ?_
  unfold term
  rw [idBlk_apply V c t r, featBlk_apply V c t r d]

/-- After row block n, entry (g, d) is the sum over the rows of the row blocks 0 … n. -/
theorem accAt3_apply (c : Dev nD) (g d : Fin 128) : ∀ (n : ℕ) (hn : n < cfg3.N),
    accAt3 (F := Ideal) V c n hn (ix2 g d) = ∑ k ∈ Finset.range (n + 1), blockSum (term V c g d) k
  | 0, hn => by
    rw [accAt3_zero]
    refine (step3_blk V c ⟨0, hn⟩ (k3_pay1 (F := Ideal)) g d).trans ?_
    rw [zero3_apply, zero_add, Finset.sum_range_one]
  | n + 1, hn => by
    rw [accAt3_succ]
    refine (step3_blk V c ⟨n + 1, hn⟩ (accAt3 (F := Ideal) V c n (Nat.lt_of_succ_lt hn)) g d).trans ?_
    rw [accAt3_apply c g d n (Nat.lt_of_succ_lt hn), Finset.sum_range_succ _ (n + 1)]

/-- After the last row block the accumulator is the pooled array. -/
theorem acc_last (c : Dev nD) (t : Fin cfg3.N) (h9 : t.val = 9) :
    accAt3 (F := Ideal) V c t.val t.isLt = Cert.Spec.pool (V c main_v75) (V c main_v76) := by
  funext j
  obtain ⟨g, d, rfl⟩ : ∃ (g : Fin 128) (d : Fin 128), j = ix2 g d := ⟨j 0, j 1, eq_ix2 j⟩
  rw [accAt3_apply V c g d t.val t.isLt, h9, sum_blockSum, Cert.Spec.pool_apply, Finset.sum_filter]
  rfl

/-! ## The result array -/

/-- The one write-back, at the last row block, writes the pooled array: the result's one block, read from the origin,
    is the whole array. -/
theorem flushed3_eq (c : Dev nD) (t : Fin cfg3.N) (hf : (cfg3.win 2).flush t = true) :
    (dat3 (F := Ideal) V c).flushed 2 t
      = ((cfg3.win 2).blk t).view.read (Elt Ideal) (Cert.Spec.pool (V c main_v75) (V c main_v76)) := by
  have hN : cfg3.N = 10 := N_3
  have h9 : t.val = 9 := by have := (flush3_2 t).mp hf; have := t.isLt; omega
  show (cfg3.win 2).cut (grid3.coords t) ((dat3 (F := Ideal) V c).after 2 t) = _
  rw [after3_2, acc_last V c t h9]
  obtain rfl : t = t3_9 := Fin.ext h9
  have hz' : (fun a => win3_2.index t3_9 a * main_v77.ty.shape.size a) = fun _ => 0 := funext fun a => by fin_cases a <;> decide
  exact (Memref.read_access_unit_zero (Elt Ideal) main_v77 hz' (fun a => by rw [congrFun hz' a]; simp)
    (Cert.Spec.pool (V c main_v75) (V c main_v76))).symm

/-- What the pooling stage leaves in its result array. -/
theorem final3 (c : Dev nD) : (dat3 (F := Ideal) V c).arrAt 2 cfg3.N = Cert.Spec.pool (V c main_v75) (V c main_v76) :=
  (dat3 (F := Ideal) V c).arrAt_eq_of_cover 2 (Cert.Spec.pool (V c main_v75) (V c main_v76)) (flushed3_eq V c) fun i =>
    ⟨t3_9, (flush3_2 t3_9).mpr rfl, by
      show i ∈ ((View.whole main_v77).slice (win3_2.rect t3_9)).set
      rw [View.set_slice_whole, Rect.mem_set_unit]
      intro a
      have h0 : (i 0 : Nat) < 128 := (i 0).isLt
      have h1 : (i 1 : Nat) < 128 := (i 1).isLt
      match a with
      | ⟨0, _⟩ => show win3_2.index t3_9 0 * win3_2.size 0 ≤ (i 0 : Nat) ∧ (i 0 : Nat) < win3_2.index t3_9 0 * win3_2.size 0 + win3_2.xsize (grid3.coords t3_9) 0
                  rw [show win3_2.index t3_9 0 * win3_2.size 0 = 0 from by decide +kernel, show win3_2.xsize (grid3.coords t3_9) 0 = 128 from by decide +kernel]; omega
      | ⟨1, _⟩ => show win3_2.index t3_9 1 * win3_2.size 1 ≤ (i 1 : Nat) ∧ (i 1 : Nat) < win3_2.index t3_9 1 * win3_2.size 1 + win3_2.xsize (grid3.coords t3_9) 1
                  rw [show win3_2.index t3_9 1 * win3_2.size 1 = 0 from by decide +kernel, show win3_2.xsize (grid3.coords t3_9) 1 = 128 from by decide +kernel]; omega⟩

end Cert.KernelIdeal.Val

end
-- ==== Proof.KI.ValHost.lean ====
/-
  The idealized kernel program's result array is the specification's network of the launch contents.

  Between its four kernel stages the program runs stretches of host operations. Before each of the three node-update
  stages a stretch computes the aggregate of the features entering the layer — gather the rows of the edges' source nodes
  (a negative index wrapped by adding 50000), add them up on the rows of the edges' destination nodes, scale every row by
  the inverse in-degree (zero where no edge arrives) — and cuts the layer's two weight matrices and its bias row out of
  the stacked arguments; before the pooling stage the graph ids are made a column. The source column, the destination
  column and the inverse-degree column are computed once, from the edge array alone, and no later item writes them, so
  every layer's aggregate is ONE map of the features entering it. Each stage changes its result array alone. Reading the
  chain from the result array back to the launch, with each stage's result taken as the layer (or the pooling) of the
  stage's input arrays, gives three layers over that one aggregation map, then the pooling: the network.
-/
import proofs.«415025_j5626407158206_1_alg».proof.Proof.KI.Run
import proofs.«415025_j5626407158206_1_alg».proof.Proof.Spec

set_option maxRecDepth 16384

noncomputable section

namespace Cert.KernelIdeal.Val

open Cert.KernelIdeal Cert.KernelIdeal.Gen Cert.KernelIdeal.Hand Idealize.ShloMosaic Idealize.ShloMosaic.TcCoe

variable {F : FTy → Type} [FloatOps F]

/-! ## The pieces of the host chain, as functions of the argument contents -/

/-- The source node of every edge: row 0 of the edge array. -/
def srcK (e : IVec S2x1600000 32) : IVec S1600000 32 :=
  shapeCast _ (extractStridedSlice S1x1600000 ![0, 0] e slices_S2x1600000_S1x1600000_0_0) shapeCasts_S1x1600000_S1600000

/-- The destination node of every edge: row 1 of the edge array. -/
def dstK (e : IVec S2x1600000 32) : IVec S1600000 32 :=
  shapeCast _ (extractStridedSlice S1x1600000 ![1, 0] e slices_S2x1600000_S1x1600000_1_0) shapeCasts_S1x1600000_S1600000

/-- The inverse in-degree of every node (zero where no edge arrives), as a column. -/
def invK (e : IVec S2x1600000 32) : FVec F S50000x1 .f32 :=
  broadcastInDim S50000x1 ![0] bcast_S50000_S50000x1_0
    (select
      (cmpf .ogt
        (Host.scatterAdd scatter_S50000_S1600000x1_S1600000_n_0_0_1
          (broadcastInDim S50000 ![] bcast_S_S50000 (constant (F := F) S_ .f32 0x00000000#32))
          (broadcastInDim S1600000x1 ![0] bcast_S1600000_S1600000x1_0 (dstK e))
          (broadcastInDim S1600000 ![] bcast_S_S1600000 (constant (F := F) S_ .f32 0x3F800000#32)))
        (broadcastInDim S50000 ![] bcast_S_S50000 (constant (F := F) S_ .f32 0x00000000#32)))
      (Host.divf
        (broadcastInDim S50000 ![] bcast_S_S50000 (constant (F := F) S_ .f32 0x3F800000#32))
        (maximumf
          (Host.scatterAdd scatter_S50000_S1600000x1_S1600000_n_0_0_1
            (broadcastInDim S50000 ![] bcast_S_S50000 (constant (F := F) S_ .f32 0x00000000#32))
            (broadcastInDim S1600000x1 ![0] bcast_S1600000_S1600000x1_0 (dstK e))
            (broadcastInDim S1600000 ![] bcast_S_S1600000 (constant (F := F) S_ .f32 0x3F800000#32)))
          (broadcastInDim S50000 ![] bcast_S_S50000 (constant (F := F) S_ .f32 0x3F800000#32))))
      (broadcastInDim S50000 ![] bcast_S_S50000 (id (constant (F := F) S_ .f32 0x00000000#32))))

/-- The aggregation map: gather the source rows, add them up on the destination rows, scale each row by the inverse
    in-degree. -/
def aggK (e : IVec S2x1600000 32) : FVec F S50000x128 .f32 → FVec F S50000x128 .f32 := fun x =>
  mulf (Host.scatterAdd scatter_S50000x128_S1600000x1_S1600000x128_1_0_0_1 (broadcastInDim S50000x128 ![] bcast_S_S50000x128 (constant (F := F) S_ .f32 0x00000000#32)) (broadcastInDim S1600000x1 ![0] bcast_S1600000_S1600000x1_0 (dstK e)) (Host.gather gather_S50000x128_S1600000x1_S1600000x128_1_0_n_n_0_1_1128 x (broadcastInDim S1600000x1 ![0] bcast_S1600000_S1600000x1_0 (select (cmpi .slt (srcK e) (broadcastInDim S1600000 ![] bcast_S_S1600000 (constantI S_ 32 0#32))) (addi (srcK e) (broadcastInDim S1600000 ![] bcast_S_S1600000 (constantI S_ 32 50000#32))) (srcK e))))) (broadcastInDim S50000x128 ![0, 1] bcast_S50000x1_S50000x128_0_1 (invK (F := F) e))

/-- The three left weight matrices, by layer. -/
def wlK (a3 : FVec F S3x128x128 .f32) : Fin 3 → FVec F S128x128 .f32 := fun
  | 0 => shapeCast _ (extractStridedSlice S1x128x128 ![0, 0, 0] a3 slices_S3x128x128_S1x128x128_0_0_0) shapeCasts_S1x128x128_S128x128
  | 1 => shapeCast _ (extractStridedSlice S1x128x128 ![1, 0, 0] a3 slices_S3x128x128_S1x128x128_1_0_0) shapeCasts_S1x128x128_S128x128
  | 2 => shapeCast _ (extractStridedSlice S1x128x128 ![2, 0, 0] a3 slices_S3x128x128_S1x128x128_2_0_0) shapeCasts_S1x128x128_S128x128

/-- The three right weight matrices, by layer. -/
def wrK (a4 : FVec F S3x128x128 .f32) : Fin 3 → FVec F S128x128 .f32 := fun
  | 0 => shapeCast _ (extractStridedSlice S1x128x128 ![0, 0, 0] a4 slices_S3x128x128_S1x128x128_0_0_0) shapeCasts_S1x128x128_S128x128
  | 1 => shapeCast _ (extractStridedSlice S1x128x128 ![1, 0, 0] a4 slices_S3x128x128_S1x128x128_1_0_0) shapeCasts_S1x128x128_S128x128
  | 2 => shapeCast _ (extractStridedSlice S1x128x128 ![2, 0, 0] a4 slices_S3x128x128_S1x128x128_2_0_0) shapeCasts_S1x128x128_S128x128

/-- The three bias rows, by layer. -/
def bK (a5 : FVec F S3x128 .f32) : Fin 3 → FVec F S1x128 .f32 := fun
  | 0 => shapeCast _ (shapeCast _ (extractStridedSlice S1x128 ![0, 0] a5 slices_S3x128_S1x128_0_0) shapeCasts_S1x128_S128) shapeCasts_S128_S1x128
  | 1 => shapeCast _ (shapeCast _ (extractStridedSlice S1x128 ![1, 0] a5 slices_S3x128_S1x128_1_0) shapeCasts_S1x128_S128) shapeCasts_S128_S1x128
  | 2 => shapeCast _ (shapeCast _ (extractStridedSlice S1x128 ![2, 0] a5 slices_S3x128_S1x128_2_0) shapeCasts_S1x128_S128) shapeCasts_S128_S1x128

/-- The graph ids as a column. -/
def batK (a2 : IVec S50000 32) : IVec S50000x1 32 :=
  shapeCast _ a2 shapeCasts_S50000_S50000x1

/-! ## What each stretch of host operations computes, from any contents it is entered with -/

/-- The aggregation map over any source column, destination column and inverse-degree column. -/
def aggT (s d : IVec S1600000 32) (iv : FVec F S50000x1 .f32) (x : FVec F S50000x128 .f32) : FVec F S50000x128 .f32 :=
  mulf (Host.scatterAdd scatter_S50000x128_S1600000x1_S1600000x128_1_0_0_1 (broadcastInDim S50000x128 ![] bcast_S_S50000x128 (constant (F := F) S_ .f32 0x00000000#32)) (broadcastInDim S1600000x1 ![0] bcast_S1600000_S1600000x1_0 d) (Host.gather gather_S50000x128_S1600000x1_S1600000x128_1_0_n_n_0_1_1128 x (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 50000#32))) s)))) (broadcastInDim S50000x128 ![0, 1] bcast_S50000x1_S50000x128_0_1 iv)

/-- The aggregation map of the program is that map at the program's own three columns. -/
theorem aggK_eq (e : IVec S2x1600000 32) (x : FVec F S50000x128 .f32) :
    aggK (F := F) e x = aggT (srcK e) (dstK e) (invK (F := F) e) x := rfl

/-- The in-degree of every node: ones added up on the destination nodes. -/
def degK (e : IVec S2x1600000 32) : FVec F S50000 .f32 :=
  Host.scatterAdd scatter_S50000_S1600000x1_S1600000_n_0_0_1
    (broadcastInDim S50000 ![] bcast_S_S50000 (constant (F := F) S_ .f32 0x00000000#32))
    (broadcastInDim S1600000x1 ![0] bcast_S1600000_S1600000x1_0 (dstK e))
    (broadcastInDim S1600000 ![] bcast_S_S1600000 (constant (F := F) S_ .f32 0x3F800000#32))

/-- The inverse in-degree before it is made a column. -/
def invRow (e : IVec S2x1600000 32) : FVec F S50000 .f32 :=
  select
    (cmpf .ogt (degK (F := F) e) (broadcastInDim S50000 ![] bcast_S_S50000 (constant (F := F) S_ .f32 0x00000000#32)))
    (Host.divf (broadcastInDim S50000 ![] bcast_S_S50000 (constant (F := F) S_ .f32 0x3F800000#32))
      (maximumf (degK (F := F) e) (broadcastInDim S50000 ![] bcast_S_S50000 (constant (F := F) S_ .f32 0x3F800000#32))))
    (broadcastInDim S50000 ![] bcast_S_S50000 (id (constant (F := F) S_ .f32 0x00000000#32)))

theorem invK_eq (e : IVec S2x1600000 32) :
    invK (F := F) e = broadcastInDim S50000x1 ![0] bcast_S50000_S50000x1_0 (invRow (F := F) e) := rfl

section Stretches

variable (W : Valuation τ sig (Elt F))

theorem ops0_v1 : (StableHlo.after hostOps0 W main_v1 : IVec S1600000 32) = srcK (W main_arg1) := by
  after_results; rfl

theorem ops0_v3 : (StableHlo.after hostOps0 W main_v3 : IVec S1600000 32) = dstK (W main_arg1) := by
  after_results; rfl

theorem ops0_v9 : (StableHlo.after hostOps0 W main_v9 : IVec S50000 1)
    = cmpf .ogt (degK (F := F) (W main_arg1)) (broadcastInDim S50000 ![] bcast_S_S50000 (constant (F := F) S_ .f32 0x00000000#32)) := by
  after_results; rfl

theorem ops0_v13 : (StableHlo.after hostOps0 W main_v13 : FVec F S50000 .f32)
    = Host.divf (broadcastInDim S50000 ![] bcast_S_S50000 (constant (F := F) S_ .f32 0x3F800000#32))
        (maximumf (degK (F := F) (W main_arg1)) (broadcastInDim S50000 ![] bcast_S_S50000 (constant (F := F) S_ .f32 0x3F800000#32))) := by
  after_results; rfl

theorem ops0_cst_4 : (StableHlo.after hostOps0 W main_cst_4 : FVec F S_ .f32) = constant (F := F) S_ .f32 0x00000000#32 := by
  after_results

theorem ops01_v14 : (StableHlo.after hostOps0_1 W main_v14 : FVec F S50000 .f32)
    = select (W main_v9 : IVec S50000 1) (W main_v13 : FVec F S50000 .f32)
        (broadcastInDim S50000 ![] bcast_S_S50000 (id (W main_cst_4 : FVec F S_ .f32))) := by
  after_results; rfl

theorem ops02_v15 : (StableHlo.after hostOps0_2 W main_v15 : FVec F S50000x1 .f32)
    = broadcastInDim S50000x1 ![0] bcast_S50000_S50000x1_0 (W main_v14 : FVec F S50000 .f32) := by
  after_results

theorem ops02_v27 : (StableHlo.after hostOps0_2 W main_v27 : FVec F S50000x128 .f32)
    = aggT (W main_v1) (W main_v3) (broadcastInDim S50000x1 ![0] bcast_S50000_S50000x1_0 (W main_v14 : FVec F S50000 .f32)) (W main_arg0) := by
  after_results_simp; rfl

theorem ops02_v29 : (StableHlo.after hostOps0_2 W main_v29 : FVec F S128x128 .f32) = wlK (W main_arg3) 0 := by
  after_results; rfl
theorem ops02_v31 : (StableHlo.after hostOps0_2 W main_v31 : FVec F S128x128 .f32) = wrK (W main_arg4) 0 := by
  after_results; rfl
theorem ops02_v34 : (StableHlo.after hostOps0_2 W main_v34 : FVec F S1x128 .f32) = bK (W main_arg5) 0 := by
  after_results; rfl

theorem ops1_v47 : (StableHlo.after hostOps1 W main_v47 : FVec F S50000x128 .f32)
    = aggT (W main_v1) (W main_v3) (W main_v15) (W main_v35) := by
  after_results_simp; rfl
theorem ops1_v49 : (StableHlo.after hostOps1 W main_v49 : FVec F S128x128 .f32) = wlK (W main_arg3) 1 := by
  after_results; rfl
theorem ops1_v51 : (StableHlo.after hostOps1 W main_v51 : FVec F S128x128 .f32) = wrK (W main_arg4) 1 := by
  after_results; rfl
theorem ops1_v54 : (StableHlo.after hostOps1 W main_v54 : FVec F S1x128 .f32) = bK (W main_arg5) 1 := by
  after_results; rfl

theorem ops2_v67 : (StableHlo.after hostOps2 W main_v67 : FVec F S50000x128 .f32)
    = aggT (W main_v1) (W main_v3) (W main_v15) (W main_v55) := by
  after_results_simp; rfl
theorem ops2_v69 : (StableHlo.after hostOps2 W main_v69 : FVec F S128x128 .f32) = wlK (W main_arg3) 2 := by
  after_results; rfl
theorem ops2_v71 : (StableHlo.after hostOps2 W main_v71 : FVec F S128x128 .f32) = wrK (W main_arg4) 2 := by
  after_results; rfl
theorem ops2_v74 : (StableHlo.after hostOps2 W main_v74 : FVec F S1x128 .f32) = bK (W main_arg5) 2 := by
  after_results; rfl

theorem ops3_v76 : (StableHlo.after hostOps3 W main_v76 : IVec S50000x1 32) = batK (W main_arg2) := by
  after_results; rfl

end Stretches

/-! ## The buffers' contents along the program, in terms of the launch contents -/

section Chain

variable (m : (ℓ : Loc nD τ sig) → Buf (Elt F) ℓ) (c : Dev nD)

/-- A reference no host operation before the first stage writes holds its launch contents there. -/
theorem V3_arg (r : Ref sig .tc) (h0 : r ∉ hostOps0_W) (h1 : r ∉ hostOps0_1_W) (h2 : r ∉ hostOps0_2_W) :
    V3 m c r = m ((c.tc : Thread nD τ).loc r) :=
  (V3_of m c r h2).trans <| (V2_of m c r h1).trans <| (V1_of m c r h0).trans rfl

/-- A reference the second and third stretches do not write holds there what the first stretch left. -/
theorem V3_keep (r : Ref sig .tc) (h1 : r ∉ hostOps0_1_W) (h2 : r ∉ hostOps0_2_W) : V3 m c r = V1 m c r :=
  (V3_of m c r h2).trans (V2_of m c r h1)

theorem V1_v1 : (V1 m c main_v1 : IVec S1600000 32) = srcK (m ((c.tc : Thread nD τ).loc main_arg1)) := ops0_v1 (V0 m c)
theorem V1_v3 : (V1 m c main_v3 : IVec S1600000 32) = dstK (m ((c.tc : Thread nD τ).loc main_arg1)) := ops0_v3 (V0 m c)

theorem V2_v14 : (V2 m c main_v14 : FVec F S50000 .f32) = invRow (F := F) (m ((c.tc : Thread nD τ).loc main_arg1)) := by
  refine (ops01_v14 (V1 m c)).trans ?_
  rw [show (V1 m c main_v9 : IVec S50000 1) = _ from ops0_v9 (V0 m c),
    show (V1 m c main_v13 : FVec F S50000 .f32) = _ from ops0_v13 (V0 m c),
    show (V1 m c main_cst_4 : FVec F S_ .f32) = _ from ops0_cst_4 (V0 m c)]
  rfl

theorem V3_v1 : (V3 m c main_v1 : IVec S1600000 32) = srcK (m ((c.tc : Thread nD τ).loc main_arg1)) :=
  (V3_keep m c main_v1 (by decide) (by decide)).trans (V1_v1 m c)
theorem V3_v3 : (V3 m c main_v3 : IVec S1600000 32) = dstK (m ((c.tc : Thread nD τ).loc main_arg1)) :=
  (V3_keep m c main_v3 (by decide) (by decide)).trans (V1_v3 m c)

theorem V3_v15 : (V3 m c main_v15 : FVec F S50000x1 .f32) = invK (F := F) (m ((c.tc : Thread nD τ).loc main_arg1)) := by
  refine (ops02_v15 (V2 m c)).trans ?_
  rw [V2_v14 m c, invK_eq]

theorem V3_v27 : (V3 m c main_v27 : FVec F S50000x128 .f32)
    = aggK (F := F) (m ((c.tc : Thread nD τ).loc main_arg1)) (m ((c.tc : Thread nD τ).loc main_arg0)) := by
  refine (ops02_v27 (V2 m c)).trans ?_
  rw [V2_v14 m c, ← invK_eq,
    show (V2 m c main_v1 : IVec S1600000 32) = _ from (V2_of m c main_v1 (by decide)).trans (V1_v1 m c),
    show (V2 m c main_v3 : IVec S1600000 32) = _ from (V2_of m c main_v3 (by decide)).trans (V1_v3 m c),
    show (V2 m c main_arg0 : FVec F S50000x128 .f32) = m ((c.tc : Thread nD τ).loc main_arg0) from
      (V2_of m c main_arg0 (by decide)).trans ((V1_of m c main_arg0 (by decide)).trans rfl),
    ← aggK_eq]

theorem V3_v29 : (V3 m c main_v29 : FVec F S128x128 .f32) = wlK (m ((c.tc : Thread nD τ).loc main_arg3)) 0 := by
  refine (ops02_v29 (V2 m c)).trans ?_
  rw [show (V2 m c main_arg3 : FVec F S3x128x128 .f32) = m ((c.tc : Thread nD τ).loc main_arg3) from
      (V2_of m c main_arg3 (by decide)).trans ((V1_of m c main_arg3 (by decide)).trans rfl)]
theorem V3_v31 : (V3 m c main_v31 : FVec F S128x128 .f32) = wrK (m ((c.tc : Thread nD τ).loc main_arg4)) 0 := by
  refine (ops02_v31 (V2 m c)).trans ?_
  rw [show (V2 m c main_arg4 : FVec F S3x128x128 .f32) = m ((c.tc : Thread nD τ).loc main_arg4) from
      (V2_of m c main_arg4 (by decide)).trans ((V1_of m c main_arg4 (by decide)).trans rfl)]
theorem V3_v34 : (V3 m c main_v34 : FVec F S1x128 .f32) = bK (m ((c.tc : Thread nD τ).loc main_arg5)) 0 := by
  refine (ops02_v34 (V2 m c)).trans ?_
  rw [show (V2 m c main_arg5 : FVec F S3x128 .f32) = m ((c.tc : Thread nD τ).loc main_arg5) from
      (V2_of m c main_arg5 (by decide)).trans ((V1_of m c main_arg5 (by decide)).trans rfl)]

/-! Each stage changes its result array alone; each later stretch writes its own references alone. -/

theorem U4_self : U4 m c main_v35 = (dat0 (F := F) (fun c b => V3 m c b) c).arrAt 5 cfg0.N := by
  unfold U4; exact Function.update_self ..
theorem U6_self : U6 m c main_v55 = (dat1 (F := F) (fun c b => U5 m c b) c).arrAt 5 cfg1.N := by
  unfold U6; exact Function.update_self ..
theorem U8_self : U8 m c main_v75 = (dat2 (F := F) (fun c b => U7 m c b) c).arrAt 5 cfg2.N := by
  unfold U8; exact Function.update_self ..
theorem U10_self : U10 m c main_v77 = (dat3 (F := F) (fun c b => U9 m c b) c).arrAt 2 cfg3.N := by
  unfold U10; exact Function.update_self ..

theorem U4_of (r : Ref sig .tc) (h : r ≠ main_v35) : U4 m c r = V3 m c r := by
  unfold U4; exact Function.update_of_ne (StableHlo.devRef_ne_of_ne h) _ _
theorem U5_of (r : Ref sig .tc) (h : r ∉ hostOps1_W) : U5 m c r = U4 m c r :=
  StableHlo.after_of_writes_sub hostOps1 _ hostOps1_writes h
theorem U6_of (r : Ref sig .tc) (h : r ≠ main_v55) : U6 m c r = U5 m c r := by
  unfold U6; exact Function.update_of_ne (StableHlo.devRef_ne_of_ne h) _ _
theorem U7_of (r : Ref sig .tc) (h : r ∉ hostOps2_W) : U7 m c r = U6 m c r :=
  StableHlo.after_of_writes_sub hostOps2 _ hostOps2_writes h
theorem U8_of (r : Ref sig .tc) (h : r ≠ main_v75) : U8 m c r = U7 m c r := by
  unfold U8; exact Function.update_of_ne (StableHlo.devRef_ne_of_ne h) _ _
theorem U9_of (r : Ref sig .tc) (h : r ∉ hostOps3_W) : U9 m c r = U8 m c r :=
  StableHlo.after_of_writes_sub hostOps3 _ hostOps3_writes h

/-- A reference the first stage and the stretch after it leave alone. -/
theorem U5_keep (r : Ref sig .tc) (h35 : r ≠ main_v35) (h1 : r ∉ hostOps1_W) : U5 m c r = V3 m c r :=
  (U5_of m c r h1).trans (U4_of m c r h35)
/-- A reference nothing up to the third stage's entry changes after the first stretches. -/
theorem U7_keep (r : Ref sig .tc) (h35 : r ≠ main_v35) (h1 : r ∉ hostOps1_W) (h55 : r ≠ main_v55) (h2 : r ∉ hostOps2_W) :
    U7 m c r = V3 m c r :=
  (U7_of m c r h2).trans <| (U6_of m c r h55).trans (U5_keep m c r h35 h1)

theorem U4_v1 : (U4 m c main_v1 : IVec S1600000 32) = srcK (m ((c.tc : Thread nD τ).loc main_arg1)) :=
  (U4_of m c main_v1 (by decide)).trans (V3_v1 m c)
theorem U4_v3 : (U4 m c main_v3 : IVec S1600000 32) = dstK (m ((c.tc : Thread nD τ).loc main_arg1)) :=
  (U4_of m c main_v3 (by decide)).trans (V3_v3 m c)
theorem U4_v15 : (U4 m c main_v15 : FVec F S50000x1 .f32) = invK (F := F) (m ((c.tc : Thread nD τ).loc main_arg1)) :=
  (U4_of m c main_v15 (by decide)).trans (V3_v15 m c)
theorem U4_arg (r : Ref sig .tc) (h35 : r ≠ main_v35) (h0 : r ∉ hostOps0_W) (h1 : r ∉ hostOps0_1_W) (h2 : r ∉ hostOps0_2_W) :
    U4 m c r = m ((c.tc : Thread nD τ).loc r) :=
  (U4_of m c r h35).trans (V3_arg m c r h0 h1 h2)

theorem U6_v1 : (U6 m c main_v1 : IVec S1600000 32) = srcK (m ((c.tc : Thread nD τ).loc main_arg1)) :=
  (U6_of m c main_v1 (by decide)).trans <| (U5_keep m c main_v1 (by decide) (by decide)).trans (V3_v1 m c)
theorem U6_v3 : (U6 m c main_v3 : IVec S1600000 32) = dstK (m ((c.tc : Thread nD τ).loc main_arg1)) :=
  (U6_of m c main_v3 (by decide)).trans <| (U5_keep m c main_v3 (by decide) (by decide)).trans (V3_v3 m c)
theorem U6_v15 : (U6 m c main_v15 : FVec F S50000x1 .f32) = invK (F := F) (m ((c.tc : Thread nD τ).loc main_arg1)) :=
  (U6_of m c main_v15 (by decide)).trans <| (U5_keep m c main_v15 (by decide) (by decide)).trans (V3_v15 m c)
theorem U6_arg (r : Ref sig .tc) (h35 : r ≠ main_v35) (hW1 : r ∉ hostOps1_W) (h55 : r ≠ main_v55)
    (h0 : r ∉ hostOps0_W) (h1 : r ∉ hostOps0_1_W) (h2 : r ∉ hostOps0_2_W) :
    U6 m c r = m ((c.tc : Thread nD τ).loc r) :=
  (U6_of m c r h55).trans <| (U5_keep m c r h35 hW1).trans (V3_arg m c r h0 h1 h2)

/-! The second stage's inputs. -/

theorem U5_v47 : (U5 m c main_v47 : FVec F S50000x128 .f32)
    = aggK (F := F) (m ((c.tc : Thread nD τ).loc main_arg1)) (U4 m c main_v35) := by
  refine (ops1_v47 (U4 m c)).trans ?_
  rw [U4_v1 m c, U4_v3 m c, U4_v15 m c, ← aggK_eq]
theorem U5_v35 : U5 m c main_v35 = U4 m c main_v35 := U5_of m c main_v35 (by decide)
theorem U5_v49 : (U5 m c main_v49 : FVec F S128x128 .f32) = wlK (m ((c.tc : Thread nD τ).loc main_arg3)) 1 := by
  refine (ops1_v49 (U4 m c)).trans ?_
  rw [show (U4 m c main_arg3 : FVec F S3x128x128 .f32) = m ((c.tc : Thread nD τ).loc main_arg3) from
    U4_arg m c main_arg3 (by decide) (by decide) (by decide) (by decide)]
theorem U5_v51 : (U5 m c main_v51 : FVec F S128x128 .f32) = wrK (m ((c.tc : Thread nD τ).loc main_arg4)) 1 := by
  refine (ops1_v51 (U4 m c)).trans ?_
  rw [show (U4 m c main_arg4 : FVec F S3x128x128 .f32) = m ((c.tc : Thread nD τ).loc main_arg4) from
    U4_arg m c main_arg4 (by decide) (by decide) (by decide) (by decide)]
theorem U5_v54 : (U5 m c main_v54 : FVec F S1x128 .f32) = bK (m ((c.tc : Thread nD τ).loc main_arg5)) 1 := by
  refine (ops1_v54 (U4 m c)).trans ?_
  rw [show (U4 m c main_arg5 : FVec F S3x128 .f32) = m ((c.tc : Thread nD τ).loc main_arg5) from
    U4_arg m c main_arg5 (by decide) (by decide) (by decide) (by decide)]

/-! The third stage's inputs. -/

theorem U7_v67 : (U7 m c main_v67 : FVec F S50000x128 .f32)
    = aggK (F := F) (m ((c.tc : Thread nD τ).loc main_arg1)) (U6 m c main_v55) := by
  refine (ops2_v67 (U6 m c)).trans ?_
  rw [U6_v1 m c, U6_v3 m c, U6_v15 m c, ← aggK_eq]
theorem U7_v55 : U7 m c main_v55 = U6 m c main_v55 := U7_of m c main_v55 (by decide)
theorem U7_v69 : (U7 m c main_v69 : FVec F S128x128 .f32) = wlK (m ((c.tc : Thread nD τ).loc main_arg3)) 2 := by
  refine (ops2_v69 (U6 m c)).trans ?_
  rw [show (U6 m c main_arg3 : FVec F S3x128x128 .f32) = m ((c.tc : Thread nD τ).loc main_arg3) from
    U6_arg m c main_arg3 (by decide) (by decide) (by decide) (by decide) (by decide) (by decide)]
theorem U7_v71 : (U7 m c main_v71 : FVec F S128x128 .f32) = wrK (m ((c.tc : Thread nD τ).loc main_arg4)) 2 := by
  refine (ops2_v71 (U6 m c)).trans ?_
  rw [show (U6 m c main_arg4 : FVec F S3x128x128 .f32) = m ((c.tc : Thread nD τ).loc main_arg4) from
    U6_arg m c main_arg4 (by decide) (by decide) (by decide) (by decide) (by decide) (by decide)]
theorem U7_v74 : (U7 m c main_v74 : FVec F S1x128 .f32) = bK (m ((c.tc : Thread nD τ).loc main_arg5)) 2 := by
  refine (ops2_v74 (U6 m c)).trans ?_
  rw [show (U6 m c main_arg5 : FVec F S3x128 .f32) = m ((c.tc : Thread nD τ).loc main_arg5) from
    U6_arg m c main_arg5 (by decide) (by decide) (by decide) (by decide) (by decide) (by decide)]

/-! The pooling stage's inputs. -/

theorem U9_v75 : U9 m c main_v75 = U8 m c main_v75 := U9_of m c main_v75 (by decide)
theorem U9_v76 : (U9 m c main_v76 : IVec S50000x1 32) = batK (m ((c.tc : Thread nD τ).loc main_arg2)) := by
  refine (ops3_v76 (U8 m c)).trans ?_
  rw [show (U8 m c main_arg2 : IVec S50000 32) = m ((c.tc : Thread nD τ).loc main_arg2) from
    (U8_of m c main_arg2 (by decide)).trans <| (U7_of m c main_arg2 (by decide)).trans <|
      U6_arg m c main_arg2 (by decide) (by decide) (by decide) (by decide) (by decide) (by decide)]

end Chain

/-! ## The result array is the network of the launch contents -/

section Result

variable (m : (ℓ : Loc nD τ sig) → Buf (Elt Ideal) ℓ) (c : Dev nD)

/-- The first stage's result is the first layer of the launch features. -/
theorem layer1
    (hf0 : ∀ (V : (c : Dev nD) → (b : Ref sig .tc) → Buf (Elt Ideal) ((c : Thread nD τ).loc b)) (c : Dev nD),
      (dat0 (F := Ideal) V c).arrAt 5 cfg0.N = Cert.Spec.comb true (V c main_v27) (V c main_arg0) (V c main_v29) (V c main_v31) (V c main_v34)) :
    U4 m c main_v35 = Cert.Spec.comb true
      (aggK (F := Ideal) (m ((c.tc : Thread nD τ).loc main_arg1)) (m ((c.tc : Thread nD τ).loc main_arg0)))
      (m ((c.tc : Thread nD τ).loc main_arg0))
      (wlK (m ((c.tc : Thread nD τ).loc main_arg3)) 0) (wrK (m ((c.tc : Thread nD τ).loc main_arg4)) 0)
      (bK (m ((c.tc : Thread nD τ).loc main_arg5)) 0) := by
  refine (U4_self m c).trans ((hf0 (fun c b => V3 m c b) c).trans ?_)
  rw [V3_v27 m c, V3_arg m c main_arg0 (by decide) (by decide) (by decide), V3_v29 m c, V3_v31 m c, V3_v34 m c]

/-- The second stage's result is the second layer of the first stage's. -/
theorem layer2
    (hf1 : ∀ (V : (c : Dev nD) → (b : Ref sig .tc) → Buf (Elt Ideal) ((c : Thread nD τ).loc b)) (c : Dev nD),
      (dat1 (F := Ideal) V c).arrAt 5 cfg1.N = Cert.Spec.comb true (V c main_v47) (V c main_v35) (V c main_v49) (V c main_v51) (V c main_v54)) :
    U6 m c main_v55 = Cert.Spec.comb true
      (aggK (F := Ideal) (m ((c.tc : Thread nD τ).loc main_arg1)) (U4 m c main_v35))
      (U4 m c main_v35)
      (wlK (m ((c.tc : Thread nD τ).loc main_arg3)) 1) (wrK (m ((c.tc : Thread nD τ).loc main_arg4)) 1)
      (bK (m ((c.tc : Thread nD τ).loc main_arg5)) 1) := by
  refine (U6_self m c).trans ((hf1 (fun c b => U5 m c b) c).trans ?_)
  rw [U5_v47 m c, U5_v35 m c, U5_v49 m c, U5_v51 m c, U5_v54 m c]

/-- The third stage's result is the third layer of the second stage's. -/
theorem layer3
    (hf2 : ∀ (V : (c : Dev nD) → (b : Ref sig .tc) → Buf (Elt Ideal) ((c : Thread nD τ).loc b)) (c : Dev nD),
      (dat2 (F := Ideal) V c).arrAt 5 cfg2.N = Cert.Spec.comb false (V c main_v67) (V c main_v55) (V c main_v69) (V c main_v71) (V c main_v74)) :
    U8 m c main_v75 = Cert.Spec.comb false
      (aggK (F := Ideal) (m ((c.tc : Thread nD τ).loc main_arg1)) (U6 m c main_v55))
      (U6 m c main_v55)
      (wlK (m ((c.tc : Thread nD τ).loc main_arg3)) 2) (wrK (m ((c.tc : Thread nD τ).loc main_arg4)) 2)
      (bK (m ((c.tc : Thread nD τ).loc main_arg5)) 2) := by
  refine (U8_self m c).trans ((hf2 (fun c b => U7 m c b) c).trans ?_)
  rw [U7_v67 m c, U7_v55 m c, U7_v69 m c, U7_v71 m c, U7_v74 m c]

/-- The program's result array is the three-layer network, pooled, of what the six arguments held at the launch. -/
theorem result_eq
    (hf0 : ∀ (V : (c : Dev nD) → (b : Ref sig .tc) → Buf (Elt Ideal) ((c : Thread nD τ).loc b)) (c : Dev nD),
      (dat0 (F := Ideal) V c).arrAt 5 cfg0.N = Cert.Spec.comb true (V c main_v27) (V c main_arg0) (V c main_v29) (V c main_v31) (V c main_v34))
    (hf1 : ∀ (V : (c : Dev nD) → (b : Ref sig .tc) → Buf (Elt Ideal) ((c : Thread nD τ).loc b)) (c : Dev nD),
      (dat1 (F := Ideal) V c).arrAt 5 cfg1.N = Cert.Spec.comb true (V c main_v47) (V c main_v35) (V c main_v49) (V c main_v51) (V c main_v54))
    (hf2 : ∀ (V : (c : Dev nD) → (b : Ref sig .tc) → Buf (Elt Ideal) ((c : Thread nD τ).loc b)) (c : Dev nD),
      (dat2 (F := Ideal) V c).arrAt 5 cfg2.N = Cert.Spec.comb false (V c main_v67) (V c main_v55) (V c main_v69) (V c main_v71) (V c main_v74))
    (hf3 : ∀ (V : (c : Dev nD) → (b : Ref sig .tc) → Buf (Elt Ideal) ((c : Thread nD τ).loc b)) (c : Dev nD),
      (dat3 (F := Ideal) V c).arrAt 2 cfg3.N = Cert.Spec.pool (V c main_v75) (V c main_v76)) :
    U10 m c main_v77 = Cert.Spec.net (aggK (F := Ideal) (m ((c.tc : Thread nD τ).loc main_arg1))) (m ((c.tc : Thread nD τ).loc main_arg0))
      (wlK (m ((c.tc : Thread nD τ).loc main_arg3))) (wrK (m ((c.tc : Thread nD τ).loc main_arg4))) (bK (m ((c.tc : Thread nD τ).loc main_arg5)))
      (batK (m ((c.tc : Thread nD τ).loc main_arg2))) := by
  refine (U10_self m c).trans ((hf3 (fun c b => U9 m c b) c).trans ?_)
  unfold Cert.Spec.net
  rw [U9_v75 m c, U9_v76 m c, layer3 m c hf2, layer2 m c hf1, layer1 m c hf0]

end Result

end Cert.KernelIdeal.Val

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.RefVal.lean ====
/-
  The reference program's result is the three-layer network of the specification.

  At the extended reals each layer of the reference is  a · Wl + x · Wr + b  read entry by entry, clipped below at zero on
  the first two layers; the aggregate a entering a layer is one fixed map of the features entering it (gather the source
  rows, accumulate them on the destination rows, scale each row by the inverse degree); and the last operation, an
  accumulating row scatter into a zero [128 × 128] array by graph id, is the pooling sum.
-/
import proofs.«415025_j5626407158206_1_alg».proof.Proof.RefRead
import proofs.«415025_j5626407158206_1_alg».proof.Proof.Spec
import proofs.«415025_j5626407158206_1_alg».proof.Proof.LibRows
import proofs.«415025_j5626407158206_1_alg».proof.Proof.LibDense
import Idealize.ShloMosaic.Lib.ValueIdx
import Idealize.ShloMosaic.Lib.StableHlo.Predicate
import Idealize.ShloMosaic.Lib.KernelVsHost
import Idealize.ShloMosaic.Lib.IdealHost
import Idealize.ShloMosaic.PureOps.Ideal.Laws

noncomputable section

namespace Cert.RefVal

open Cert.ReferenceIdeal Cert.ReferenceIdeal.Gen Cert.ReferenceIdeal.ReadP Idealize.ShloMosaic Idealize.ShloMosaic.ValueIdx

/-- The aggregation map of the reference: gather the source rows of x, accumulate them on their destination rows into a
    zero array, and scale row by row by the inverse degree. -/
def aggR (x1 : (⟨S2x1600000, .i32⟩ : BufTy).Contents (Elt Ideal)) : FVec Ideal S50000x128 .f32 → FVec Ideal S50000x128 .f32 := fun x =>
  mulf (Host.scatterAdd scatter_S50000x128_S1600000x1_S1600000x128_1_0_0_1 (val_main_v23 (F := Ideal)) (val_main_v24 (F := Ideal) x1)
         (Host.gather gather_S50000x128_S1600000x1_S1600000x128_1_0_n_n_0_1_1128 x (val_main_v21 (F := Ideal) x1)))
       (val_main_v26 (F := Ideal) x1)

/-- The three left weight matrices, by layer. -/
def wlR (x3 : (⟨S3x128x128, .f32⟩ : BufTy).Contents (Elt Ideal)) : Fin 3 → FVec Ideal S128x128 .f32 := fun
  | 0 => val_main_v29 (F := Ideal) x3
  | 1 => val_main_v54 (F := Ideal) x3
  | 2 => val_main_v79 (F := Ideal) x3

/-- The three right weight matrices, by layer. -/
def wrR (x4 : (⟨S3x128x128, .f32⟩ : BufTy).Contents (Elt Ideal)) : Fin 3 → FVec Ideal S128x128 .f32 := fun
  | 0 => val_main_v32 (F := Ideal) x4
  | 1 => val_main_v57 (F := Ideal) x4
  | 2 => val_main_v82 (F := Ideal) x4

/-- The three bias rows, by layer. -/
def bR (x5 : (⟨S3x128, .f32⟩ : BufTy).Contents (Elt Ideal)) : Fin 3 → FVec Ideal S1x128 .f32 := fun
  | 0 => val_main_v37 (F := Ideal) x5
  | 1 => val_main_v62 (F := Ideal) x5
  | 2 => val_main_v87 (F := Ideal) x5

/-! ## One layer -/

/-- A zero constant splat over the node features reads zero everywhere. -/
theorem zero_splat (i : S50000x128.Idx) :
    broadcastInDim S50000x128 ![] bcast_S_S50000x128 (constant S_ .f32 0x00000000#32 : FVec Ideal S_ .f32) i = 0 := by
  rw [broadcastInDim_scalar_apply, constant_apply, Ideal.ofBits_zero_f32]

/-- The affine part of a layer, read at (p, q). -/
theorem affine_apply (a x : FVec Ideal S50000x128 .f32) (wl wr : FVec Ideal S128x128 .f32) (b : FVec Ideal S1x128 .f32)
    (p : Fin 50000) (q : Fin 128) :
    addf (addf (Host.dotGeneral dot_S50000x128_S128x128_S50000x128_1_0_0_1_n_n none a wl)
               (Host.dotGeneral dot_S50000x128_S128x128_S50000x128_1_0_0_1_n_n none x wr))
         (broadcastInDim S50000x128 ![0, 1] bcast_S1x128_S50000x128_0_1 b) (ix2 p q)
      = Cert.Spec.combZ a x wl wr b p q := by
  have h1 : Host.dotGeneral dot_S50000x128_S128x128_S50000x128_1_0_0_1_n_n none a wl (ix2 p q)
      = ∑ k : Fin 128, a (ix2 p k) * wl (ix2 k q) :=
    Cert.LibDense.dotGeneral_apply dot_S50000x128_S128x128_S50000x128_1_0_0_1_n_n none .single rfl rfl rfl rfl rfl rfl a wl p q
  have h2 : Host.dotGeneral dot_S50000x128_S128x128_S50000x128_1_0_0_1_n_n none x wr (ix2 p q)
      = ∑ k : Fin 128, x (ix2 p k) * wr (ix2 k q) :=
    Cert.LibDense.dotGeneral_apply dot_S50000x128_S128x128_S50000x128_1_0_0_1_n_n none .single rfl rfl rfl rfl rfl rfl x wr p q
  have h3 : broadcastInDim S50000x128 ![0, 1] bcast_S1x128_S50000x128_0_1 b (ix2 p q) = b (ix2 (0 : Fin 1) q) :=
    broadcastInDim_oneRow_apply bcast_S1x128_S50000x128_0_1 b p q
  rw [addf_apply, addf_apply, h1, h2, h3]
  rfl

/-- A layer with the clip at zero. -/
theorem layer_relu (a x : FVec Ideal S50000x128 .f32) (wl wr : FVec Ideal S128x128 .f32) (b : FVec Ideal S1x128 .f32) :
    maximumf (addf (addf (Host.dotGeneral dot_S50000x128_S128x128_S50000x128_1_0_0_1_n_n none a wl)
                         (Host.dotGeneral dot_S50000x128_S128x128_S50000x128_1_0_0_1_n_n none x wr))
                   (broadcastInDim S50000x128 ![0, 1] bcast_S1x128_S50000x128_0_1 b))
             (broadcastInDim S50000x128 ![] bcast_S_S50000x128 (constant S_ .f32 0x00000000#32))
      = Cert.Spec.comb true a x wl wr b := by
  funext i
  obtain ⟨p, q, rfl⟩ : ∃ (p : Fin 50000) (q : Fin 128), i = ix2 p q := ⟨i 0, i 1, eq_ix2 i⟩
  rw [Cert.Spec.comb_apply, if_pos rfl, maximumf_apply, affine_apply, zero_splat]

/-- A layer without the clip. -/
theorem layer_id (a x : FVec Ideal S50000x128 .f32) (wl wr : FVec Ideal S128x128 .f32) (b : FVec Ideal S1x128 .f32) :
    addf (addf (Host.dotGeneral dot_S50000x128_S128x128_S50000x128_1_0_0_1_n_n none a wl)
               (Host.dotGeneral dot_S50000x128_S128x128_S50000x128_1_0_0_1_n_n none x wr))
         (broadcastInDim S50000x128 ![0, 1] bcast_S1x128_S50000x128_0_1 b)
      = Cert.Spec.comb false a x wl wr b := by
  funext i
  obtain ⟨p, q, rfl⟩ : ∃ (p : Fin 50000) (q : Fin 128), i = ix2 p q := ⟨i 0, i 1, eq_ix2 i⟩
  rw [Cert.Spec.comb_apply, if_neg (by decide), affine_apply]

/-! ## The aggregate entering each layer -/

/-- The source column, the destination column, the zero operand and the inverse-degree array are computed anew before each
    layer from the same operands by the same operations. -/
theorem src_1 (x1 : (⟨S2x1600000, .i32⟩ : BufTy).Contents (Elt Ideal)) : val_main_v46 (F := Ideal) x1 = val_main_v21 (F := Ideal) x1 := rfl
theorem src_2 (x1 : (⟨S2x1600000, .i32⟩ : BufTy).Contents (Elt Ideal)) : val_main_v71 (F := Ideal) x1 = val_main_v21 (F := Ideal) x1 := rfl
theorem dst_1 (x1 : (⟨S2x1600000, .i32⟩ : BufTy).Contents (Elt Ideal)) : val_main_v49 (F := Ideal) x1 = val_main_v24 (F := Ideal) x1 := rfl
theorem dst_2 (x1 : (⟨S2x1600000, .i32⟩ : BufTy).Contents (Elt Ideal)) : val_main_v74 (F := Ideal) x1 = val_main_v24 (F := Ideal) x1 := rfl
theorem zero_1 : val_main_v48 (F := Ideal) = val_main_v23 (F := Ideal) := rfl
theorem zero_2 : val_main_v73 (F := Ideal) = val_main_v23 (F := Ideal) := rfl
theorem inv_1 (x1 : (⟨S2x1600000, .i32⟩ : BufTy).Contents (Elt Ideal)) : val_main_v51 (F := Ideal) x1 = val_main_v26 (F := Ideal) x1 := rfl
theorem inv_2 (x1 : (⟨S2x1600000, .i32⟩ : BufTy).Contents (Elt Ideal)) : val_main_v76 (F := Ideal) x1 = val_main_v26 (F := Ideal) x1 := rfl

theorem agg_0 (x0 : (⟨S50000x128, .f32⟩ : BufTy).Contents (Elt Ideal)) (x1 : (⟨S2x1600000, .i32⟩ : BufTy).Contents (Elt Ideal)) :
    val_main_v27 (F := Ideal) x0 x1 = aggR x1 x0 := rfl

theorem agg_1 (x0 : (⟨S50000x128, .f32⟩ : BufTy).Contents (Elt Ideal)) (x1 : (⟨S2x1600000, .i32⟩ : BufTy).Contents (Elt Ideal))
    (x3 x4 : (⟨S3x128x128, .f32⟩ : BufTy).Contents (Elt Ideal)) (x5 : (⟨S3x128, .f32⟩ : BufTy).Contents (Elt Ideal)) :
    val_main_v52 (F := Ideal) x0 x1 x3 x4 x5 = aggR x1 (val_main_v40 (F := Ideal) x0 x1 x3 x4 x5) := by
  unfold val_main_v52 val_main_v50 val_main_v47 aggR
  rw [src_1, dst_1, zero_1, inv_1]

theorem agg_2 (x0 : (⟨S50000x128, .f32⟩ : BufTy).Contents (Elt Ideal)) (x1 : (⟨S2x1600000, .i32⟩ : BufTy).Contents (Elt Ideal))
    (x3 x4 : (⟨S3x128x128, .f32⟩ : BufTy).Contents (Elt Ideal)) (x5 : (⟨S3x128, .f32⟩ : BufTy).Contents (Elt Ideal)) :
    val_main_v77 (F := Ideal) x0 x1 x3 x4 x5 = aggR x1 (val_main_v65 (F := Ideal) x0 x1 x3 x4 x5) := by
  unfold val_main_v77 val_main_v75 val_main_v72 aggR
  rw [src_2, dst_2, zero_2, inv_2]

/-! ## The three layers -/

theorem layer_0 (x0 : (⟨S50000x128, .f32⟩ : BufTy).Contents (Elt Ideal)) (x1 : (⟨S2x1600000, .i32⟩ : BufTy).Contents (Elt Ideal))
    (x3 x4 : (⟨S3x128x128, .f32⟩ : BufTy).Contents (Elt Ideal)) (x5 : (⟨S3x128, .f32⟩ : BufTy).Contents (Elt Ideal)) :
    val_main_v40 (F := Ideal) x0 x1 x3 x4 x5 = Cert.Spec.comb true (aggR x1 x0) x0 (wlR x3 0) (wrR x4 0) (bR x5 0) := by
  unfold val_main_v40 val_main_v39 val_main_v34 val_main_v30 val_main_v33 val_main_v38 val_main_call1_v0 val_main_call1_cst
  rw [agg_0]
  exact layer_relu (aggR x1 x0) x0 (val_main_v29 (F := Ideal) x3) (val_main_v32 (F := Ideal) x4) (val_main_v37 (F := Ideal) x5)

theorem layer_1 (x0 : (⟨S50000x128, .f32⟩ : BufTy).Contents (Elt Ideal)) (x1 : (⟨S2x1600000, .i32⟩ : BufTy).Contents (Elt Ideal))
    (x3 x4 : (⟨S3x128x128, .f32⟩ : BufTy).Contents (Elt Ideal)) (x5 : (⟨S3x128, .f32⟩ : BufTy).Contents (Elt Ideal)) :
    val_main_v65 (F := Ideal) x0 x1 x3 x4 x5
      = Cert.Spec.comb true (aggR x1 (val_main_v40 (F := Ideal) x0 x1 x3 x4 x5)) (val_main_v40 (F := Ideal) x0 x1 x3 x4 x5)
          (wlR x3 1) (wrR x4 1) (bR x5 1) := by
  unfold val_main_v65 val_main_v64 val_main_v59 val_main_v55 val_main_v58 val_main_v63 val_main_call2_v0 val_main_call2_cst
  rw [agg_1]
  exact layer_relu (aggR x1 (val_main_v40 (F := Ideal) x0 x1 x3 x4 x5)) (val_main_v40 (F := Ideal) x0 x1 x3 x4 x5)
    (val_main_v54 (F := Ideal) x3) (val_main_v57 (F := Ideal) x4) (val_main_v62 (F := Ideal) x5)

theorem layer_2 (x0 : (⟨S50000x128, .f32⟩ : BufTy).Contents (Elt Ideal)) (x1 : (⟨S2x1600000, .i32⟩ : BufTy).Contents (Elt Ideal))
    (x3 x4 : (⟨S3x128x128, .f32⟩ : BufTy).Contents (Elt Ideal)) (x5 : (⟨S3x128, .f32⟩ : BufTy).Contents (Elt Ideal)) :
    val_main_v89 (F := Ideal) x0 x1 x3 x4 x5
      = Cert.Spec.comb false (aggR x1 (val_main_v65 (F := Ideal) x0 x1 x3 x4 x5)) (val_main_v65 (F := Ideal) x0 x1 x3 x4 x5)
          (wlR x3 2) (wrR x4 2) (bR x5 2) := by
  unfold val_main_v89 val_main_v84 val_main_v80 val_main_v83 val_main_v88
  rw [agg_2]
  exact layer_id (aggR x1 (val_main_v65 (F := Ideal) x0 x1 x3 x4 x5)) (val_main_v65 (F := Ideal) x0 x1 x3 x4 x5)
    (val_main_v79 (F := Ideal) x3) (val_main_v82 (F := Ideal) x4) (val_main_v87 (F := Ideal) x5)

/-! ## The pooling -/

/-- An accumulating row scatter of the node features into a zero [128 × 128] array by graph id is the pooling sum. -/
theorem pool_eq (X : FVec Ideal S50000x128 .f32) (b : IVec S50000x1 32) :
    Host.scatterAdd scatter_S128x128_S50000x1_S50000x128_1_0_0_1 (val_main_v90 (F := Ideal)) b X = Cert.Spec.pool X b := by
  funext i
  obtain ⟨g, d, rfl⟩ : ∃ (g : Fin 128) (d : Fin 128), i = ix2 g d := ⟨i 0, i 1, eq_ix2 i⟩
  rw [Cert.LibRows.scatterAdd_rows scatter_S128x128_S50000x1_S50000x128_1_0_0_1 rfl rfl rfl rfl (val_main_v90 (F := Ideal)) b X g d,
    Cert.Spec.pool_apply]
  have hz : val_main_v90 (F := Ideal) (ix2 g d) = 0 := by
    unfold val_main_v90 val_main_cst_13
    rw [broadcastInDim_scalar_apply, constant_apply, Ideal.ofBits_zero_f32]
  rw [hz, zero_add]

/-! ## The result -/

theorem ref_net (x0 : (⟨S50000x128, .f32⟩ : BufTy).Contents (Elt Ideal)) (x1 : (⟨S2x1600000, .i32⟩ : BufTy).Contents (Elt Ideal))
    (x2 : (⟨S50000, .i32⟩ : BufTy).Contents (Elt Ideal))
    (x3 x4 : (⟨S3x128x128, .f32⟩ : BufTy).Contents (Elt Ideal)) (x5 : (⟨S3x128, .f32⟩ : BufTy).Contents (Elt Ideal)) :
    val_main_v92 (F := Ideal) x0 x1 x2 x3 x4 x5
      = Cert.Spec.net (aggR x1) x0 (wlR x3) (wrR x4) (bR x5) (val_main_v91 (F := Ideal) x2) := by
  unfold val_main_v92
  rw [pool_eq, layer_2, layer_1, layer_0]
  rfl

end Cert.RefVal

end
-- ==== Proof.LibLayout.lean ====
/-
  Two spellings of one re-layout. A vector of n entries laid out as one row: the reshape to [1 × n] and the broadcast
  along axis 1 into [1 × n] hold the same entries. A vector of n entries laid out as one column: the reshape to
  [n × 1] and the broadcast along axis 0 into [n × 1] likewise.
-/
import Idealize.ShloMosaic.Lib.Pipeline.Value
import Idealize.ShloMosaic.Lib.ValueIdx

noncomputable section

namespace Cert.LibLayout

open Idealize.ShloMosaic Idealize.ShloMosaic.ValueIdx

/-- As one row. -/
theorem shapeCast_row_eq_broadcastInDim {α : Type} {n : ℕ} (v : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ v h = broadcastInDim ⟨2, ![1, n]⟩ ![1] hd v := by
  funext i
  have e2 := shapeCast_apply v h i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e3 := broadcastInDim_apply ![1] hd v i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-- As one column. -/
theorem shapeCast_col_eq_broadcastInDim {α : Type} {n : ℕ} (v : (⟨1, ![n]⟩ : Shape).Idx → α)
    (h : (⟨1, ![n]⟩ : Shape).ShapeCasts ⟨2, ![n, 1]⟩) (hd : (⟨1, ![n]⟩ : Shape).BroadcastsInDim ⟨2, ![n, 1]⟩ ![0]) :
    shapeCast ⟨2, ![n, 1]⟩ v h = broadcastInDim ⟨2, ![n, 1]⟩ ![0] hd v := by
  funext i
  have e2 := shapeCast_apply v h i (ix1 (i 0 : Fin n)) (by
    rw [Shape.rowMajor_val_two, Shape.rowMajor_val_one]
    have h1 : (i 1).val < 1 := (i 1).isLt
    show (i 0).val = (i 0).val * 1 + (i 1).val
    omega)
  have e3 := broadcastInDim_apply ![0] hd v i (ix1 (i 0 : Fin n)) (by
    intro a
    match a with
    | ⟨0, _⟩ =>
      show (i 0).val = if n = 1 then 0 else (i 0).val
      split
      · have := (i 0).isLt; have e : (i 0).val < n := this; omega
      · rfl)
  exact e2.trans e3.symm

end Cert.LibLayout

end
-- ==== Proof.Bridge.lean ====
/-
  The kernel program's host pieces and the reference's are the same functions of the arguments: the aggregation map,
  the three pairs of weight matrices, the three bias rows (the kernel program reshapes a bias vector into a row where
  the reference broadcasts it into one) and the column of graph ids (reshaped in the one, broadcast in the other).
-/
import proofs.«415025_j5626407158206_1_alg».proof.Proof.KI.ValHost
import proofs.«415025_j5626407158206_1_alg».proof.Proof.RefVal
import proofs.«415025_j5626407158206_1_alg».proof.Proof.LibLayout

noncomputable section

namespace Cert.Bridge

open Idealize.ShloMosaic Idealize.ShloMosaic.TcCoe

/-- The aggregation maps agree: the same operations on the same edge array. -/
theorem agg_eq (e : (⟨Cert.ReferenceIdeal.S2x1600000, .i32⟩ : BufTy).Contents (Elt Ideal)) :
    Cert.KernelIdeal.Val.aggK (F := Ideal) e = Cert.RefVal.aggR e := by
  rfl

theorem wl_eq (a : (⟨Cert.ReferenceIdeal.S3x128x128, .f32⟩ : BufTy).Contents (Elt Ideal)) :
    Cert.KernelIdeal.Val.wlK (F := Ideal) a = Cert.RefVal.wlR a := by
  funext l
  match l with
  | ⟨0, _⟩ => rfl
  | ⟨1, _⟩ => rfl
  | ⟨2, _⟩ => rfl

theorem wr_eq (a : (⟨Cert.ReferenceIdeal.S3x128x128, .f32⟩ : BufTy).Contents (Elt Ideal)) :
    Cert.KernelIdeal.Val.wrK (F := Ideal) a = Cert.RefVal.wrR a := by
  funext l
  match l with
  | ⟨0, _⟩ => rfl
  | ⟨1, _⟩ => rfl
  | ⟨2, _⟩ => rfl

theorem b_eq (a : (⟨Cert.ReferenceIdeal.S3x128, .f32⟩ : BufTy).Contents (Elt Ideal)) :
    Cert.KernelIdeal.Val.bK (F := Ideal) a = Cert.RefVal.bR a := by
  funext l
  match l with
  | ⟨0, _⟩ => exact Cert.LibLayout.shapeCast_row_eq_broadcastInDim _ Cert.KernelIdeal.Facts₀.shapeCasts_S128_S1x128 Cert.ReferenceIdeal.Facts₀.bcast_S128_S1x128_1
  | ⟨1, _⟩ => exact Cert.LibLayout.shapeCast_row_eq_broadcastInDim _ Cert.KernelIdeal.Facts₀.shapeCasts_S128_S1x128 Cert.ReferenceIdeal.Facts₀.bcast_S128_S1x128_1
  | ⟨2, _⟩ => exact Cert.LibLayout.shapeCast_row_eq_broadcastInDim _ Cert.KernelIdeal.Facts₀.shapeCasts_S128_S1x128 Cert.ReferenceIdeal.Facts₀.bcast_S128_S1x128_1

theorem bat_eq (a : (⟨Cert.ReferenceIdeal.S50000, .i32⟩ : BufTy).Contents (Elt Ideal)) :
    Cert.KernelIdeal.Val.batK a = Cert.ReferenceIdeal.ReadP.val_main_v91 (F := Ideal) a :=
  Cert.LibLayout.shapeCast_col_eq_broadcastInDim _ Cert.KernelIdeal.Facts₀.shapeCasts_S50000_S50000x1 Cert.ReferenceIdeal.Facts₀.bcast_S50000_S50000x1_0

end Cert.Bridge

end
-- ==== Proof.lean ====
/-
  The certificate's five claims.

  The three frames: each program runs to its end from any memory with zero counters, faults nowhere, and leaves its six
  arguments as launched — for the kernel program at both float instances by the run of its ten items (host stretches and
  the four kernel stages), for the reference by its run as a list of host operations. The idealized kernel is the kernel's
  own text read at the extended reals (no rewrite was applied). And the two idealized programs compute one function of
  the arguments: three layers  max(0, mean-aggregate(x) · Wl + x · Wr + b)  (the last without the max), then the sum of
  the node features over each graph id; the kernel program computes the layers row block by row block and the pooling as
  a product with the transposed one-hot matrix of the ids accumulated over the row blocks, the reference by whole-array
  products and an accumulating scatter; on the extended reals both are the same finite sums, term by term.
-/
import proofs.«415025_j5626407158206_1_alg».proof.Defs
import proofs.«415025_j5626407158206_1_alg».proof.Proof.Gen.Kernel
import proofs.«415025_j5626407158206_1_alg».proof.Proof.Gen.KernelIdeal
import proofs.«415025_j5626407158206_1_alg».proof.Proof.Gen.ReferenceIdeal
import proofs.«415025_j5626407158206_1_alg».proof.Proof.Gen.Pre_finite_inputs
import proofs.«415025_j5626407158206_1_alg».proof.Proof.K.Run
import proofs.«415025_j5626407158206_1_alg».proof.Proof.KI.Run
import proofs.«415025_j5626407158206_1_alg».proof.Proof.RefRun
import proofs.«415025_j5626407158206_1_alg».proof.Proof.KI.ValComb
import proofs.«415025_j5626407158206_1_alg».proof.Proof.KI.ValPool
import proofs.«415025_j5626407158206_1_alg».proof.Proof.KI.ValHost
import proofs.«415025_j5626407158206_1_alg».proof.Proof.RefRead
import proofs.«415025_j5626407158206_1_alg».proof.Proof.RefVal
import proofs.«415025_j5626407158206_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨fun c => Cert.Spec.net (Cert.RefVal.aggR (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (Cert.RefVal.wlR (m ((c.tc : Thread Cert.KernelIdeal.nD Cert.KernelIdeal.τ).loc Cert.KernelIdeal.main_arg3)))
      (Cert.RefVal.wrR (m ((c.tc : Thread Cert.KernelIdeal.nD Cert.KernelIdeal.τ).loc Cert.KernelIdeal.main_arg4)))
      (Cert.RefVal.bR (m ((c.tc : Thread Cert.KernelIdeal.nD Cert.KernelIdeal.τ).loc Cert.KernelIdeal.main_arg5)))
      (Cert.ReferenceIdeal.ReadP.val_main_v91 (F := Ideal) (m ((c.tc : Thread Cert.KernelIdeal.nD Cert.KernelIdeal.τ).loc Cert.KernelIdeal.main_arg2))), ?_, ?_⟩
  · -- the kernel program: its run, its result read through the stages and the host stretches, the pieces renamed
    refine (θ_run Cert.KernelIdeal.defs _ _).mono (fun _ h c => ⟨(h c).1.trans ?_, (h c).2⟩) (Cert.KernelIdeal.Hand.run_main (F := Ideal) m ρ)
    rw [Cert.KernelIdeal.Val.result_eq m c Cert.KernelIdeal.Val.final0 Cert.KernelIdeal.Val.final1 Cert.KernelIdeal.Val.final2 Cert.KernelIdeal.Val.final3,
      Cert.Bridge.agg_eq, Cert.Bridge.wl_eq, Cert.Bridge.wr_eq, Cert.Bridge.b_eq, Cert.Bridge.bat_eq]
  · -- the reference: its run, its result term as the network, the arguments' agreement
    refine (θ_run Cert.ReferenceIdeal.defs _ _).mono (fun _ h c => ⟨(h c).1.trans ?_, (h c).2⟩) (Cert.ReferenceIdeal.ValueP.run (F := Ideal) m' ρ')
    rw [Cert.ReferenceIdeal.ReadP.val_main_v92_eq, Cert.RefVal.ref_net, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
